-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S32000x256 : Shape := ⟨2, ![32000, 256]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32000 : S_.BroadcastsInDim S1024x32000 (![] : Fin 0 → Fin S1024x32000.rank)
  reducesTo_S1024x32000_S_d0_1 : S1024x32000.ReducesTo [0, 1] S_
  bcast_S_S32000 : S_.BroadcastsInDim S32000 (![] : Fin 0 → Fin S32000.rank)
  reducesTo_S32000_S_d0 : S32000.ReducesTo [0] S_
  bcast_S_S16x512 : S_.BroadcastsInDim S16x512 (![] : Fin 0 → Fin S16x512.rank)
  reducesTo_S16x512_S_d0_1 : S16x512.ReducesTo [0, 1] S_

variable [Facts]

def fn_part2 {F : FTy → Type} [FloatOps F] (main_arg1 : IVec S16x512 32) (main_v33 : IVec S_ 1) : IVec S_ 1 :=
  let main_c_12 : IVec S_ 32 := constantI S_ 32 0#32
  let main_v34 : IVec S16x512 32 := broadcastInDim S16x512 ![] bcast_S_S16x512 main_c_12
  let main_v35 : IVec S16x512 1 := cmpi .sge main_arg1 main_v34
  let main_c_13 : IVec S_ 32 := constantI S_ 32 32000#32
  let main_v36 : IVec S16x512 32 := broadcastInDim S16x512 ![] bcast_S_S16x512 main_c_13
  let main_v37 : IVec S16x512 1 := cmpi .slt main_arg1 main_v36
  let main_v38 : IVec S16x512 1 := andi main_v35 main_v37
  let main_c_14 : IVec S_ 1 := constantI S_ 1 1#1
  let main_v39 : IVec S_ 1 := (fun x v => Host.reduce IntOp.andi x v reducesTo_S16x512_S_d0_1 h_S_) main_v38 main_c_14
  let main_v40 : IVec S_ 1 := andi main_v33 main_v39
  main_v40

def fn_part1 {F : FTy → Type} [FloatOps F] (main_arg1 : IVec S16x512 32) (main_arg6 : FVec F S1024 .f32) (main_arg7 : FVec F S1024x32000 .f32) (main_arg8 : FVec F S32000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x32000 .f32 := Host.absf main_arg7
  let main_cst_8 : FVec F S_ .f32 := constant S_ .f32 0x7F800000#32
  let main_v25 : FVec F S1024x32000 .f32 := broadcastInDim S1024x32000 ![] bcast_S_S1024x32000 main_cst_8
  let main_v26 : IVec S1024x32000 1 := cmpf .olt main_v24 main_v25
  let main_c_9 : IVec S_ 1 := constantI S_ 1 1#1
  let main_v27 : IVec S_ 1 := (fun x v => Host.reduce IntOp.andi x v reducesTo_S1024x32000_S_d0_1 h_S_) main_v26 main_c_9
  let main_v28 : IVec S_ 1 := andi main_v23 main_v27
  let main_v29 : FVec F S32000 .f32 := Host.absf main_arg8
  let main_cst_10 : FVec F S_ .f32 := constant S_ .f32 0x7F800000#32
  let main_v30 : FVec F S32000 .f32 := broadcastInDim S32000 ![] bcast_S_S32000 main_cst_10
  let main_v31 : IVec S32000 1 := cmpf .olt main_v29 main_v30
  let main_c_11 : IVec S_ 1 := constantI S_ 1 1#1
  let main_v32 : IVec S_ 1 := (fun x v => Host.reduce IntOp.andi x v reducesTo_S32000_S_d0 h_S_) main_v31 main_c_11
  let main_v33 : IVec S_ 1 := andi main_v28 main_v32
  fn_part2 (F := F) main_arg1 main_v33

def fn {F : FTy → Type} [FloatOps F] (main_arg0 : IVec S16x512 32) (main_arg1 : IVec S16x512 32) (main_arg2 : FVec F S32000x256 .f32) (main_arg3 : FVec F S1024x1024 .f32) (main_arg4 : FVec F S1024 .f32) (main_arg5 : FVec F S1024x1024 .f32) (main_arg6 : FVec F S1024 .f32) (main_arg7 : FVec F S1024x32000 .f32) (main_arg8 : FVec F S32000 .f32) : IVec S_ 1 :=
  let main_v0 : FVec F S32000x256 .f32 := Host.absf main_arg2
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg6 main_arg7 main_arg8 main_v13 main_v16
-- ==== Kernel.lean ====
abbrev S16x512 : Shape := ⟨2, ![16, 512]⟩
abbrev S32000x256 : Shape := ⟨2, ![32000, 256]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S16x516 : Shape := ⟨2, ![16, 516]⟩
abbrev S512 : Shape := ⟨1, ![512]⟩
abbrev S512x1 : Shape := ⟨2, ![512, 1]⟩
abbrev S4 : Shape := ⟨1, ![4]⟩
abbrev S1x4 : Shape := ⟨2, ![1, 4]⟩
abbrev S512x4 : Shape := ⟨2, ![512, 4]⟩
abbrev S512x4x1 : Shape := ⟨3, ![512, 4, 1]⟩
abbrev S16x512x4 : Shape := ⟨3, ![16, 512, 4]⟩
abbrev S1 : Shape := ⟨1, ![1]⟩
abbrev S256 : Shape := ⟨1, ![256]⟩
abbrev S16x512x4x1 : Shape := ⟨4, ![16, 512, 4, 1]⟩
abbrev S16x512x4x256 : Shape := ⟨4, ![16, 512, 4, 256]⟩
abbrev S16x512x1024 : Shape := ⟨3, ![16, 512, 1024]⟩
abbrev S8192x1024 : Shape := ⟨2, ![8192, 1024]⟩
abbrev S8192x1 : Shape := ⟨2, ![8192, 1]⟩
abbrev S1x1024 : Shape := ⟨2, ![1, 1024]⟩
abbrev S1x32000 : Shape := ⟨2, ![1, 32000]⟩
abbrev S1024x1280 : Shape := ⟨2, ![1024, 1280]⟩
abbrev S1x1280 : Shape := ⟨2, ![1, 1280]⟩
abbrev S1024x1 : Shape := ⟨2, ![1024, 1]⟩

abbrev nBuf : Space → Nat
  | .hbm => 71
  | .vmem => 18
  | .smem => 0
  | _ => 0

abbrev bufTy : (tb : Table) → Fin (tcTables nBuf tb) → BufTy
  | .hbm, ⟨0, _⟩ => ⟨S16x512, .i32⟩
  | .hbm, ⟨1, _⟩ => ⟨S16x512, .i32⟩
  | .hbm, ⟨2, _⟩ => ⟨S32000x256, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x32000, .f32⟩
  | .hbm, ⟨8, _⟩ => ⟨S32000, .f32⟩
  | .hbm, ⟨9, _⟩ => ⟨S_, .i32⟩
  | .hbm, ⟨10, _⟩ => ⟨S_, .i32⟩
  | .hbm, ⟨11, _⟩ => ⟨S16x516, .i32⟩
  | .hbm, ⟨12, _⟩ => ⟨S512, .i32⟩
  | .hbm, ⟨13, _⟩ => ⟨S512x1, .i32⟩
  | .hbm, ⟨14, _⟩ => ⟨S4, .i32⟩
  | .hbm, ⟨15, _⟩ => ⟨S1x4, .i32⟩
  | .hbm, ⟨16, _⟩ => ⟨S512x4, .i32⟩
  | .hbm, ⟨17, _⟩ => ⟨S512x4, .i32⟩
  | .hbm, ⟨18, _⟩ => ⟨S512x4, .i32⟩
  | .hbm, ⟨19, _⟩ => ⟨S_, .i32⟩
  | .hbm, ⟨20, _⟩ => ⟨S512x4, .i32⟩
  | .hbm, ⟨21, _⟩ => ⟨S512x4, .i1⟩
  | .hbm, ⟨22, _⟩ => ⟨S_, .i32⟩
  | .hbm, ⟨23, _⟩ => ⟨S512x4, .i32⟩
  | .hbm, ⟨24, _⟩ => ⟨S512x4, .i32⟩
  | .hbm, ⟨25, _⟩ => ⟨S512x4, .i32⟩
  | .hbm, ⟨26, _⟩ => ⟨S512x4x1, .i32⟩
  | .hbm, ⟨27, _⟩ => ⟨S16x512x4, .i32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S256, .f32⟩
  | .hbm, ⟨32, _⟩ => ⟨S32000x256, .f32⟩
  | .hbm, ⟨33, _⟩ => ⟨S_, .i32⟩
  | .hbm, ⟨34, _⟩ => ⟨S16x512x4, .i32⟩
  | .hbm, ⟨35, _⟩ => ⟨S16x512x4, .i1⟩
  | .hbm, ⟨36, _⟩ => ⟨S_, .i32⟩
  | .hbm, ⟨37, _⟩ => ⟨S16x512x4, .i32⟩
  | .hbm, ⟨38, _⟩ => ⟨S16x512x4, .i32⟩
  | .hbm, ⟨39, _⟩ => ⟨S16x512x4, .i32⟩
  | .hbm, ⟨40, _⟩ => ⟨S16x512x4x1, .i32⟩
  | .hbm, ⟨41, _⟩ => ⟨S16x512x4x256, .f32⟩
  | .hbm, ⟨42, _⟩ => ⟨S16x512x1024, .f32⟩
  | .hbm, ⟨43, _⟩ => ⟨S8192x1024, .f32⟩
  | .hbm, ⟨44, _⟩ => ⟨S8192x1024, .bf16⟩
  | .hbm, ⟨45, _⟩ => ⟨S8192x1, .i32⟩
  | .hbm, ⟨46, _⟩ => ⟨S1024x1024, .bf16⟩
  | .hbm, ⟨47, _⟩ => ⟨S1024x1024, .bf16⟩
  | .hbm, ⟨48, _⟩ => ⟨S1024x32000, .bf16⟩
  | .hbm, ⟨49, _⟩ => ⟨S1x1024, .f32⟩
  | .hbm, ⟨50, _⟩ => ⟨S1x1024, .f32⟩
  | .hbm, ⟨51, _⟩ => ⟨S1x32000, .f32⟩
  | .hbm, ⟨52, _⟩ => ⟨S8192x1, .f32⟩
  | .hbm, ⟨53, _⟩ => ⟨S16x512, .f32⟩
  | .hbm, ⟨54, _⟩ => ⟨S_, .i32⟩
  | .hbm, ⟨55, _⟩ => ⟨S16x512, .i32⟩
  | .hbm, ⟨56, _⟩ => ⟨S16x512, .i1⟩
  | .hbm, ⟨57, _⟩ => ⟨S16x512, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S16x512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1280, .bf16⟩
  | .local _ .vmem, ⟨7, _⟩ => ⟨S1024x1280, .bf16⟩
  | .local _ .vmem, ⟨8, _⟩ => ⟨S1x1280, .f32⟩
  | .local _ .vmem, ⟨9, _⟩ => ⟨S1x1280, .f32⟩
  | .local _ .vmem, ⟨10, _⟩ => ⟨S1024x1, .i32⟩
  | .local _ .vmem, ⟨11, _⟩ => ⟨S1024x1, .i32⟩
  | .local _ .vmem, ⟨12, _⟩ => ⟨S1024x1, .f32⟩
  | .local _ .vmem, ⟨13, _⟩ => ⟨S1024x1, .f32⟩
  | .local _ .vmem, ⟨14, _⟩ => ⟨S1024x1024, .bf16⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v48 : BitVec 1 := Scalar.cmpi .eq arg1 c24_i32
  let v49 : BitVec 32 := Scalar.extui v48
  let c0_i32_24 : BitVec 32 := 0#32
  let v50 : BitVec 1 := Scalar.cmpi .ne v49 c0_i32_24
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  pads_S16x512_S16x516_000_400 : S16x512.Pads (![0, 4] : Fin 2 → Nat) ![0, 0] ![0, 0] S16x516
  h_S_ : 0 < S_.numel
  bcast_S512_S512x1_0 : S512.BroadcastsInDim S512x1 (![0] : Fin 1 → Fin S512x1.rank)
  bcast_S4_S1x4_1 : S4.BroadcastsInDim S1x4 (![1] : Fin 1 → Fin S1x4.rank)
  bcast_S512x1_S512x4_0_1 : S512x1.BroadcastsInDim S512x4 (![0, 1] : Fin 2 → Fin S512x4.rank)
  bcast_S1x4_S512x4_0_1 : S1x4.BroadcastsInDim S512x4 (![0, 1] : Fin 2 → Fin S512x4.rank)
  bcast_S_S512x4 : S_.BroadcastsInDim S512x4 (![] : Fin 0 → Fin S512x4.rank)
  bcast_S512x4_S512x4x1_0_1 : S512x4.BroadcastsInDim S512x4x1 (![0, 1] : Fin 2 → Fin S512x4x1.rank)
  bcast_S_S1 : S_.BroadcastsInDim S1 (![] : Fin 0 → Fin S1.rank)
  bcast_S_S256 : S_.BroadcastsInDim S256 (![] : Fin 0 → Fin S256.rank)
  bcast_S_S16x512x4 : S_.BroadcastsInDim S16x512x4 (![] : Fin 0 → Fin S16x512x4.rank)
  bcast_S16x512x4_S16x512x4x1_0_1_2 : S16x512x4.BroadcastsInDim S16x512x4x1 (![0, 1, 2] : Fin 3 → Fin S16x512x4x1.rank)
  shapeCasts_S16x512x4x256_S16x512x1024 : S16x512x4x256.ShapeCasts S16x512x1024
  shapeCasts_S16x512x1024_S8192x1024 : S16x512x1024.ShapeCasts S8192x1024
  bitsLt_bf16_f32 : FTy.bits .bf16 < FTy.bits .f32
  shapeCasts_S16x512_S8192x1 : S16x512.ShapeCasts S8192x1
  shapeCasts_S1024_S1x1024 : S1024.ShapeCasts S1x1024
  shapeCasts_S32000_S1x32000 : S32000.ShapeCasts S1x32000
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  shapeCasts_S8192x1_S16x512 : S8192x1.ShapeCasts S16x512
  bcast_S_S16x512 : S_.BroadcastsInDim S16x512 (![] : Fin 0 → Fin S16x512.rank)
  reducesTo_S16x512_S512_d0 : S16x512.ReducesTo [0] S512
  bcast_S_S512 : S_.BroadcastsInDim S512 (![] : Fin 0 → Fin S512.rank)
  reducesTo_S512_S_d0 : S512.ReducesTo [0] S_
  gather_S16x516_S512x4x1_S16x512x4_0_1_n_n_1_2_161_wf : GatherDims.WF S16x516 S512x4x1 S16x512x4 [0] [1] [] [1] [] 2 ![16, 1]
  scatter_S32000x256_S1_S256_0_0_0_0_wf : ScatterDims.WF S32000x256 S1 S256 [0] [0] [0] 0
  gather_S32000x256_S16x512x4x1_S16x512x4x256_3_0_n_n_0_3_1256_wf : GatherDims.WF S32000x256 S16x512x4x1 S16x512x4x256 [3] [0] [] [0] [] 3 ![1, 256]
  dot_S1024x1024_S1024x1024_S1024x1024_1_0_0_1_n_n_wf : DotDims.WF S1024x1024 S1024x1024 S1024x1024 [1] [0] [0] [1] [] []
  dot_S1024x1024_S1024x1280_S1024x1280_1_0_0_1_n_n_wf : DotDims.WF S1024x1024 S1024x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1280.size a ≤ S1024x32000.size a
  hwx0_5 : ∀ i : grid0.Coords, EltTy.bits .bf16 = 32 ∨ (Rect.block (s := S1024x32000) S1024x1280.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1280.size a ≤ S1x32000.size a
  hwx0_6 : ∀ i : grid0.Coords, EltTy.bits .f32 = 32 ∨ (Rect.block (s := S1x32000) S1x1280.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .i32 = 32 ∨ (Rect.block (s := S8192x1) S1024x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)

variable [Facts₀]

def gather_S16x516_S512x4x1_S16x512x4_0_1_n_n_1_2_161 : GatherDims S16x516 S512x4x1 S16x512x4 where
  offsetDims := [0]
  collapsedSliceDims := [1]
  operandBatchingDims := []
  startIndicesBatchingDims := []
  startIndexMap := [1]
  indexVectorDim := 2
  sliceSizes := ![16, 1]
  wf := gather_S16x516_S512x4x1_S16x512x4_0_1_n_n_1_2_161_wf
def scatter_S32000x256_S1_S256_0_0_0_0 : ScatterDims S32000x256 S1 S256 where
  updateWindowDims := [0]
  insertedWindowDims := [0]
  scatterDimsToOperandDims := [0]
  indexVectorDim := 0
  wf := scatter_S32000x256_S1_S256_0_0_0_0_wf
def gather_S32000x256_S16x512x4x1_S16x512x4x256_3_0_n_n_0_3_1256 : GatherDims S32000x256 S16x512x4x1 S16x512x4x256 where
  offsetDims := [3]
  collapsedSliceDims := [0]
  operandBatchingDims := []
  startIndicesBatchingDims := []
  startIndexMap := [0]
  indexVectorDim := 3
  sliceSizes := ![1, 256]
  wf := gather_S32000x256_S16x512x4x1_S16x512x4x256_3_0_n_n_0_3_1256_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf

abbrev win0_0 : Pipeline.Window sig grid0 :=
  Pipeline.Window.ofSpec (Memref.whole main_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1024x1280.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x1280.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1024x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x512 : Shape := ⟨2, ![16, 512]⟩
abbrev S32000x256 : Shape := ⟨2, ![32000, 256]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S16x516 : Shape := ⟨2, ![16, 516]⟩
abbrev S512 : Shape := ⟨1, ![512]⟩
abbrev S512x1 : Shape := ⟨2, ![512, 1]⟩
abbrev S4 : Shape := ⟨1, ![4]⟩
abbrev S1x4 : Shape := ⟨2, ![1, 4]⟩
abbrev S512x4 : Shape := ⟨2, ![512, 4]⟩
abbrev S512x4x1 : Shape := ⟨3, ![512, 4, 1]⟩
abbrev S16x512x4 : Shape := ⟨3, ![16, 512, 4]⟩
abbrev S1 : Shape := ⟨1, ![1]⟩
abbrev S256 : Shape := ⟨1, ![256]⟩
abbrev S16x512x4x1 : Shape := ⟨4, ![16, 512, 4, 1]⟩
abbrev S16x512x4x256 : Shape := ⟨4, ![16, 512, 4, 256]⟩
abbrev S16x512x1024 : Shape := ⟨3, ![16, 512, 1024]⟩
abbrev S1x1x1024 : Shape := ⟨3, ![1, 1, 1024]⟩
abbrev S16x512x32000 : Shape := ⟨3, ![16, 512, 32000]⟩
abbrev S1x1x32000 : Shape := ⟨3, ![1, 1, 32000]⟩
abbrev S16x512x1 : Shape := ⟨3, ![16, 512, 1]⟩
abbrev S16x512x1x1 : Shape := ⟨4, ![16, 512, 1, 1]⟩
abbrev S1x1x1x1 : Shape := ⟨4, ![1, 1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S16x512, .i32⟩
  | .hbm, ⟨1, _⟩ => ⟨S16x512, .i32⟩
  | .hbm, ⟨2, _⟩ => ⟨S32000x256, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x32000, .f32⟩
  | .hbm, ⟨8, _⟩ => ⟨S32000, .f32⟩
  | .hbm, ⟨9, _⟩ => ⟨S_, .i32⟩
  | .hbm, ⟨10, _⟩ => ⟨S_, .i32⟩
  | .hbm, ⟨11, _⟩ => ⟨S16x516, .i32⟩
  | .hbm, ⟨12, _⟩ => ⟨S512, .i32⟩
  | .hbm, ⟨13, _⟩ => ⟨S512x1, .i32⟩
  | .hbm, ⟨14, _⟩ => ⟨S4, .i32⟩
  | .hbm, ⟨15, _⟩ => ⟨S1x4, .i32⟩
  | .hbm, ⟨16, _⟩ => ⟨S512x4, .i32⟩
  | .hbm, ⟨17, _⟩ => ⟨S512x4, .i32⟩
  | .hbm, ⟨18, _⟩ => ⟨S512x4, .i32⟩
  | .hbm, ⟨19, _⟩ => ⟨S_, .i32⟩
  | .hbm, ⟨20, _⟩ => ⟨S512x4, .i32⟩
  | .hbm, ⟨21, _⟩ => ⟨S512x4, .i1⟩
  | .hbm, ⟨22, _⟩ => ⟨S_, .i32⟩
  | .hbm, ⟨23, _⟩ => ⟨S512x4, .i32⟩
  | .hbm, ⟨24, _⟩ => ⟨S512x4, .i32⟩
  | .hbm, ⟨25, _⟩ => ⟨S512x4, .i32⟩
  | .hbm, ⟨26, _⟩ => ⟨S512x4x1, .i32⟩
  | .hbm, ⟨27, _⟩ => ⟨S16x512x4, .i32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S256, .f32⟩
  | .hbm, ⟨32, _⟩ => ⟨S32000x256, .f32⟩
  | .hbm, ⟨33, _⟩ => ⟨S_, .i32⟩
  | .hbm, ⟨34, _⟩ => ⟨S16x512x4, .i32⟩
  | .hbm, ⟨35, _⟩ => ⟨S16x512x4, .i1⟩
  | .hbm, ⟨36, _⟩ => ⟨S_, .i32⟩
  | .hbm, ⟨37, _⟩ => ⟨S16x512x4, .i32⟩
  | .hbm, ⟨38, _⟩ => ⟨S16x512x4, .i32⟩
  | .hbm, ⟨39, _⟩ => ⟨S16x512x4, .i32⟩
  | .hbm, ⟨40, _⟩ => ⟨S16x512x4x1, .i32⟩
  | .hbm, ⟨41, _⟩ => ⟨S16x512x4x256, .f32⟩
  | .hbm, ⟨42, _⟩ => ⟨S16x512x1024, .f32⟩
  | .hbm, ⟨43, _⟩ => ⟨S16x512x1024, .f32⟩
  | .hbm, ⟨44, _⟩ => ⟨S1x1x1024, .f32⟩
  | .hbm, ⟨45, _⟩ => ⟨S16x512x1024, .f32⟩
  | .hbm, ⟨46, _⟩ => ⟨S16x512x1024, .f32⟩
  | .hbm, ⟨47, _⟩ => ⟨S_, .f32⟩
  | .hbm, ⟨48, _⟩ => ⟨S16x512x1024, .f32⟩
  | .hbm, ⟨49, _⟩ => ⟨S16x512x1024, .f32⟩
  | .hbm, ⟨50, _⟩ => ⟨S16x512x1024, .f32⟩
  | .hbm, ⟨51, _⟩ => ⟨S1x1x1024, .f32⟩
  | .hbm, ⟨52, _⟩ => ⟨S16x512x1024, .f32⟩
  | .hbm, ⟨53, _⟩ => ⟨S16x512x1024, .f32⟩
  | .hbm, ⟨54, _⟩ => ⟨S_, .f32⟩
  | .hbm, ⟨55, _⟩ => ⟨S16x512x1024, .f32⟩
  | .hbm, ⟨56, _⟩ => ⟨S16x512x1024, .f32⟩
  | .hbm, ⟨57, _⟩ => ⟨S16x512x32000, .f32⟩
  | .hbm, ⟨58, _⟩ => ⟨S1x1x32000, .f32⟩
  | .hbm, ⟨59, _⟩ => ⟨S16x512x32000, .f32⟩
  | .hbm, ⟨60, _⟩ => ⟨S16x512x32000, .f32⟩
  | .hbm, ⟨61, _⟩ => ⟨S_, .f32⟩
  | .hbm, ⟨62, _⟩ => ⟨S16x512, .f32⟩
  | .hbm, ⟨63, _⟩ => ⟨S_, .f32⟩
  | .hbm, ⟨64, _⟩ => ⟨S16x512, .f32⟩
  | .hbm, ⟨65, _⟩ => ⟨S16x512, .f32⟩
  | .hbm, ⟨66, _⟩ => ⟨S16x512x1, .f32⟩
  | .hbm, ⟨67, _⟩ => ⟨S16x512x32000, .f32⟩
  | .hbm, ⟨68, _⟩ => ⟨S16x512x32000, .f32⟩
  | .hbm, ⟨69, _⟩ => ⟨S16x512x32000, .f32⟩
  | .hbm, ⟨70, _⟩ => ⟨S_, .f32⟩
  | .hbm, ⟨71, _⟩ => ⟨S16x512, .f32⟩
  | .hbm, ⟨72, _⟩ => ⟨S16x512x1, .f32⟩
  | .hbm, ⟨73, _⟩ => ⟨S16x512x1, .f32⟩
  | .hbm, ⟨74, _⟩ => ⟨S16x512x32000, .f32⟩
  | .hbm, ⟨75, _⟩ => ⟨S16x512x32000, .f32⟩
  | .hbm, ⟨76, _⟩ => ⟨S16x512x1, .i32⟩
  | .hbm, ⟨77, _⟩ => ⟨S_, .i32⟩
  | .hbm, ⟨78, _⟩ => ⟨S16x512x1, .i32⟩
  | .hbm, ⟨79, _⟩ => ⟨S16x512x1, .i1⟩
  | .hbm, ⟨80, _⟩ => ⟨S_, .i32⟩
  | .hbm, ⟨81, _⟩ => ⟨S16x512x1, .i32⟩
  | .hbm, ⟨82, _⟩ => ⟨S16x512x1, .i32⟩
  | .hbm, ⟨83, _⟩ => ⟨S16x512x1, .i32⟩
  | .hbm, ⟨84, _⟩ => ⟨S16x512x1x1, .i32⟩
  | .hbm, ⟨85, _⟩ => ⟨S1, .i32⟩
  | .hbm, ⟨86, _⟩ => ⟨S_, .i32⟩
  | .hbm, ⟨87, _⟩ => ⟨S16x512x1x1, .i32⟩
  | .hbm, ⟨88, _⟩ => ⟨S16x512x1x1, .i1⟩
  | .hbm, ⟨89, _⟩ => ⟨S1x1x1x1, .i32⟩
  | .hbm, ⟨90, _⟩ => ⟨S16x512x1x1, .i32⟩
  | .hbm, ⟨91, _⟩ => ⟨S16x512x1x1, .i1⟩
  | .hbm, ⟨92, _⟩ => ⟨S16x512x1x1, .i1⟩
  | .hbm, ⟨93, _⟩ => ⟨S_, .i1⟩
  | .hbm, ⟨94, _⟩ => ⟨S16x512x1, .i1⟩
  | .hbm, ⟨95, _⟩ => ⟨S16x512x1, .f32⟩
  | .hbm, ⟨96, _⟩ => ⟨S_, .f32⟩
  | .hbm, ⟨97, _⟩ => ⟨S16x512x1, .f32⟩
  | .hbm, ⟨98, _⟩ => ⟨S16x512x1, .f32⟩
  | .hbm, ⟨99, _⟩ => ⟨S16x512, .f32⟩
  | .hbm, ⟨100, _⟩ => ⟨S16x512, .f32⟩
  | .hbm, ⟨101, _⟩ => ⟨S_, .i32⟩
  | .hbm, ⟨102, _⟩ => ⟨S16x512, .i32⟩
  | .hbm, ⟨103, _⟩ => ⟨S16x512, .i1⟩
  | .hbm, ⟨104, _⟩ => ⟨S16x512, .f32⟩
  | .hbm, ⟨105, _⟩ => ⟨S_, .f32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S16x512, .f32⟩
  | .hbm, ⟨111, _⟩ => ⟨S_, .f32⟩
  | .hbm, ⟨112, _⟩ => ⟨S512, .f32⟩
  | .hbm, ⟨113, _⟩ => ⟨S512, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call2_cst : Ref sig .tc := ⟨.hbm, 54, rfl⟩
abbrev main_call2_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call3_cst : Ref sig .tc := ⟨.hbm, 61, rfl⟩
abbrev main_call3_v0 : Ref sig .tc := ⟨.hbm, 62, rfl⟩
abbrev main_call3_cst_0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_cst_1 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_v40 : Ref sig .tc := ⟨.hbm, 75, rfl⟩
abbrev main_v41 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_cst : Ref sig .tc := ⟨.hbm, 96, rfl⟩
abbrev main_call4_v14 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_c_5 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_cst_6 : Ref sig .tc := ⟨.hbm, 105, rfl⟩
abbrev main_v48 : Ref sig .tc := ⟨.hbm, 106, rfl⟩
abbrev main_cst_7 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_8 : Ref sig .tc := ⟨.hbm, 111, rfl⟩
abbrev main_v52 : Ref sig .tc := ⟨.hbm, 112, rfl⟩
abbrev main_v53 : Ref sig .tc := ⟨.hbm, 113, rfl⟩
abbrev main_cst_9 : Ref sig .tc := ⟨.hbm, 114, rfl⟩
abbrev main_v54 : Ref sig .tc := ⟨.hbm, 115, rfl⟩
abbrev main_cst_10 : Ref sig .tc := ⟨.hbm, 116, rfl⟩
abbrev main_v55 : Ref sig .tc := ⟨.hbm, 117, rfl⟩

abbrev nD : Nat := 1
abbrev τ : Topo := Topo.v7x

variable {F : FTy → Type} [FloatOps F]

class Facts₀ : Prop where
  pads_S16x512_S16x516_000_400 : S16x512.Pads (![0, 4] : Fin 2 → Nat) ![0, 0] ![0, 0] S16x516
  h_S_ : 0 < S_.numel
  bcast_S512_S512x1_0 : S512.BroadcastsInDim S512x1 (![0] : Fin 1 → Fin S512x1.rank)
  bcast_S4_S1x4_1 : S4.BroadcastsInDim S1x4 (![1] : Fin 1 → Fin S1x4.rank)
  bcast_S512x1_S512x4_0_1 : S512x1.BroadcastsInDim S512x4 (![0, 1] : Fin 2 → Fin S512x4.rank)
  bcast_S1x4_S512x4_0_1 : S1x4.BroadcastsInDim S512x4 (![0, 1] : Fin 2 → Fin S512x4.rank)
  bcast_S_S512x4 : S_.BroadcastsInDim S512x4 (![] : Fin 0 → Fin S512x4.rank)
  bcast_S512x4_S512x4x1_0_1 : S512x4.BroadcastsInDim S512x4x1 (![0, 1] : Fin 2 → Fin S512x4x1.rank)
  bcast_S_S1 : S_.BroadcastsInDim S1 (![] : Fin 0 → Fin S1.rank)
  bcast_S_S256 : S_.BroadcastsInDim S256 (![] : Fin 0 → Fin S256.rank)
  bcast_S_S16x512x4 : S_.BroadcastsInDim S16x512x4 (![] : Fin 0 → Fin S16x512x4.rank)
  bcast_S16x512x4_S16x512x4x1_0_1_2 : S16x512x4.BroadcastsInDim S16x512x4x1 (![0, 1, 2] : Fin 3 → Fin S16x512x4x1.rank)
  shapeCasts_S16x512x4x256_S16x512x1024 : S16x512x4x256.ShapeCasts S16x512x1024
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  bcast_S_S16x512x1024 : S_.BroadcastsInDim S16x512x1024 (![] : Fin 0 → Fin S16x512x1024.rank)
  bcast_S32000_S1x1x32000_2 : S32000.BroadcastsInDim S1x1x32000 (![2] : Fin 1 → Fin S1x1x32000.rank)
  bcast_S1x1x32000_S16x512x32000_0_1_2 : S1x1x32000.BroadcastsInDim S16x512x32000 (![0, 1, 2] : Fin 3 → Fin S16x512x32000.rank)
  reducesTo_S16x512x32000_S16x512_d2 : S16x512x32000.ReducesTo [2] S16x512
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x32000_0_1_2 : S16x512x1.BroadcastsInDim S16x512x32000 (![0, 1, 2] : Fin 3 → Fin S16x512x32000.rank)
  bcast_S_S16x512x1 : S_.BroadcastsInDim S16x512x1 (![] : Fin 0 → Fin S16x512x1.rank)
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  shapeCasts_S16x512x1_S16x512 : S16x512x1.ShapeCasts S16x512
  reducesTo_S16x512_S512_d0 : S16x512.ReducesTo [0] S512
  bcast_S_S512 : S_.BroadcastsInDim S512 (![] : Fin 0 → Fin S512.rank)
  reducesTo_S512_S_d0 : S512.ReducesTo [0] S_
  gather_S16x516_S512x4x1_S16x512x4_0_1_n_n_1_2_161_wf : GatherDims.WF S16x516 S512x4x1 S16x512x4 [0] [1] [] [1] [] 2 ![16, 1]
  scatter_S32000x256_S1_S256_0_0_0_0_wf : ScatterDims.WF S32000x256 S1 S256 [0] [0] [0] 0
  gather_S32000x256_S16x512x4x1_S16x512x4x256_3_0_n_n_0_3_1256_wf : GatherDims.WF S32000x256 S16x512x4x1 S16x512x4x256 [3] [0] [] [0] [] 3 ![1, 256]
  dot_S16x512x1024_S1024x1024_S16x512x1024_2_0_01_1_n_n_wf : DotDims.WF S16x512x1024 S1024x1024 S16x512x1024 [2] [0] [0, 1] [1] [] []
  dot_S16x512x1024_S1024x32000_S16x512x32000_2_0_01_1_n_n_wf : DotDims.WF S16x512x1024 S1024x32000 S16x512x32000 [2] [0] [0, 1] [1] [] []
  gather_S16x512x32000_S16x512x1x1_S16x512x1_n_2_01_01_2_3_111_wf : GatherDims.WF S16x512x32000 S16x512x1x1 S16x512x1 [] [2] [0, 1] [2] [0, 1] 3 ![1, 1, 1]

variable [Facts₀]

def gather_S16x516_S512x4x1_S16x512x4_0_1_n_n_1_2_161 : GatherDims S16x516 S512x4x1 S16x512x4 where
  offsetDims := [0]
  collapsedSliceDims := [1]
  operandBatchingDims := []
  startIndicesBatchingDims := []
  startIndexMap := [1]
  indexVectorDim := 2
  sliceSizes := ![16, 1]
  wf := gather_S16x516_S512x4x1_S16x512x4_0_1_n_n_1_2_161_wf
def scatter_S32000x256_S1_S256_0_0_0_0 : ScatterDims S32000x256 S1 S256 where
  updateWindowDims := [0]
  insertedWindowDims := [0]
  scatterDimsToOperandDims := [0]
  indexVectorDim := 0
  wf := scatter_S32000x256_S1_S256_0_0_0_0_wf
def gather_S32000x256_S16x512x4x1_S16x512x4x256_3_0_n_n_0_3_1256 : GatherDims S32000x256 S16x512x4x1 S16x512x4x256 where
  offsetDims := [3]
  collapsedSliceDims := [0]
  operandBatchingDims := []
  startIndicesBatchingDims := []
  startIndexMap := [0]
  indexVectorDim := 3
  sliceSizes := ![1, 256]
  wf := gather_S32000x256_S16x512x4x1_S16x512x4x256_3_0_n_n_0_3_1256_wf
def dot_S16x512x1024_S1024x1024_S16x512x1024_2_0_01_1_n_n : DotDims S16x512x1024 S1024x1024 S16x512x1024 where
  lhsContracting := [2]
  rhsContracting := [0]
  lhsNonContracting := [0, 1]
  rhsNonContracting := [1]
  lhsBatch := []
  rhsBatch := []
  wf := dot_S16x512x1024_S1024x1024_S16x512x1024_2_0_01_1_n_n_wf
def dot_S16x512x1024_S1024x32000_S16x512x32000_2_0_01_1_n_n : DotDims S16x512x1024 S1024x32000 S16x512x32000 where
  lhsContracting := [2]
  rhsContracting := [0]
  lhsNonContracting := [0, 1]
  rhsNonContracting := [1]
  lhsBatch := []
  rhsBatch := []
  wf := dot_S16x512x1024_S1024x32000_S16x512x32000_2_0_01_1_n_n_wf
def gather_S16x512x32000_S16x512x1x1_S16x512x1_n_2_01_01_2_3_111 : GatherDims S16x512x32000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x32000_S16x512x1x1_S16x512x1_n_2_01_01_2_3_111_wf

class Facts : Prop extends Facts₀ where

variable [Facts]
-- ==== Proof.Pieces.lean ====
/-
  What each control case of the kernel body leaves in the output block and in the carried scratch buffers, as values.

  The body has three cases by the vocabulary-tile coordinate: the first tile of a row tile (A) computes the hidden
  layer, stores it and resets the three running columns before the common update; a middle tile (B) only runs the
  common update on what the point before left; the last tile (C) runs the common update and then stores
  `m + log l - g` into the output block. Every store covers its whole buffer, so what a buffer holds after the
  body is the payload of the LAST store into it, and a load after a store in the same run reads that store's payload.
-/
import proofs.«424650_j90434831385111_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- Every store and load of the body starts at the origin of its buffer: the offset `![0, 0]` is the zero function. -/
private theorem hz : (![0, 0] : Fin 2 → Nat) = fun _ => 0 := funext fun a => by fin_cases a <;> rfl

/-- Case A (a row tile's first vocabulary tile) leaves the freshly computed hidden layer in the first scratch buffer. -/
theorem sout0_A_0_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = (k0_pay3 x0 x1 x2 x3 x4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, View.ld_unit_zero (S := S1024x1024) hz, View.ld_unit_zero (S := S1x1024) hz]

/-- Case A leaves in the running-maximum column the update of the reset value -∞ by this tile's logits. -/
theorem sout0_A_1_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay11 (k0_pay3 x0 x1 x2 x3 x4) x5 x6 k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1024x1) hz]
  simp only [View.readCov_unit_zero (S := S1024x1) _ hz, View.readCov_unit_zero (S := S1024x1024) _ hz, View.readAt_eq_ld, harg2.read_unread, harg3.read_unread, harg4.read_unread, harg5.read_unread, harg6.read_unread, harg7.read_unread, harg8.read_unread, View.ld_unit_zero (S := S1024x1024) hz, View.ld_unit_zero (S := S1x1024) hz, View.ld_unit_zero (S := S1024x1280) hz, View.ld_unit_zero (S := S1x1280) hz]

/-- Case A leaves in the normaliser column the update of the reset values (-∞, 0). -/
theorem sout0_A_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay10 (k0_pay3 x0 x1 x2 x3 x4) x5 x6 k0_pay4 k0_pay5 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1024x1) hz]
  simp only [View.readCov_unit_zero (S := S1024x1) _ hz, View.readCov_unit_zero (S := S1024x1024) _ hz, View.readAt_eq_ld, harg2.read_unread, harg3.read_unread, harg4.read_unread, harg5.read_unread, harg6.read_unread, harg7.read_unread, harg8.read_unread, View.ld_unit_zero (S := S1024x1024) hz, View.ld_unit_zero (S := S1x1024) hz, View.ld_unit_zero (S := S1024x1280) hz, View.ld_unit_zero (S := S1x1280) hz]

/-- Case A leaves in the pick column the reset value 0 plus this tile's logit at the label. -/
theorem sout0_A_3_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay1 (BitVec.ofNat 32 (i 1).val) (k0_pay8 (k0_pay3 x0 x1 x2 x3 x4) x5 x6) (k0_pay12 x7) (iota .tc S1024x1280 32 [1] iota_S1024x1280_d1_w32) (k0_pay7 k0_pay6) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1024x1) hz]
  simp only [View.readCov_unit_zero (S := S1024x1) _ hz, View.readCov_unit_zero (S := S1024x1024) _ hz, View.readAt_eq_ld, harg2.read_unread, harg3.read_unread, harg4.read_unread, harg5.read_unread, harg6.read_unread, harg7.read_unread, harg8.read_unread, harg9.read_unread, View.ld_unit_zero (S := S1024x1024) hz, View.ld_unit_zero (S := S1x1024) hz, View.ld_unit_zero (S := S1024x1280) hz, View.ld_unit_zero (S := S1x1280) hz, View.ld_unit_zero (S := S1024x1) hz]

/-- Case B (a middle tile) updates the running maximum the point before left. -/
theorem sout0_B_1_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay11 xs0 x5 x6 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero hz]
  simp only [View.readAt_eq_ld, harg11.read_unread, harg7.read_unread, harg8.read_unread, harg12.read_unread, View.ld_unit_zero (S := S1024x1024) hz, View.ld_unit_zero (S := S1024x1280) hz, View.ld_unit_zero (S := S1x1280) hz, View.ld_unit_zero (S := S1024x1) hz]

/-- Case B updates the normaliser the point before left. -/
theorem sout0_B_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay10 xs0 x5 x6 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero hz]
  simp only [View.readAt_eq_ld, harg11.read_unread, harg7.read_unread, harg8.read_unread, harg12.read_unread, harg13.read_unread, View.ld_unit_zero (S := S1024x1024) hz, View.ld_unit_zero (S := S1024x1280) hz, View.ld_unit_zero (S := S1x1280) hz, View.ld_unit_zero (S := S1024x1) hz]

/-- Case B updates the pick the point before left. -/
theorem sout0_B_3_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay1 (BitVec.ofNat 32 (i 1).val) (k0_pay8 xs0 x5 x6) (k0_pay12 x7) (iota .tc S1024x1280 32 [1] iota_S1024x1280_d1_w32) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_unit_zero hz]
  simp only [View.readAt_eq_ld, harg11.read_unread, harg7.read_unread, harg8.read_unread, harg9.read_unread, harg14.read_unread, View.ld_unit_zero (S := S1024x1024) hz, View.ld_unit_zero (S := S1024x1280) hz, View.ld_unit_zero (S := S1x1280) hz, View.ld_unit_zero (S := S1024x1) hz]

/-- Case C (the last tile) updates the running maximum as a middle tile does. -/
theorem sout0_C_1_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay11 xs0 x5 x6 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_unit_zero hz]
  simp only [View.readAt_eq_ld, harg11.read_unread, harg7.read_unread, harg8.read_unread, harg12.read_unread, View.ld_unit_zero (S := S1024x1024) hz, View.ld_unit_zero (S := S1024x1280) hz, View.ld_unit_zero (S := S1x1280) hz, View.ld_unit_zero (S := S1024x1) hz]

/-- Case C updates the normaliser as a middle tile does. -/
theorem sout0_C_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay10 xs0 x5 x6 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_unit_zero hz]
  simp only [View.readAt_eq_ld, harg11.read_unread, harg7.read_unread, harg8.read_unread, harg12.read_unread, harg13.read_unread, View.ld_unit_zero (S := S1024x1024) hz, View.ld_unit_zero (S := S1024x1280) hz, View.ld_unit_zero (S := S1x1280) hz, View.ld_unit_zero (S := S1024x1) hz]

/-- Case C updates the pick as a middle tile does. -/
theorem sout0_C_3_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay1 (BitVec.ofNat 32 (i 1).val) (k0_pay8 xs0 x5 x6) (k0_pay12 x7) (iota .tc S1024x1280 32 [1] iota_S1024x1280_d1_w32) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_unit_zero hz]
  simp only [View.readAt_eq_ld, harg11.read_unread, harg7.read_unread, harg8.read_unread, harg9.read_unread, harg14.read_unread, View.ld_unit_zero (S := S1024x1024) hz, View.ld_unit_zero (S := S1024x1280) hz, View.ld_unit_zero (S := S1x1280) hz, View.ld_unit_zero (S := S1024x1) hz]

/-- Case C then stores `m + log l - g` of the three columns it has just updated into the output block. -/
theorem out0_C_8_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1280 .bf16) (harg7 : arg7.IsWhole) (arg8 : Memref sig .tc .vmem S1x1280 .f32) (harg8 : arg8.IsWhole) (arg9 : Memref sig .tc .vmem S1024x1 .i32) (harg9 : arg9.IsWhole) (arg10 : Memref sig .tc .vmem S1024x1 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x1024 .bf16) (x1 : Vec F S1024x1024 .bf16) (x2 : Vec F S1x1024 .f32) (x3 : Vec F S1024x1024 .bf16) (x4 : Vec F S1x1024 .f32) (x5 : Vec F S1024x1280 .bf16) (x6 : Vec F S1x1280 .f32) (x7 : Vec F S1024x1 .i32) (xs0 : Vec F S1024x1024 .bf16) (xs1 : Vec F S1024x1 .f32) (xs2 : Vec F S1024x1 .f32) (xs3 : Vec F S1024x1 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay2 (k0_pay11 xs0 x5 x6 xs1) (k0_pay10 xs0 x5 x6 xs1 xs2) (k0_pay1 (BitVec.ofNat 32 (i 1).val) (k0_pay8 xs0 x5 x6) (k0_pay12 x7) (iota .tc S1024x1280 32 [1] iota_S1024x1280_d1_w32) xs3) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_unit_zero hz]
  simp only [View.readCov_unit_zero (S := S1024x1) _ hz, View.readAt_eq_ld, harg7.read_unread, harg8.read_unread, harg9.read_unread, harg11.read_unread, harg12.read_unread, harg13.read_unread, harg14.read_unread, View.ld_unit_zero (S := S1024x1024) hz, View.ld_unit_zero (S := S1024x1280) hz, View.ld_unit_zero (S := S1x1280) hz, View.ld_unit_zero (S := S1024x1) hz]

end Cert.KernelIdeal.Pieces

end
-- ==== Proof.OnlineDefs.lean ====
/-
  The streaming form of a row's log-sum-exp: the state and its update, as definitions.

  A row of 32000 logits is visited in 25 tiles of 1280. The state after a tile is a triple (m, l, g): the running
  maximum, the running normaliser `∑ exp (x - m)` over the logits seen so far, and the running pick
  `∑ [position = label] x`. A tile with maximum `a` replaces `m` by `m' = max m a`, rescales `l` by
  `exp (m - m')` and adds the tile's own `∑ exp (x - m')`; the pick adds the tile's logit at the label, if it is there.
-/
import Idealize.ShloMosaic.PureOps.Ideal

noncomputable section

namespace Cert.Online

open Idealize.ShloMosaic

/-- One tile's update of (running maximum, running normaliser, running pick). -/
def tileStep (xt : Fin 1280 → EReal) (hit : Fin 1280 → Prop) [DecidablePred hit] (s : EReal × EReal × EReal) :
    EReal × EReal × EReal :=
  (max s.1 ((Finset.univ : Finset (Fin 1280)).fold max ⊥ xt),
   s.2.1 * Ideal.exp (s.1 - max s.1 ((Finset.univ : Finset (Fin 1280)).fold max ⊥ xt))
     + ∑ q : Fin 1280, Ideal.exp (xt q - max s.1 ((Finset.univ : Finset (Fin 1280)).fold max ⊥ xt)),
   s.2.2 + ∑ q : Fin 1280, if hit q then xt q else 0)

/-- The state after the first `j` tiles, from (-∞, 0, 0). -/
def tileRun (x : ℕ → Fin 1280 → EReal) (hit : ℕ → Fin 1280 → Prop) [∀ j, DecidablePred (hit j)] :
    ℕ → EReal × EReal × EReal
  | 0 => (⊥, 0, 0)
  | j + 1 => tileStep (x j) (hit j) (tileRun x hit j)

end Cert.Online

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.RowStep.lean ====
/-
  The kernel body's arithmetic, read one row at a time at the exact values.

  Per grid point the body computes, for the 1024 rows of its row tile and the 1280 columns of its vocabulary tile,
  the logits `h2 · Wo + bo` (a matrix product into a zero accumulator plus a broadcast row), and updates three
  1024 × 1 columns: the running maximum, the running normaliser and the running pick of the label's logit. Read at
  row `p` these three updates are ONE step of the streaming log-sum-exp (`Cert.Online.tileStep`) on that row's
  1280 logits: a lane maximum is a fold of `max` from -∞, a lane sum is a finite sum, the keep-dims column casts
  and the column-to-tile broadcasts only re-index, and the label test compares the lane number plus the tile's
  offset with the row's label. The reset values are (-∞, 0, 0), and the final store is `m + log l - g`.
  The hidden layer is two products with a bias row and a clamp at zero each.
-/
import proofs.«424650_j90434831385111_1_alg».proof.Proof.Gen.KernelIdeal.Skeleton
import proofs.«424650_j90434831385111_1_alg».proof.Proof.OnlineDefs
import proofs.«424650_j90434831385111_1_alg».proof.Proof.LibRowDims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Row

open Idealize.ShloMosaic Idealize.ShloMosaic.ValueIdx Cert.KernelIdeal Cert.KernelIdeal.Gen

/-! ## The non-pointwise operations, each read at an entry -/

/-- The printed dimension numbers of the logits product are the plain ones: rows × contraction, contraction × columns. -/
theorem dot1280_eq : dot_S1024x1024_S1024x1280_S1024x1280_1_0_0_1_n_n = DotDims.plain 1024 1024 1280 := rfl

/-- The printed dimension numbers of the two hidden-layer products are the plain ones. -/
theorem dot1024_eq : dot_S1024x1024_S1024x1024_S1024x1024_1_0_0_1_n_n = DotDims.plain 1024 1024 1024 := rfl

/-- The keep-dims column cast: row `p` of the 1024 × 1 column is entry `p` of the vector. -/
theorem colCast_apply {α : Type} (v : S1024.Idx → α) (p : Fin 1024) :
    shapeCast S1024x1 v shapeCasts_S1024_S1024x1 (ix2 p (0 : Fin 1)) = v (ix1 p) :=
  shapeCast_apply v _ _ _ (by
    rw [Shape.rowMajor_val_one, Shape.rowMajor_val_two]
    show p.val = p.val * 1 + 0
    rw [Nat.mul_one, Nat.add_zero])

/-- A 1024 × 1 column broadcast over the 1280 lanes reads, at (row, lane), the column's row. -/
theorem colBcast_apply {α : Type} (v : S1024x1.Idx → α) (p : Fin 1024) (q : Fin 1280) :
    broadcastTo S1024x1280 v broadcasts_S1024x1_S1024x1280 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The reduced index `p` with lane `q` put back is the tile entry (p, q). -/
theorem lift_row (p : Fin 1024) (q : Fin 1280) : reduces_S1024x1280_S1024.lift (ix1 p) q = ix2 p q := by
  funext a
  match a with
  | ⟨0, _⟩ => rfl
  | ⟨1, _⟩ => rfl

/-- The f32 pattern of -∞ is the extended real `⊥`. -/
theorem ofBits_negInf_f32 : Ideal.ofBits .f32 0xFF800000#32 = ⊥ := by simp [Ideal.ofBits, Ideal.ieee]

/-- A lane maximum at row `p`: the fold of `max` from -∞ over the row's 1280 entries. -/
theorem rowMax_apply (x : FVec Ideal S1024x1280 .f32) (p : Fin 1024) :
    multiReduction .maximumf [1] S1024 x 0xFF800000#32 reduces_S1024x1280_S1024 (.inl rfl) rfl (ix1 p)
      = (Finset.univ : Finset (Fin 1280)).fold max ⊥ (fun q => x (ix2 p q)) := by
  refine (Ideal.multiReduction_maximumf_single x _ reduces_S1024x1280_S1024 (.inl rfl) rfl (ix1 p)).trans ?_
  show (Finset.univ : Finset (Fin 1280)).fold max (Ideal.ofBits .f32 0xFF800000#32)
      (fun q => x (reduces_S1024x1280_S1024.lift (ix1 p) q)) = _
  rw [ofBits_negInf_f32]
  exact congrArg (fun f => (Finset.univ : Finset (Fin 1280)).fold max ⊥ f) (funext fun q => congrArg x (lift_row p q))

/-- A lane sum at row `p`: the sum of the row's 1280 entries. -/
theorem rowSum_apply (x : FVec Ideal S1024x1280 .f32) (p : Fin 1024) :
    multiReduction .add [1] S1024 x 0x00000000#32 reduces_S1024x1280_S1024 (.inl rfl) rfl (ix1 p)
      = ∑ q : Fin 1280, x (ix2 p q) := by
  refine (Ideal.multiReduction_add_single x _ reduces_S1024x1280_S1024 (.inl rfl) rfl (ix1 p)).trans ?_
  show ∑ q : Fin 1280, x (reduces_S1024x1280_S1024.lift (ix1 p) q) = _
  exact Finset.sum_congr rfl fun q _ => congrArg x (lift_row p q)

/-- The running maximum's update at row `p`: the old maximum against the row's lane maximum. -/
theorem pay9_apply (v3 : Vec Ideal S1024x1024 .bf16) (v4 : Vec Ideal S1024x1280 .bf16) (v7 : Vec Ideal S1x1280 .f32)
    (v11 : Vec Ideal S1024x1 .f32) (p : Fin 1024) :
    k0_pay9 v3 v4 v7 v11 (ix2 p 0)
      = max (v11 (ix2 p 0)) ((Finset.univ : Finset (Fin 1280)).fold max ⊥ fun q => k0_pay8 v3 v4 v7 (ix2 p q)) := by
  unfold k0_pay9
  refine congrArg (max (v11 (ix2 p 0))) ?_
  exact (colCast_apply _ p).trans (rowMax_apply (k0_pay8 v3 v4 v7) p)

/-- The lane-number vector of a tile: lane `q` holds `q`. -/
abbrev lanes : IVec S1024x1280 32 := iota .tc S1024x1280 32 [1] iota_S1024x1280_d1_w32

/-- Lane `q` of vocabulary tile `arg1` is the label `tg`: the lane number plus the tile's offset `1280 · arg1`,
    as 32-bit words, equals the label. -/
def hitAt (arg1 tg : BitVec 32) (q : Fin 1280) : Prop :=
  IntOp.cmpi .eq (IntOp.addi (BitVec.ofNat 32 q.val) (Scalar.muli arg1 1280#32)) tg = 1#1

instance (arg1 tg : BitVec 32) : DecidablePred (hitAt arg1 tg) := fun _ => by unfold hitAt; infer_instance

/-- The running normaliser's update at row `p`: the old normaliser rescaled, plus the row's `∑ exp (x - m')`. -/
theorem pay10_apply (v3 : Vec Ideal S1024x1024 .bf16) (v4 : Vec Ideal S1024x1280 .bf16) (v7 : Vec Ideal S1x1280 .f32)
    (v11 v20 : Vec Ideal S1024x1 .f32) (p : Fin 1024) :
    k0_pay10 v3 v4 v7 v11 v20 (ix2 p 0)
      = v20 (ix2 p 0) * Ideal.exp (v11 (ix2 p 0) - k0_pay9 v3 v4 v7 v11 (ix2 p 0))
        + ∑ q : Fin 1280, Ideal.exp (k0_pay8 v3 v4 v7 (ix2 p q) - k0_pay9 v3 v4 v7 v11 (ix2 p 0)) := by
  unfold k0_pay10
  rw [shapeCast_self]
  refine congrArg₂ (· + ·) rfl ?_
  refine (colCast_apply _ p).trans ((rowSum_apply _ p).trans ?_)
  refine Finset.sum_congr rfl fun q _ => ?_
  show Ideal.exp (k0_pay8 v3 v4 v7 (ix2 p q)
      - broadcastTo S1024x1280 (k0_pay9 v3 v4 v7 v11) broadcasts_S1024x1_S1024x1280 (ix2 p q)) = _
  rw [colBcast_apply]

/-- The word test of the kernel at (row, lane) selects exactly where `hitAt` holds. -/
theorem select_hit (arg1 tg : BitVec 32) (q : Fin 1280) (a b : EReal) :
    Scalar.select (IntOp.cmpi .eq (IntOp.addi (BitVec.ofNat 32 q.val) (Scalar.muli arg1 1280#32)) tg) a b
      = if hitAt arg1 tg q then a else b := by
  unfold Scalar.select hitAt
  exact if_congr Iff.rfl rfl rfl

/-- The running pick's update at row `p`: the old pick plus the row's logit at the label's lane, if it is in this tile. -/
theorem pay1_apply (arg1 : BitVec 32) (x : FVec Ideal S1024x1280 .f32) (v31 : Vec Ideal S1024x1 .i32)
    (v41 : Vec Ideal S1024x1 .f32) (p : Fin 1024) :
    k0_pay1 arg1 x (k0_pay12 v31) lanes v41 (ix2 p 0)
      = v41 (ix2 p 0) + ∑ q : Fin 1280, if hitAt arg1 (v31 (ix2 p 0)) q then x (ix2 p q) else 0 := by
  unfold k0_pay1 k0_pay12
  rw [shapeCast_self, shapeCast_self]
  refine congrArg₂ (· + ·) rfl ?_
  refine (colCast_apply _ p).trans ((rowSum_apply _ p).trans ?_)
  refine Finset.sum_congr rfl fun q _ => ?_
  show Scalar.select (IntOp.cmpi .eq (IntOp.addi (lanes (ix2 p q)) (Scalar.muli arg1 1280#32))
      (broadcastTo S1024x1280 v31 broadcasts_S1024x1_S1024x1280 (ix2 p q))) (x (ix2 p q)) (Ideal.ofBits .f32 0x00000000#32) = _
  rw [colBcast_apply, Ideal.ofBits_zero_f32]
  rw [show lanes (ix2 p q) = BitVec.ofNat 32 q.val from iota_single_apply .tc S1024x1280 32 1 _ (ix2 p q)]
  exact select_hit arg1 _ q _ _

/-- For tile `j < 25` and a label in `[0, 32000)` (read signed), the word test is the equation of positions. -/
theorem hitAt_iff (j : ℕ) (hj : j < 25) (tg : BitVec 32) (h0 : 0 ≤ tg.toInt) (h1 : tg.toInt < 32000) (q : Fin 1280) :
    hitAt (BitVec.ofNat 32 j) tg q ↔ j * 1280 + q.val = tg.toInt.toNat := by
  have hq := q.isLt
  -- a label that is non-negative as a signed word is its unsigned value
  have ht : tg.toInt = (tg.toNat : Int) := by
    have hlt := tg.isLt
    rw [BitVec.toInt_eq_toNat_cond] at h0 ⊢
    split_ifs at h0 ⊢ with h
    · rfl
    · omega
  rw [ht, Int.toNat_natCast]
  -- the lane number plus the tile's offset does not wrap: it is below 25 · 1280
  have key : (BitVec.ofNat 32 q.val + BitVec.ofNat 32 j * 1280#32).toNat = j * 1280 + q.val := by
    rw [BitVec.toNat_add, BitVec.toNat_mul, BitVec.toNat_ofNat, BitVec.toNat_ofNat, BitVec.toNat_ofNat]
    omega
  -- the one-bit result of the comparison is 1 exactly when the two words are equal
  have hb : ∀ b : Bool, BitVec.ofBool b = 1#1 ↔ b = true := by decide
  unfold hitAt IntOp.cmpi IntOp.addi Scalar.muli IntOp.muli
  rw [hb, beq_iff_eq]
  constructor
  · intro e
    rw [← key, e]
  · intro h
    exact BitVec.eq_of_toNat_eq (key.trans h)

/-- One hidden layer at (row, unit): the contraction with the weights plus the bias row, clamped at zero. -/
theorem layer_apply {φ : FTy} (x : FVec Ideal S1024x1024 φ) (w : FVec Ideal S1024x1024 .bf16) (b : FVec Ideal S1x1024 .f32)
    (p a : Fin 1024) :
    maximumf (addf (matmul (DotDims.plain 1024 1024 1024) none x w (constant S1024x1024 .f32 0x00000000#32))
        (broadcastTo S1024x1024 b broadcasts_S1x1024_S1024x1024))
      (broadcast S1024x1024 (Scalar.ofBits .f32 0x00000000#32)) (ix2 p a)
      = max ((∑ k : Fin 1024, x (ix2 p k) * w (ix2 k a)) + b (ix2 0 a)) 0 := by
  refine congrArg₂ max (congrArg₂ (· + ·) ?_ ?_) Ideal.ofBits_zero_f32
  · exact RowDims.matmul_plain_zero_apply none x w p a
  · exact broadcastTo_1b_ab_apply b _ p a

/-- The logits tile at (row, lane): the contraction over the 1024 hidden units plus the bias. -/
theorem pay8_apply (v3 : Vec Ideal S1024x1024 .bf16) (v4 : Vec Ideal S1024x1280 .bf16) (v7 : Vec Ideal S1x1280 .f32)
    (p : Fin 1024) (q : Fin 1280) :
    k0_pay8 v3 v4 v7 (ix2 p q) = (∑ k : Fin 1024, v3 (ix2 p k) * v4 (ix2 k q)) + v7 (ix2 0 q) := by
  unfold k0_pay8
  rw [shapeCast_self, shapeCast_self, dot1280_eq]
  refine congrArg₂ (· + ·) ?_ ?_
  · exact RowDims.matmul_plain_zero_apply none v3 v4 p q
  · exact broadcastTo_1b_ab_apply v7 _ p q

/-- The hidden layer at (row, unit): two products, each with its bias row and a clamp at zero. -/
theorem pay3_apply (v51 : Vec Ideal S1024x1024 .bf16) (v53 : Vec Ideal S1024x1024 .bf16) (v56 : Vec Ideal S1x1024 .f32)
    (v63 : Vec Ideal S1024x1024 .bf16) (v66 : Vec Ideal S1x1024 .f32) (p k : Fin 1024) :
    k0_pay3 v51 v53 v56 v63 v66 (ix2 p k)
      = max ((∑ a : Fin 1024,
              max ((∑ b : Fin 1024, v51 (ix2 p b) * v53 (ix2 b a)) + v56 (ix2 0 a)) 0 * v63 (ix2 a k))
            + v66 (ix2 0 k)) 0 := by
  unfold k0_pay3
  simp only [shapeCast_self]
  rw [dot1024_eq, truncf_apply]
  -- the second layer, over the first layer's values
  refine (layer_apply _ v63 v66 p k).trans ?_
  refine congrArg (fun t => max (t + v66 (ix2 0 k)) 0) ?_
  refine Finset.sum_congr rfl fun a _ => ?_
  -- the first layer at (p, a)
  rw [truncf_apply, layer_apply v51 v53 v56 p a]

/-- The reset values at a row: (-∞, 0, 0). -/
theorem init_apply (p : Fin 1024) :
    ((k0_pay4 (F := Ideal) (ix2 p 0) : EReal), (k0_pay5 (F := Ideal) (ix2 p 0) : EReal),
      (k0_pay7 (F := Ideal) k0_pay6 (ix2 p 0) : EReal)) = ((⊥ : EReal), (0 : EReal), (0 : EReal)) := by
  unfold k0_pay4 k0_pay5 k0_pay7 k0_pay6
  rw [shapeCast_self, shapeCast_self]
  refine Prod.ext ?_ (Prod.ext ?_ ?_)
  · exact ofBits_negInf_f32
  · exact Ideal.ofBits_zero_f32
  · exact Ideal.ofBits_zero_f32

/-- One grid point's three column updates at row `p` are one streaming step on the row's 1280 logits. -/
theorem step_apply (arg1 : BitVec 32) (v3 : Vec Ideal S1024x1024 .bf16) (v4 : Vec Ideal S1024x1280 .bf16)
    (v7 : Vec Ideal S1x1280 .f32) (v11 v20 v41 : Vec Ideal S1024x1 .f32) (v31 : Vec Ideal S1024x1 .i32) (p : Fin 1024) :
    ((k0_pay11 v3 v4 v7 v11 (ix2 p 0) : EReal), (k0_pay10 v3 v4 v7 v11 v20 (ix2 p 0) : EReal),
      (k0_pay1 arg1 (k0_pay8 v3 v4 v7) (k0_pay12 v31) lanes v41 (ix2 p 0) : EReal))
      = Cert.Online.tileStep (fun q => k0_pay8 v3 v4 v7 (ix2 p q)) (hitAt arg1 (v31 (ix2 p 0)))
          ((v11 (ix2 p 0) : EReal), (v20 (ix2 p 0) : EReal), (v41 (ix2 p 0) : EReal)) := by
  unfold Cert.Online.tileStep
  refine Prod.ext ?_ (Prod.ext ?_ ?_)
  · -- the running maximum: a same-shape cast of the maximum's update
    unfold k0_pay11
    rw [shapeCast_self]
    exact pay9_apply v3 v4 v7 v11 p
  · -- the running normaliser, with the new maximum read as above
    refine (pay10_apply v3 v4 v7 v11 v20 p).trans ?_
    rw [pay9_apply]
  · -- the running pick
    exact pay1_apply arg1 (k0_pay8 v3 v4 v7) v31 v41 p

/-- The final store at a row: `m + log l - g`. -/
theorem out_apply (v51 v52 v55 : Vec Ideal S1024x1 .f32) (p : Fin 1024) :
    (k0_pay2 v51 v52 v55 (ix2 p 0) : EReal)
      = (v51 (ix2 p 0) : EReal) + Ideal.log (v52 (ix2 p 0)) - (v55 (ix2 p 0) : EReal) := by
  rfl

end Cert.KernelIdeal.Row

end
-- ==== Proof.Blocks.lean ====
/-
  The input blocks of a grid point, read where their windows say.

  The grid has 200 points, point `t` being row tile `t / 25` and vocabulary tile `t % 25`. The row windows (the
  embedded rows and the labels) show rows `1024 · (t / 25) + p` of their arrays; the vocabulary windows (the output
  weights and bias) show columns `1280 · (t % 25) + q`; the four hidden-layer operands are shown whole at every point.
  A block's coordinate is always index × size + the coordinate inside the block, and the index maps are decided once
  over the 200 points.
-/
import proofs.«424650_j90434831385111_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid point with number `n` (the last point for a number past the grid). -/
def ptOf (n : ℕ) : Fin cfg0.N := ⟨min n 199, by rw [show cfg0.N = 200 from N_0]; omega⟩

theorem ptOf_val (n : ℕ) (h : n < 200) : (ptOf n).val = n := by
  show min n 199 = n; omega

theorem ptOf_self (t : Fin cfg0.N) : ptOf t.val = t := by
  apply Fin.ext
  have h := t.isLt
  have hN : cfg0.N = 200 := N_0
  show min t.val 199 = t.val
  omega

/-- A point's row-tile coordinate. -/
theorem coords0 (t : Fin cfg0.N) : ((grid0.coords t) 0).val = t.val / 25 := by
  exact (by decide +kernel : ∀ t : Fin grid0.N, ((grid0.coords t) 0).val = t.val / 25) t

/-- A point's vocabulary-tile coordinate. -/
theorem coords1 (t : Fin cfg0.N) : ((grid0.coords t) 1).val = t.val % 25 := by
  exact (by decide +kernel : ∀ t : Fin grid0.N, ((grid0.coords t) 1).val = t.val % 25) t

/-- The embedded rows of the point's row tile. -/
abbrev bE (c : Dev nD) (t : Fin cfg0.N) : Vec F S1024x1024 .bf16 := iblk m c 0 t
/-- The first layer's weights, whole. -/
abbrev bW1 (c : Dev nD) (t : Fin cfg0.N) : Vec F S1024x1024 .bf16 := iblk m c 1 t
/-- The first layer's bias row, whole. -/
abbrev bb1 (c : Dev nD) (t : Fin cfg0.N) : Vec F S1x1024 .f32 := iblk m c 2 t
/-- The second layer's weights, whole. -/
abbrev bW2 (c : Dev nD) (t : Fin cfg0.N) : Vec F S1024x1024 .bf16 := iblk m c 3 t
/-- The second layer's bias row, whole. -/
abbrev bb2 (c : Dev nD) (t : Fin cfg0.N) : Vec F S1x1024 .f32 := iblk m c 4 t
/-- The output weights' columns of the point's vocabulary tile. -/
abbrev bWo (c : Dev nD) (t : Fin cfg0.N) : Vec F S1024x1280 .bf16 := iblk m c 5 t
/-- The output bias' columns of the point's vocabulary tile. -/
abbrev bbo (c : Dev nD) (t : Fin cfg0.N) : Vec F S1x1280 .f32 := iblk m c 6 t
/-- The labels of the point's row tile. -/
abbrev bT (c : Dev nD) (t : Fin cfg0.N) : Vec F S1024x1 .i32 := iblk m c 7 t

/-- Window 0 (the embedded rows) moves with the row tile only. -/
private theorem idx_0 : ∀ t : Fin cfg0.N, win0_0.index t (0 : Fin 2) = t.val / 25 ∧ win0_0.index t (1 : Fin 2) = 0 :=
  (by decide +kernel : ∀ t : Fin grid0.N, _)

/-- Window 1 (the first layer's weights) never moves. -/
private theorem idx_1 : ∀ t : Fin cfg0.N, win0_1.index t (0 : Fin 2) = 0 ∧ win0_1.index t (1 : Fin 2) = 0 :=
  (by decide +kernel : ∀ t : Fin grid0.N, _)

/-- Window 2 (the first layer's bias) never moves. -/
private theorem idx_2 : ∀ t : Fin cfg0.N, win0_2.index t (0 : Fin 2) = 0 ∧ win0_2.index t (1 : Fin 2) = 0 :=
  (by decide +kernel : ∀ t : Fin grid0.N, _)

/-- Window 3 (the second layer's weights) never moves. -/
private theorem idx_3 : ∀ t : Fin cfg0.N, win0_3.index t (0 : Fin 2) = 0 ∧ win0_3.index t (1 : Fin 2) = 0 :=
  (by decide +kernel : ∀ t : Fin grid0.N, _)

/-- Window 4 (the second layer's bias) never moves. -/
private theorem idx_4 : ∀ t : Fin cfg0.N, win0_4.index t (0 : Fin 2) = 0 ∧ win0_4.index t (1 : Fin 2) = 0 :=
  (by decide +kernel : ∀ t : Fin grid0.N, _)

/-- Window 5 (the output weights) moves with the vocabulary tile only. -/
private theorem idx_5 : ∀ t : Fin cfg0.N, win0_5.index t (0 : Fin 2) = 0 ∧ win0_5.index t (1 : Fin 2) = t.val % 25 :=
  (by decide +kernel : ∀ t : Fin grid0.N, _)

/-- Window 6 (the output bias) moves with the vocabulary tile only. -/
private theorem idx_6 : ∀ t : Fin cfg0.N, win0_6.index t (0 : Fin 2) = 0 ∧ win0_6.index t (1 : Fin 2) = t.val % 25 :=
  (by decide +kernel : ∀ t : Fin grid0.N, _)

/-- Window 7 (the labels) moves with the row tile only. -/
private theorem idx_7 : ∀ t : Fin cfg0.N, win0_7.index t (0 : Fin 2) = t.val / 25 ∧ win0_7.index t (1 : Fin 2) = 0 :=
  (by decide +kernel : ∀ t : Fin grid0.N, _)

theorem bE_apply (c : Dev nD) (t : Fin cfg0.N) (p k : Fin 1024) :
    bE m c t (ix2 p k) = (V m c main_v27 : Vec F S8192x1024 .bf16)
      (ix2 ⟨1024 * (t.val / 25) + p.val, by have := t.isLt; have hN : cfg0.N = 200 := N_0; omega⟩ k) := by
  unfold bE iblk
  rw [View.read_apply]
  show V m c main_v27 _ = V m c main_v27 _
  congr 1
  funext ax
  apply Fin.ext
  match ax with
  | ⟨0, _⟩ => show win0_0.index t 0 * 1024 + 1 * p.val = 1024 * (t.val / 25) + p.val; rw [(idx_0 t).1]; omega
  | ⟨1, _⟩ => show win0_0.index t 1 * 1024 + 1 * k.val = k.val; rw [(idx_0 t).2]; omega

theorem bW1_apply (c : Dev nD) (t : Fin cfg0.N) (d a : Fin 1024) :
    bW1 m c t (ix2 d a) = (V m c main_v29 : Vec F S1024x1024 .bf16) (ix2 d a) := by
  unfold bW1 iblk
  rw [View.read_apply]
  show V m c main_v29 _ = V m c main_v29 _
  congr 1
  funext ax
  apply Fin.ext
  match ax with
  | ⟨0, _⟩ => show win0_1.index t 0 * 1024 + 1 * d.val = d.val; rw [(idx_1 t).1]; omega
  | ⟨1, _⟩ => show win0_1.index t 1 * 1024 + 1 * a.val = a.val; rw [(idx_1 t).2]; omega

theorem bb1_apply (c : Dev nD) (t : Fin cfg0.N) (a : Fin 1024) :
    bb1 m c t (ix2 0 a) = (V m c main_v32 : Vec F S1x1024 .f32) (ix2 0 a) := by
  unfold bb1 iblk
  rw [View.read_apply]
  show V m c main_v32 _ = V m c main_v32 _
  congr 1
  funext ax
  apply Fin.ext
  match ax with
  | ⟨0, _⟩ => show win0_2.index t 0 * 1 + 1 * ((0 : Fin 1) : ℕ) = ((0 : Fin 1) : ℕ); rw [(idx_2 t).1]; omega
  | ⟨1, _⟩ => show win0_2.index t 1 * 1024 + 1 * a.val = a.val; rw [(idx_2 t).2]; omega

theorem bW2_apply (c : Dev nD) (t : Fin cfg0.N) (a k : Fin 1024) :
    bW2 m c t (ix2 a k) = (V m c main_v30 : Vec F S1024x1024 .bf16) (ix2 a k) := by
  unfold bW2 iblk
  rw [View.read_apply]
  show V m c main_v30 _ = V m c main_v30 _
  congr 1
  funext ax
  apply Fin.ext
  match ax with
  | ⟨0, _⟩ => show win0_3.index t 0 * 1024 + 1 * a.val = a.val; rw [(idx_3 t).1]; omega
  | ⟨1, _⟩ => show win0_3.index t 1 * 1024 + 1 * k.val = k.val; rw [(idx_3 t).2]; omega

theorem bb2_apply (c : Dev nD) (t : Fin cfg0.N) (k : Fin 1024) :
    bb2 m c t (ix2 0 k) = (V m c main_v33 : Vec F S1x1024 .f32) (ix2 0 k) := by
  unfold bb2 iblk
  rw [View.read_apply]
  show V m c main_v33 _ = V m c main_v33 _
  congr 1
  funext ax
  apply Fin.ext
  match ax with
  | ⟨0, _⟩ => show win0_4.index t 0 * 1 + 1 * ((0 : Fin 1) : ℕ) = ((0 : Fin 1) : ℕ); rw [(idx_4 t).1]; omega
  | ⟨1, _⟩ => show win0_4.index t 1 * 1024 + 1 * k.val = k.val; rw [(idx_4 t).2]; omega

theorem bWo_apply (c : Dev nD) (t : Fin cfg0.N) (k : Fin 1024) (q : Fin 1280) :
    bWo m c t (ix2 k q) = (V m c main_v31 : Vec F S1024x32000 .bf16)
      (ix2 k ⟨1280 * (t.val % 25) + q.val, by omega⟩) := by
  unfold bWo iblk
  rw [View.read_apply]
  show V m c main_v31 _ = V m c main_v31 _
  congr 1
  funext ax
  apply Fin.ext
  match ax with
  | ⟨0, _⟩ => show win0_5.index t 0 * 1024 + 1 * k.val = k.val; rw [(idx_5 t).1]; omega
  | ⟨1, _⟩ => show win0_5.index t 1 * 1280 + 1 * q.val = 1280 * (t.val % 25) + q.val; rw [(idx_5 t).2]; omega

theorem bbo_apply (c : Dev nD) (t : Fin cfg0.N) (q : Fin 1280) :
    bbo m c t (ix2 0 q) = (V m c main_v34 : Vec F S1x32000 .f32)
      (ix2 0 ⟨1280 * (t.val % 25) + q.val, by omega⟩) := by
  unfold bbo iblk
  rw [View.read_apply]
  show V m c main_v34 _ = V m c main_v34 _
  congr 1
  funext ax
  apply Fin.ext
  match ax with
  | ⟨0, _⟩ => show win0_6.index t 0 * 1 + 1 * ((0 : Fin 1) : ℕ) = ((0 : Fin 1) : ℕ); rw [(idx_6 t).1]; omega
  | ⟨1, _⟩ => show win0_6.index t 1 * 1280 + 1 * q.val = 1280 * (t.val % 25) + q.val; rw [(idx_6 t).2]; omega

theorem bT_apply (c : Dev nD) (t : Fin cfg0.N) (p : Fin 1024) :
    bT m c t (ix2 p 0) = (V m c main_v28 : Vec F S8192x1 .i32)
      (ix2 ⟨1024 * (t.val / 25) + p.val, by have := t.isLt; have hN : cfg0.N = 200 := N_0; omega⟩ 0) := by
  unfold bT iblk
  rw [View.read_apply]
  show V m c main_v28 _ = V m c main_v28 _
  congr 1
  funext ax
  apply Fin.ext
  match ax with
  | ⟨0, _⟩ => show win0_7.index t 0 * 1024 + 1 * p.val = 1024 * (t.val / 25) + p.val; rw [(idx_7 t).1]; omega
  | ⟨1, _⟩ => show win0_7.index t 1 * 1 + 1 * ((0 : Fin 1) : ℕ) = ((0 : Fin 1) : ℕ); rw [(idx_7 t).2]; omega

/-- Points of one row tile see the same embedded rows. -/
theorem bE_congr (c : Dev nD) (t t' : Fin cfg0.N) (h : t.val / 25 = t'.val / 25) : bE m c t = bE m c t' := by
  funext j
  obtain ⟨p, k, rfl⟩ : ∃ (p k : Fin 1024), j = ix2 p k := ⟨j 0, j 1, eq_ix2 j⟩
  rw [bE_apply, bE_apply]
  simp only [h]

/-- The four hidden-layer operands are the same at every point. -/
theorem bW1_congr (c : Dev nD) (t t' : Fin cfg0.N) : bW1 m c t = bW1 m c t' := by
  funext j
  obtain ⟨d, a, rfl⟩ : ∃ (d a : Fin 1024), j = ix2 d a := ⟨j 0, j 1, eq_ix2 j⟩
  rw [bW1_apply, bW1_apply]
theorem bb1_congr (c : Dev nD) (t t' : Fin cfg0.N) : bb1 m c t = bb1 m c t' := by
  funext j
  obtain ⟨z, a, rfl⟩ : ∃ (z : Fin 1) (a : Fin 1024), j = ix2 z a := ⟨j 0, j 1, eq_ix2 j⟩
  obtain rfl : z = 0 := Subsingleton.elim _ _
  rw [bb1_apply, bb1_apply]
theorem bW2_congr (c : Dev nD) (t t' : Fin cfg0.N) : bW2 m c t = bW2 m c t' := by
  funext j
  obtain ⟨a, k, rfl⟩ : ∃ (a k : Fin 1024), j = ix2 a k := ⟨j 0, j 1, eq_ix2 j⟩
  rw [bW2_apply, bW2_apply]
theorem bb2_congr (c : Dev nD) (t t' : Fin cfg0.N) : bb2 m c t = bb2 m c t' := by
  funext j
  obtain ⟨z, k, rfl⟩ : ∃ (z : Fin 1) (k : Fin 1024), j = ix2 z k := ⟨j 0, j 1, eq_ix2 j⟩
  obtain rfl : z = 0 := Subsingleton.elim _ _
  rw [bb2_apply, bb2_apply]

end Cert.KernelIdeal.Blocks

end
-- ==== Proof.Invariant.lean ====
/-
  What the carried scratch buffers hold after every grid point, row by row.

  Point `n` is vocabulary tile `n % 25` of row tile `n / 25`. After it, the first scratch buffer holds the hidden
  layer of the row tile (computed at the tile's first point and untouched since), and at row `p` the three running
  columns hold the state of the streaming log-sum-exp after `n % 25 + 1` tiles of that row's logits: the first
  point of a row tile starts from the reset state (-∞, 0, 0), every later point continues from what the point before
  left, and each point's update is one streaming step on the 1280 logits of its tile. At the last tile the output
  block receives `m + log l - g` of the state after all 25 tiles. This is an induction on the point number; nothing
  about the blocks' contents enters it.
-/
import proofs.«424650_j90434831385111_1_alg».proof.Proof.Pieces
import proofs.«424650_j90434831385111_1_alg».proof.Proof.RowStep
import proofs.«424650_j90434831385111_1_alg».proof.Proof.Blocks

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.KernelIdeal.Row Cert.KernelIdeal.Pieces Cert.Online

variable (m : (ℓ : Loc nD τ sig) → Buf (Elt Ideal) ℓ)

-- the point-by-point contents are used through their three case equations only, never unfolded
attribute [local irreducible] outsAt0

/-- The hidden layer as a point computes it from its blocks. -/
def h2At (c : Dev nD) (t : Fin cfg0.N) : Vec Ideal S1024x1024 .bf16 :=
  k0_pay3 (bE m c t) (bW1 m c t) (bb1 m c t) (bW2 m c t) (bb2 m c t)

/-- Row `p`'s 1280 logits at point `t`, from a hidden layer `h2`. -/
abbrev xPt (c : Dev nD) (t : Fin cfg0.N) (h2 : Vec Ideal S1024x1024 .bf16) (p : Fin 1024) (q : Fin 1280) : EReal :=
  k0_pay8 h2 (bWo m c t) (bbo m c t) (ix2 p q)

/-- Lane `q` of point `t`'s tile is row `p`'s label. -/
abbrev hitPt (c : Dev nD) (t : Fin cfg0.N) (p : Fin 1024) (q : Fin 1280) : Prop :=
  hitAt (BitVec.ofNat 32 ((grid0.coords t) 1).val) (bT m c t (ix2 p 0)) q

/-- Row `p` of row tile `i`: its logits in vocabulary tile `j`. -/
abbrev xrow (c : Dev nD) (i : ℕ) (p : Fin 1024) (j : ℕ) : Fin 1280 → EReal :=
  xPt m c (ptOf (25 * i + j)) (h2At m c (ptOf (25 * i))) p

/-- Row `p` of row tile `i`: where its label sits in vocabulary tile `j`. -/
abbrev hrow (c : Dev nD) (i : ℕ) (p : Fin 1024) (j : ℕ) : Fin 1280 → Prop :=
  hitPt m c (ptOf (25 * i + j)) p

/-- The three running columns after point `n`, at row `p`. -/
def st (c : Dev nD) (n : ℕ) (hn : n < cfg0.N) (p : Fin 1024) : EReal × EReal × EReal :=
  (((outsAt0 m c n hn).2.2.1 (ix2 p 0) : EReal), ((outsAt0 m c n hn).2.2.2.1 (ix2 p 0) : EReal),
    ((outsAt0 m c n hn).2.2.2.2 (ix2 p 0) : EReal))

/-! ## Each component of what a point leaves, case by case

One small lemma per component and case: the generated case equation for the tuple, its projection, and the
case's piece read as a payload. -/

theorem sA0 (c : Dev nD) (t : Fin cfg0.N) (h0 : t.val % 25 = 0) (h1 : ¬t.val % 25 = 24) :
    (outsAt0 m c t.val t.isLt).2.1 = (k0_pay3 (bE m c t) (bW1 m c t) (bb1 m c t) (bW2 m c t) (bb2 m c t)) := by
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem sA1 (c : Dev nD) (t : Fin cfg0.N) (h0 : t.val % 25 = 0) (h1 : ¬t.val % 25 = 24) :
    (outsAt0 m c t.val t.isLt).2.2.1 = k0_pay11 (k0_pay3 (bE m c t) (bW1 m c t) (bb1 m c t) (bW2 m c t) (bb2 m c t)) (bWo m c t) (bbo m c t) (k0_pay4 (F := Ideal)) := by
  rw [outsAt0_A m c t h0 h1]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem sA2 (c : Dev nD) (t : Fin cfg0.N) (h0 : t.val % 25 = 0) (h1 : ¬t.val % 25 = 24) :
    (outsAt0 m c t.val t.isLt).2.2.2.1 = k0_pay10 (k0_pay3 (bE m c t) (bW1 m c t) (bb1 m c t) (bW2 m c t) (bb2 m c t)) (bWo m c t) (bbo m c t) (k0_pay4 (F := Ideal)) (k0_pay5 (F := Ideal)) := by
  rw [outsAt0_A m c t h0 h1]
  dsimp only
  exact sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem sA3 (c : Dev nD) (t : Fin cfg0.N) (h0 : t.val % 25 = 0) (h1 : ¬t.val % 25 = 24) :
    (outsAt0 m c t.val t.isLt).2.2.2.2 = k0_pay1 (BitVec.ofNat 32 ((grid0.coords t) 1).val) (k0_pay8 (k0_pay3 (bE m c t) (bW1 m c t) (bb1 m c t) (bW2 m c t) (bb2 m c t)) (bWo m c t) (bbo m c t)) (k0_pay12 (bT m c t)) lanes (k0_pay7 (k0_pay6 (F := Ideal))) := by
  rw [outsAt0_A m c t h0 h1]
  dsimp only
  exact sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem sB0 (c : Dev nD) (t : Fin cfg0.N) (h0 : ¬t.val % 25 = 0) (h1 : ¬t.val % 25 = 24) :
    (outsAt0 m c t.val t.isLt).2.1 = (outsAt0 m c (t.val - 1) (Nat.lt_of_le_of_lt (Nat.sub_le _ _) t.isLt)).2.1 := by
  rw [outsAt0_B m c t h0 h1]
  rfl

theorem sB1 (c : Dev nD) (t : Fin cfg0.N) (h0 : ¬t.val % 25 = 0) (h1 : ¬t.val % 25 = 24) :
    (outsAt0 m c t.val t.isLt).2.2.1 = k0_pay11 (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 := by
  rw [outsAt0_B m c t h0 h1]
  dsimp only
  exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sB2 (c : Dev nD) (t : Fin cfg0.N) (h0 : ¬t.val % 25 = 0) (h1 : ¬t.val % 25 = 24) :
    (outsAt0 m c t.val t.isLt).2.2.2.1 = k0_pay10 (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_B m c t h0 h1]
  dsimp only
  exact sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sB3 (c : Dev nD) (t : Fin cfg0.N) (h0 : ¬t.val % 25 = 0) (h1 : ¬t.val % 25 = 24) :
    (outsAt0 m c t.val t.isLt).2.2.2.2 = k0_pay1 (BitVec.ofNat 32 ((grid0.coords t) 1).val) (k0_pay8 (outsAt0 m c (t.val - 1) (Nat.lt_of_le_of_lt (Nat.sub_le _ _) t.isLt)).2.1 (bWo m c t) (bbo m c t)) (k0_pay12 (bT m c t)) lanes (outsAt0 m c (t.val - 1) (Nat.lt_of_le_of_lt (Nat.sub_le _ _) t.isLt)).2.2.2.2 := by
  rw [outsAt0_B m c t h0 h1]
  dsimp only
  exact sout0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sC0 (c : Dev nD) (t : Fin cfg0.N) (h0 : ¬t.val % 25 = 0) (h1 : t.val % 25 = 24) :
    (outsAt0 m c t.val t.isLt).2.1 = (outsAt0 m c (t.val - 1) (Nat.lt_of_le_of_lt (Nat.sub_le _ _) t.isLt)).2.1 := by
  rw [outsAt0_C m c t h0 h1]
  rfl

theorem sC1 (c : Dev nD) (t : Fin cfg0.N) (h0 : ¬t.val % 25 = 0) (h1 : t.val % 25 = 24) :
    (outsAt0 m c t.val t.isLt).2.2.1 = k0_pay11 (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 := by
  rw [outsAt0_C m c t h0 h1]
  dsimp only
  exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sC2 (c : Dev nD) (t : Fin cfg0.N) (h0 : ¬t.val % 25 = 0) (h1 : t.val % 25 = 24) :
    (outsAt0 m c t.val t.isLt).2.2.2.1 = k0_pay10 (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_C m c t h0 h1]
  dsimp only
  exact sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sC3 (c : Dev nD) (t : Fin cfg0.N) (h0 : ¬t.val % 25 = 0) (h1 : t.val % 25 = 24) :
    (outsAt0 m c t.val t.isLt).2.2.2.2 = k0_pay1 (BitVec.ofNat 32 ((grid0.coords t) 1).val) (k0_pay8 (outsAt0 m c (t.val - 1) (Nat.lt_of_le_of_lt (Nat.sub_le _ _) t.isLt)).2.1 (bWo m c t) (bbo m c t)) (k0_pay12 (bT m c t)) lanes (outsAt0 m c (t.val - 1) (Nat.lt_of_le_of_lt (Nat.sub_le _ _) t.isLt)).2.2.2.2 := by
  rw [outsAt0_C m c t h0 h1]
  dsimp only
  exact sout0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sC8 (c : Dev nD) (t : Fin cfg0.N) (h0 : ¬t.val % 25 = 0) (h1 : t.val % 25 = 24) :
    (outsAt0 m c t.val t.isLt).1 = k0_pay2 (k0_pay11 (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1) (k0_pay10 (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 (outsAt0 m c (t.val - 1) (Nat.lt_of_le_of_lt (Nat.sub_le _ _) t.isLt)).2.2.2.1) (k0_pay1 (BitVec.ofNat 32 ((grid0.coords t) 1).val) (k0_pay8 (outsAt0 m c (t.val - 1) (Nat.lt_of_le_of_lt (Nat.sub_le _ _) t.isLt)).2.1 (bWo m c t) (bbo m c t)) (k0_pay12 (bT m c t)) lanes (outsAt0 m c (t.val - 1) (Nat.lt_of_le_of_lt (Nat.sub_le _ _) t.isLt)).2.2.2.2) := by
  rw [outsAt0_C m c t h0 h1]
  dsimp only
  exact out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- A row tile's first point: the hidden layer is computed, and the columns make one step from the reset state. -/
theorem compsA (c : Dev nD) (t : Fin cfg0.N) (h0 : t.val % 25 = 0) (h1 : ¬t.val % 25 = 24) :
    (outsAt0 m c t.val t.isLt).2.1 = h2At m c t
    ∧ ∀ p : Fin 1024, st m c t.val t.isLt p
        = tileStep (xPt m c t (h2At m c t) p) (hitPt m c t p) ((⊥ : EReal), (0 : EReal), (0 : EReal)) := by
  refine ⟨sA0 m c t h0 h1, fun p => ?_⟩
  unfold st
  rw [sA1 m c t h0 h1, sA2 m c t h0 h1, sA3 m c t h0 h1]
  refine (step_apply (BitVec.ofNat 32 ((grid0.coords t) 1).val) (k0_pay3 (bE m c t) (bW1 m c t) (bb1 m c t) (bW2 m c t) (bb2 m c t)) (bWo m c t) (bbo m c t) (k0_pay4 (F := Ideal)) (k0_pay5 (F := Ideal)) (k0_pay7 (k0_pay6 (F := Ideal))) (bT m c t) p).trans ?_
  rw [init_apply p]
  rfl

/-- A later point of a row tile: the hidden layer is kept, and the columns make one step from the state before. -/
theorem compsBC (c : Dev nD) (t : Fin cfg0.N) (h0 : ¬t.val % 25 = 0) :
    (outsAt0 m c t.val t.isLt).2.1 = (outsAt0 m c (t.val - 1) (Nat.lt_of_le_of_lt (Nat.sub_le _ _) t.isLt)).2.1
    ∧ ∀ p : Fin 1024, st m c t.val t.isLt p
        = tileStep (xPt m c t (outsAt0 m c (t.val - 1) (Nat.lt_of_le_of_lt (Nat.sub_le _ _) t.isLt)).2.1 p) (hitPt m c t p)
            (st m c (t.val - 1) (Nat.lt_of_le_of_lt (Nat.sub_le _ _) t.isLt) p) := by
  by_cases h1 : t.val % 25 = 24
  · refine ⟨sC0 m c t h0 h1, fun p => ?_⟩
    unfold st
    rw [sC1 m c t h0 h1, sC2 m c t h0 h1, sC3 m c t h0 h1]
    exact (step_apply (BitVec.ofNat 32 ((grid0.coords t) 1).val) (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (bT m c t) p)
  · refine ⟨sB0 m c t h0 h1, fun p => ?_⟩
    unfold st
    rw [sB1 m c t h0 h1, sB2 m c t h0 h1, sB3 m c t h0 h1]
    exact (step_apply (BitVec.ofNat 32 ((grid0.coords t) 1).val) (outsAt0 m c (t.val - 1) (Nat.lt_of_le_of_lt (Nat.sub_le _ _) t.isLt)).2.1 (bWo m c t) (bbo m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (bT m c t) p)

/-- After point `n`: the hidden layer of the row tile, and at each row the streaming state after `n % 25 + 1` tiles. -/
theorem inv (c : Dev nD) (n : ℕ) : ∀ hn : n < cfg0.N,
    (outsAt0 m c n hn).2.1 = h2At m c (ptOf (n - n % 25))
    ∧ ∀ p : Fin 1024, st m c n hn p = tileRun (xrow m c (n / 25) p) (hrow m c (n / 25) p) (n % 25 + 1) := by
  induction n using Nat.strong_induction_on with
  | _ n ih =>
    intro hn
    have hN : cfg0.N = 200 := N_0
    have ht : ptOf (25 * (n / 25) + n % 25) = (⟨n, hn⟩ : Fin cfg0.N) := by
      rw [Nat.div_add_mod]; exact ptOf_self ⟨n, hn⟩
    by_cases h0 : n % 25 = 0
    · have h1 : ¬n % 25 = 24 := by omega
      obtain ⟨hA, hS⟩ := compsA m c ⟨n, hn⟩ h0 h1
      have hb : ptOf (n - n % 25) = (⟨n, hn⟩ : Fin cfg0.N) := by
        rw [h0, Nat.sub_zero]; exact ptOf_self ⟨n, hn⟩
      have hb' : ptOf (25 * (n / 25)) = (⟨n, hn⟩ : Fin cfg0.N) := by
        have : 25 * (n / 25) = n := by omega
        rw [this]; exact ptOf_self ⟨n, hn⟩
      refine ⟨hA.trans (by rw [hb]), fun p => ?_⟩
      rw [hS p, h0]
      show _ = tileStep (xrow m c (n / 25) p 0) (hrow m c (n / 25) p 0) ((⊥ : EReal), (0 : EReal), (0 : EReal))
      dsimp only [xrow, hrow]
      rw [Nat.add_zero, hb']
    · obtain ⟨hA, hS⟩ := compsBC m c ⟨n, hn⟩ h0
      have hlt : n - 1 < n := by omega
      obtain ⟨ihA, ihS⟩ := ih (n - 1) hlt (Nat.lt_of_le_of_lt (Nat.sub_le _ _) hn)
      have e0 : n - 1 - (n - 1) % 25 = n - n % 25 := by omega
      have e1 : (n - 1) / 25 = n / 25 := by omega
      have e2 : (n - 1) % 25 + 1 = n % 25 := by omega
      have hb' : ptOf (n - n % 25) = ptOf (25 * (n / 25)) := by
        have : n - n % 25 = 25 * (n / 25) := by omega
        rw [this]
      refine ⟨hA.trans (ihA.trans (by rw [e0])), fun p => ?_⟩
      rw [hS p]
      show _ = tileStep (xrow m c (n / 25) p (n % 25)) (hrow m c (n / 25) p (n % 25))
        (tileRun (xrow m c (n / 25) p) (hrow m c (n / 25) p) (n % 25))
      have hprev := ihS p
      rw [e1, e2] at hprev
      dsimp only at hprev ⊢
      rw [hprev, ihA, e0, hb']
      dsimp only [xrow, hrow]
      rw [ht]

/-- At a row tile's last point the output block receives `m + log l - g` of the state after all 25 tiles. -/
theorem out_row (c : Dev nD) (t : Fin cfg0.N) (h24 : t.val % 25 = 24) (p : Fin 1024) :
    ((outsAt0 m c t.val t.isLt).1 (ix2 p 0) : EReal)
      = (tileRun (xrow m c (t.val / 25) p) (hrow m c (t.val / 25) p) 25).1
        + Ideal.log (tileRun (xrow m c (t.val / 25) p) (hrow m c (t.val / 25) p) 25).2.1
        - (tileRun (xrow m c (t.val / 25) p) (hrow m c (t.val / 25) p) 25).2.2 := by
  have h0 : ¬t.val % 25 = 0 := by omega
  have hS := (inv m c t.val t.isLt).2 p
  rw [h24] at hS
  rw [← hS]
  unfold st
  rw [sC8 m c t h0 h24, sC1 m c t h0 h24, sC2 m c t h0 h24, sC3 m c t h0 h24]
  exact out_apply _ _ _ p

end Cert.KernelIdeal.Inv

end
-- ==== Proof.KernelArray.lean ====
/-
  The kernel program's result, at the exact values.

  Only the last point of each row tile writes the output block back, and block `i` covers rows `1024 · i` to
  `1024 · i + 1023` of the 8192 × 1 output array, so after the region the array holds at row `r` the value
  `m + log l - g` of the streaming state after all 25 tiles of row `r % 1024` of row tile `r / 1024`. The eighteen host
  operations after the region reshape that column to 16 × 512 and apply to it and to the labels the same masked mean
  as the reference's last operations: the shared `tail`.
-/
import proofs.«424650_j90434831385111_1_alg».proof.Proof.Invariant
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Blocks Cert.KernelIdeal.Inv Cert.Online

variable (m : (ℓ : Loc nD τ sig) → Buf (Elt Ideal) ℓ)

-- the point-by-point contents enter through the last point's row equation only, never unfolded
attribute [local irreducible] outsAt0

/-- The loss of output row `r`: `m + log l - g` of the streaming state after all 25 tiles of that row's logits. -/
def rowLoss (c : Dev nD) (r : Fin 8192) : EReal :=
  (tileRun (xrow m c (r.val / 1024) ⟨r.val % 1024, Nat.mod_lt _ (by decide)⟩) (hrow m c (r.val / 1024) ⟨r.val % 1024, Nat.mod_lt _ (by decide)⟩) 25).1
  + Ideal.log (tileRun (xrow m c (r.val / 1024) ⟨r.val % 1024, Nat.mod_lt _ (by decide)⟩) (hrow m c (r.val / 1024) ⟨r.val % 1024, Nat.mod_lt _ (by decide)⟩) 25).2.1
  - (tileRun (xrow m c (r.val / 1024) ⟨r.val % 1024, Nat.mod_lt _ (by decide)⟩) (hrow m c (r.val / 1024) ⟨r.val % 1024, Nat.mod_lt _ (by decide)⟩) 25).2.2

/-- The output array after the region. -/
def G (c : Dev nD) : Vec Ideal S8192x1 .f32 := fun y => rowLoss m c (y 0)

/-- The output window's block at point `t` is row block `t / 25` of the one column. -/
theorem outIndex : ∀ t : Fin cfg0.N, win0_8.index t (0 : Fin 2) = t.val / 25 ∧ win0_8.index t (1 : Fin 2) = 0 :=
  (by decide +kernel : ∀ t : Fin grid0.N, win0_8.index t (0 : Fin 2) = t.val / 25 ∧ win0_8.index t (1 : Fin 2) = 0)

/-- The loss of row `1024 · i + p` is that of row `p` of row tile `i`. -/
theorem rowLoss_eq (c : Dev nD) (r : Fin 8192) (i : ℕ) (p : Fin 1024) (h : r.val = 1024 * i + p.val) :
    rowLoss m c r
      = (tileRun (xrow m c i p) (hrow m c i p) 25).1 + Ideal.log (tileRun (xrow m c i p) (hrow m c i p) 25).2.1
        - (tileRun (xrow m c i p) (hrow m c i p) 25).2.2 := by
  have hp := p.isLt
  have hi : r.val / 1024 = i := by omega
  have hr : (⟨r.val % 1024, Nat.mod_lt _ (by decide)⟩ : Fin 1024) = p := Fin.ext (by show r.val % 1024 = p.val; omega)
  unfold rowLoss
  rw [hi, hr]

/-- What a write-back point writes is its block of `G`: at (p, 0) of the block, the loss of row `1024 · (t / 25) + p`. -/
theorem flushed_eq (c : Dev nD) (t : Fin cfg0.N) (hf : (cfg0.win 8).flush t = true) :
    (dats m 0 c).flushed 8 t = ((cfg0.win 8).blk t).view.read (Elt Ideal) (G m c) := by
  have h24 : t.val % 25 = 24 := (flush0_8 t).mp hf
  obtain ⟨e0, e1⟩ := outIndex t
  show (cfg0.win 8).cut (grid0.coords t) ((dats m 0 c).after 8 t) = _
  rw [after0_8]
  funext y
  have hy0 : (y 0).val < 1024 := (y 0).isLt
  have hy1 : (y 1).val < 1 := (y 1).isLt
  show (outsAt0 m c t.val t.isLt).1 ((cfg0.win 8).xinj (grid0.coords t) y) = G m c (((cfg0.win 8).blk t).view.emb y)
  -- the block's index y is (p, 0)
  have hx : (cfg0.win 8).xinj (grid0.coords t) y = ix2 (⟨(y 0).val, hy0⟩ : Fin 1024) (0 : Fin 1) := by
    funext a
    refine Fin.ext ?_
    match a with
    | ⟨0, _⟩ => rfl
    | ⟨1, _⟩ => show (y 1).val = 0; omega
  rw [hx, out_row m c t h24 ⟨(y 0).val, hy0⟩]
  -- and it sits in the array at row 1024 · (t / 25) + p
  refine (rowLoss_eq m c _ (t.val / 25) ⟨(y 0).val, hy0⟩ ?_).symm
  show win0_8.index t (0 : Fin 2) * 1024 + 1 * (y 0).val = 1024 * (t.val / 25) + (y 0).val
  omega

/-- An index of the array is in point `t`'s block iff each coordinate is in the block's range on its axis. -/
theorem mem_blk (t : Fin cfg0.N) (i : S8192x1.Idx) :
    i ∈ ((cfg0.win 8).blk t).view.set
      ↔ ∀ a : Fin 2, win0_8.index t a * S1024x1.size a ≤ (i a).val ∧ (i a).val < win0_8.index t a * S1024x1.size a + S1024x1.size a := by
  show i ∈ ((View.whole main_v35).slice (win0_8.rect t)).set ↔ _
  rw [View.set_slice_whole, Rect.mem_set_unit]
  exact Iff.rfl

/-- Every row of the array is in the block of its row tile's last point, which writes back. -/
theorem cover (i : S8192x1.Idx) : ∃ t : Fin cfg0.N, (cfg0.win 8).flush t = true ∧ i ∈ ((cfg0.win 8).blk t).view.set := by
  have hN : cfg0.N = 200 := N_0
  have hi0 : (i 0).val < 8192 := (i 0).isLt
  have hi1 : (i 1).val < 1 := (i 1).isLt
  have hlt : 25 * ((i 0).val / 1024) + 24 < cfg0.N := by omega
  obtain ⟨e0, e1⟩ := outIndex ⟨25 * ((i 0).val / 1024) + 24, hlt⟩
  have tv : (⟨25 * ((i 0).val / 1024) + 24, hlt⟩ : Fin cfg0.N).val = 25 * ((i 0).val / 1024) + 24 := rfl
  refine ⟨⟨25 * ((i 0).val / 1024) + 24, hlt⟩, (flush0_8 _).mpr (by omega), ?_⟩
  rw [mem_blk]
  intro a
  match a with
  | ⟨0, _⟩ =>
    show win0_8.index ⟨25 * ((i 0).val / 1024) + 24, hlt⟩ (0 : Fin 2) * 1024 ≤ (i 0).val
      ∧ (i 0).val < win0_8.index ⟨25 * ((i 0).val / 1024) + 24, hlt⟩ (0 : Fin 2) * 1024 + 1024
    omega
  | ⟨1, _⟩ =>
    show win0_8.index ⟨25 * ((i 0).val / 1024) + 24, hlt⟩ (1 : Fin 2) * 1 ≤ (i 1).val
      ∧ (i 1).val < win0_8.index ⟨25 * ((i 0).val / 1024) + 24, hlt⟩ (1 : Fin 2) * 1 + 1
    omega

/-- After the region the output array holds each row's loss. -/
theorem final (c : Dev nD) : ((dats m 0 c).arrAt 8 cfg0.N : Vec Ideal S8192x1 .f32) = G m c := by
  exact (dats m 0 c).arrAt_eq_of_cover 8 (G m c) (fun t ht => flushed_eq m c t ht) (cover)

end Cert.KernelIdeal.KV

end
-- ==== Proof.Spec.lean ====
/-
  The network both programs compute, one row at a time, as a function on the extended reals.

  A row is a 1024-vector `e` (four embedded context tokens). The hidden layer is
  `hid k = max (∑ a, max (∑ d, e d · W1 d a + b1 a) 0 · W2 a k + b2 k) 0` and the logit of word `v` is
  `logit v = ∑ k, hid k · Wo k v + bo v`. A sum of products of finite numbers is finite and so is a maximum of two
  finite numbers, so every logit of a row is a real number as soon as the row, the weights and the biases are.
-/
import Idealize.ShloMosaic.PureOps.Ideal

noncomputable section

namespace Cert.Spec

/-- A finite extended real: the image of a real number. -/
def IsR (x : EReal) : Prop := ∃ r : ℝ, x = (r : EReal)

/-- The second hidden layer of one row, at unit `k`. -/
def hid (e : Fin 1024 → EReal) (W1 : Fin 1024 → Fin 1024 → EReal) (b1 : Fin 1024 → EReal)
    (W2 : Fin 1024 → Fin 1024 → EReal) (b2 : Fin 1024 → EReal) (k : Fin 1024) : EReal :=
  max ((∑ a : Fin 1024, max ((∑ d : Fin 1024, e d * W1 d a) + b1 a) 0 * W2 a k) + b2 k) 0

/-- The logit of one row at word `v`. -/
def logit (e : Fin 1024 → EReal) (W1 : Fin 1024 → Fin 1024 → EReal) (b1 : Fin 1024 → EReal)
    (W2 : Fin 1024 → Fin 1024 → EReal) (b2 : Fin 1024 → EReal)
    (Wo : Fin 1024 → Fin 32000 → EReal) (bo : Fin 32000 → EReal) (v : Fin 32000) : EReal :=
  (∑ k : Fin 1024, hid e W1 b1 W2 b2 k * Wo k v) + bo v

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max {x y : EReal} (hx : IsR x) (hy : IsR y) : IsR (max x y) := by
  obtain ⟨a, rfl⟩ := hx
  obtain ⟨b, rfl⟩ := hy
  exact ⟨Max.max a b, (EReal.coe_strictMono.monotone.map_max (a := a) (b := b)).symm⟩

theorem IsR.zero : IsR 0 := ⟨0, rfl⟩

theorem IsR.sum {ι : Type} (s : Finset ι) (f : ι → EReal) (hf : ∀ i ∈ s, IsR (f i)) : IsR (∑ i ∈ s, f i) := by
  classical
  induction s using Finset.induction_on with
  | empty => exact ⟨0, by simp⟩
  | insert i s hi ih =>
    rw [Finset.sum_insert hi]
    exact IsR.add (hf i (Finset.mem_insert_self i s)) (ih fun j hj => hf j (Finset.mem_insert_of_mem hj))

/-- Finite row, weights and biases give a finite hidden unit. -/
theorem hid_isR {e : Fin 1024 → EReal} {W1 : Fin 1024 → Fin 1024 → EReal} {b1 : Fin 1024 → EReal}
    {W2 : Fin 1024 → Fin 1024 → EReal} {b2 : Fin 1024 → EReal}
    (he : ∀ d, IsR (e d)) (hW1 : ∀ d a, IsR (W1 d a)) (hb1 : ∀ a, IsR (b1 a)) (hW2 : ∀ a k, IsR (W2 a k))
    (hb2 : ∀ k, IsR (b2 k)) (k : Fin 1024) : IsR (hid e W1 b1 W2 b2 k) := by
  unfold hid
  exact IsR.max (IsR.add (IsR.sum _ _ fun a _ => IsR.mul (IsR.max (IsR.add (IsR.sum _ _ fun d _ => IsR.mul (he d) (hW1 d a)) (hb1 a)) IsR.zero) (hW2 a k)) (hb2 k)) IsR.zero

/-- Finite row, weights and biases give finite logits. -/
theorem logit_isR {e : Fin 1024 → EReal} {W1 : Fin 1024 → Fin 1024 → EReal} {b1 : Fin 1024 → EReal}
    {W2 : Fin 1024 → Fin 1024 → EReal} {b2 : Fin 1024 → EReal} {Wo : Fin 1024 → Fin 32000 → EReal}
    {bo : Fin 32000 → EReal}
    (he : ∀ d, IsR (e d)) (hW1 : ∀ d a, IsR (W1 d a)) (hb1 : ∀ a, IsR (b1 a)) (hW2 : ∀ a k, IsR (W2 a k))
    (hb2 : ∀ k, IsR (b2 k)) (hWo : ∀ k v, IsR (Wo k v)) (hbo : ∀ v, IsR (bo v)) (v : Fin 32000) :
    IsR (logit e W1 b1 W2 b2 Wo bo v) := by
  unfold logit
  exact IsR.add (IsR.sum _ _ fun k _ => IsR.mul (hid_isR he hW1 hb1 hW2 hb2 k) (hWo k v)) (hbo v)

end Cert.Spec

end
-- ==== Proof.RefSide.lean ====
/-
  The reference program, read at the exact values.

  Its last sixteen operations (the label mask, the per-step count clamped at one, the masked sum over the batch,
  the quotient, the mean over the 512 steps) take the per-position loss and the labels and nothing else: they are ONE
  function `tail` of those two. Before them, the logits of position (b, s) are `Spec.logit` of that position's
  embedded row and the weights; the per-position loss is the negated log-softmax of the logits at the label, where
  the label is read as an index after wrapping a negative one and the row is kept only if the wrapped label is inside
  [0, 31999], so for a label already in [0, 32000) it is the logit at the label itself: with `M` the row's maximum,
  `-((x t - M) - log (0 + ∑ v, exp (x v - M)))`. The embedded row is a gather of rows of the embedding table with its
  row 0 overwritten by zeros, so it is finite when the table is.
-/
import proofs.«424650_j90434831385111_1_alg».proof.Proof.RefReadP
import proofs.«424650_j90434831385111_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Ref

open Idealize.ShloMosaic Idealize.ShloMosaic.ValueIdx Cert.ReferenceIdeal Cert.ReferenceIdeal.Gen Cert.ReferenceIdeal.Read

/-- From the per-position loss and the labels to the scalar result: the masked mean per step, then the mean over steps. -/
def tail {F : FTy → Type} [FloatOps F] (nll : (⟨S16x512, .f32⟩ : BufTy).Contents (Elt F))
    (x1 : (⟨S16x512, .i32⟩ : BufTy).Contents (Elt F)) : (⟨S_, .f32⟩ : BufTy).Contents (Elt F) :=
  Host.divf
    (Host.reduceAdd
      (Host.divf
        (Host.reduceAdd (mulf nll (val_main_v47 (F := F) x1)) (val_main_cst_8 (F := F)) reducesTo_S16x512_S512_d0 h_S_)
        (val_main_v50 (F := F) x1))
      (val_main_cst_9 (F := F)) reducesTo_S512_S_d0 h_S_)
    (val_main_cst_10 (F := F))

variable (x0 x1 : (⟨S16x512, .i32⟩ : BufTy).Contents (Elt Ideal)) (x2 : (⟨S32000x256, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x32000, .f32⟩ : BufTy).Contents (Elt Ideal)) (x8 : (⟨S32000, .f32⟩ : BufTy).Contents (Elt Ideal))

/-- The reference's result is the tail of its per-position loss. -/
theorem result_eq_tail :
    val_main_v55 (F := Ideal) x0 x1 x2 x3 x4 x5 x6 x7 x8
      = tail (val_main_v44 (F := Ideal) x0 x1 x2 x3 x4 x5 x6 x7 x8) x1 := by
  unfold val_main_v55 val_main_v54 val_main_v53 val_main_v52 val_main_v51 tail
  rfl

/-- The first hidden layer at (b, s, a): the relu of the row's product with the first weights plus the first bias. -/
theorem hid1_apply (b : Fin 16) (s : Fin 512) (a : Fin 1024) :
    val_main_v30 (F := Ideal) x0 x2 x3 x4 (ix3 b s a)
      = max ((∑ d : Fin 1024, val_main_v25 (F := Ideal) x0 x2 (ix3 b s d) * x3 (ix2 d a)) + x4 (ix1 a)) 0 := by
  rw [val_main_v30_apply, val_main_v29_apply, val_main_v26_apply, val_main_v28_apply, val_main_v27_apply,
    val_main_call1_v0_apply, val_main_call1_cst_apply, Ideal.maximumf_def, Ideal.addf_def, Ideal.ofBits_def,
    Ideal.ofBits_zero_f32]
  have e1 : ∀ d : Fin 1024, lidx_main_v26 (ix3 b s a) d = ix3 b s d := fun d => funext fun c => Fin.ext (by
    match c with | ⟨0, _⟩ => rfl | ⟨1, _⟩ => rfl | ⟨2, _⟩ => rfl)
  have e2 : ∀ d : Fin 1024, ridx_main_v26 (ix3 b s a) d = ix2 d a := fun d => funext fun c => Fin.ext (by
    match c with | ⟨0, _⟩ => rfl | ⟨1, _⟩ => rfl)
  have e3 : idx_main_v27 (idx_main_v28 (ix3 b s a)) = ix1 a := funext fun c => Fin.ext (by
    match c with | ⟨0, _⟩ => rfl)
  rw [e3]
  simp only [e1, e2]

/-- The second hidden layer at (b, s, k) is `Spec.hid` of the row. -/
theorem hid_apply (b : Fin 16) (s : Fin 512) (k : Fin 1024) :
    val_main_v35 (F := Ideal) x0 x2 x3 x4 x5 x6 (ix3 b s k)
      = Cert.Spec.hid (fun d => val_main_v25 (F := Ideal) x0 x2 (ix3 b s d)) (fun d a => x3 (ix2 d a)) (fun a => x4 (ix1 a))
          (fun a k => x5 (ix2 a k)) (fun k => x6 (ix1 k)) k := by
  rw [val_main_v35_apply, val_main_v34_apply, val_main_v31_apply, val_main_v33_apply, val_main_v32_apply,
    val_main_call2_v0_apply, val_main_call2_cst_apply, Ideal.maximumf_def, Ideal.addf_def, Ideal.ofBits_def,
    Ideal.ofBits_zero_f32]
  have e1 : ∀ a : Fin 1024, lidx_main_v31 (ix3 b s k) a = ix3 b s a := fun a => funext fun c => Fin.ext (by
    match c with | ⟨0, _⟩ => rfl | ⟨1, _⟩ => rfl | ⟨2, _⟩ => rfl)
  have e2 : ∀ a : Fin 1024, ridx_main_v31 (ix3 b s k) a = ix2 a k := fun a => funext fun c => Fin.ext (by
    match c with | ⟨0, _⟩ => rfl | ⟨1, _⟩ => rfl)
  have e3 : idx_main_v32 (idx_main_v33 (ix3 b s k)) = ix1 k := funext fun c => Fin.ext (by
    match c with | ⟨0, _⟩ => rfl)
  rw [e3]
  simp only [e1, e2, hid1_apply]
  rfl

/-- The logits of position (b, s): the network of `Spec` on that position's embedded row. -/
theorem logit_apply (b : Fin 16) (s : Fin 512) (v : Fin 32000) :
    val_main_v39 (F := Ideal) x0 x2 x3 x4 x5 x6 x7 x8 (ix3 b s v)
      = Cert.Spec.logit (fun d => val_main_v25 (F := Ideal) x0 x2 (ix3 b s d)) (fun d a => x3 (ix2 d a)) (fun a => x4 (ix1 a))
          (fun a k => x5 (ix2 a k)) (fun k => x6 (ix1 k)) (fun k v => x7 (ix2 k v)) (fun v => x8 (ix1 v)) v := by
  rw [val_main_v39_apply, val_main_v36_apply, val_main_v38_apply, val_main_v37_apply, Ideal.addf_def]
  have e1 : ∀ k : Fin 1024, lidx_main_v36 (ix3 b s v) k = ix3 b s k := fun k => funext fun c => Fin.ext (by
    match c with | ⟨0, _⟩ => rfl | ⟨1, _⟩ => rfl | ⟨2, _⟩ => rfl)
  have e2 : ∀ k : Fin 1024, ridx_main_v36 (ix3 b s v) k = ix2 k v := fun k => funext fun c => Fin.ext (by
    match c with | ⟨0, _⟩ => rfl | ⟨1, _⟩ => rfl)
  have e3 : idx_main_v37 (idx_main_v38 (ix3 b s v)) = ix1 v := funext fun c => Fin.ext (by
    match c with | ⟨0, _⟩ => rfl)
  rw [e3]
  simp only [e1, e2, hid_apply]
  rfl

/-- A scatter keeps any property of entries that its combiner keeps: the result is a fold that, at each update index,
    either leaves the array alone or replaces one entry by the combiner of that entry and an update's entry. -/
theorem scatter_pred {α : Type} {s si u : Shape} {w : Nat} (d : ScatterDims s si u) (f : α → α → α) (x : s.Idx → α)
    (idx : IVec si w) (upd : u.Idx → α) (P : α → Prop) (hf : ∀ a b, P a → P b → P (f a b)) (hx : ∀ i, P (x i))
    (hu : ∀ j, P (upd j)) (i : s.Idx) : P (Host.scatter d f x idx upd i) := by
  unfold Host.scatter
  suffices H : ∀ (l : List (Fin u.numel)) (r : s.Idx → α), (∀ i, P (r i)) →
      ∀ i, P (l.foldl (fun r n =>
        match d.resultIdx? (u.rowMajor.symm n) idx with
        | some i => fun i' => if i' = i then f (r i) (upd (u.rowMajor.symm n)) else r i'
        | none => r) r i) from H _ x hx i
  intro l
  induction l with
  | nil => intro r hr i; exact hr i
  | cons n l ih =>
    intro r hr i
    rw [List.foldl_cons]
    apply ih
    intro i'
    generalize d.resultIdx? (u.rowMajor.symm n) idx = o
    cases o with
    | none => exact hr i'
    | some k =>
      show P (if i' = k then f (r k) (upd (u.rowMajor.symm n)) else r i')
      split
      · exact hf _ _ (hr _) (hu _)
      · exact hr _

/-- A finite embedding table gives finite embedded rows: every entry of the gathered array is an entry of the table
    or the zero written over its row 0. -/
theorem emb_isR (h2 : ∀ i, Cert.Spec.IsR (x2 i)) (i : S16x512x1024.Idx) :
    Cert.Spec.IsR (val_main_v25 (F := Ideal) x0 x2 i) := by
  rw [val_main_v25_apply]
  unfold val_main_v24 Host.gather val_main_v17
  refine scatter_pred _ _ _ _ _ Cert.Spec.IsR (fun _ _ _ hb => hb) h2 (fun j => ?_) _
  rw [val_main_v16_apply, val_main_cst_apply, Ideal.ofBits_def, Ideal.ofBits_zero_f32]
  exact Cert.Spec.IsR.zero

end Cert.Bridge.Ref

end
-- ==== Proof.KernelTail.lean ====
/-
  The kernel program's result and run, at the exact values.

  After the region eighteen host operations reshape the 8192 × 1 output column to 16 × 512 and apply to it and to the
  labels the masked mean per step and the mean over steps: the same operations, on the same kind of operands, as the
  reference's last ones, so the result is the shared `tail` of the reshaped column and the labels. No host operation
  after the region writes an argument, and the region itself writes only its output array.
-/
import proofs.«424650_j90434831385111_1_alg».proof.Proof.KernelArray
import proofs.«424650_j90434831385111_1_alg».proof.Proof.RefSide
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Blocks Cert.KernelIdeal.Inv Cert.Online

variable (m : (ℓ : Loc nD τ sig) → Buf (Elt Ideal) ℓ)

/-- The program's result: the shared tail of the reshaped output column and the labels. -/
theorem result_eq (c : Dev nD) :
    (Pipeline.afterTail₀ cfgs (dats m) 0 (V0 m) [hostOps1] c main_v47 : S_.Idx → EReal)
      = Cert.Bridge.Ref.tail (F := Ideal) (shapeCast S16x512 (G m c) shapeCasts_S8192x1_S16x512) (m ((c : Thread nD τ).loc main_arg1)) := by
  unfold Pipeline.afterTail₀
  simp only [List.flatten_cons, List.flatten_nil, List.append_nil]
  after_results_simp
  have h35 : Pipeline.withArrays (cfgs 0).spec c (V0 m c) (fun w => (dats m 0 c).arrAt w (cfgs 0).N) (Proc.devRef .tc main_v35)
      = G m c :=
    (Pipeline.withArrays_arr spec0 launch0.win.arr_inj c _ _ 8).trans (final m c)
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [h35, h1]
  unfold Cert.Bridge.Ref.tail Cert.ReferenceIdeal.Read.val_main_v47 Cert.ReferenceIdeal.Read.val_main_v46
    Cert.ReferenceIdeal.Read.val_main_v45 Cert.ReferenceIdeal.Read.val_main_c_5 Cert.ReferenceIdeal.Read.val_main_v50
    Cert.ReferenceIdeal.Read.val_main_v48 Cert.ReferenceIdeal.Read.val_main_v49 Cert.ReferenceIdeal.Read.val_main_cst_6
    Cert.ReferenceIdeal.Read.val_main_cst_7 Cert.ReferenceIdeal.Read.val_main_cst_8 Cert.ReferenceIdeal.Read.val_main_cst_9
    Cert.ReferenceIdeal.Read.val_main_cst_10
  rfl

/-- The kernel program's run, read: its result and its arguments. -/
theorem run (ρ : Dev nD → PrngReg) :
    θ_run defs (onTc (τ := τ) (main (F := Ideal))) ⟨m, fun _ => 0, ρ⟩ fun r => ∀ c : Dev nD,
      (r.2.mem ((c : Thread nD τ).loc main_v47) : S_.Idx → EReal)
          = Cert.Bridge.Ref.tail (F := Ideal) (shapeCast S16x512 (G m c) shapeCasts_S8192x1_S16x512) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  exact (θ_run defs _ _).mono (fun _ h c =>
    ⟨((h c).2 main_v47 (Pipeline.mem_restRefs_of main_v47 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩) (run_main m ρ)

end Cert.KernelIdeal.KV

end
-- ==== Proof.HostHead.lean ====
/-
  The arrays the region finds, in terms of the program's arguments, at the exact values.

  Before the region the program pads, gathers and embeds the context tokens exactly as the reference does, flattens
  the result to 8192 rows and narrows it to bf16; it narrows the three weight matrices, adds a unit axis to the three
  bias vectors and flattens the labels to a column. At the exact values a change of float format is the identity, a
  reshape keeps the row-major position, so: row `512 · b + s` of the embedded array is the reference's embedded row of
  position (b, s); the weights are the argument matrices; a bias row at (0, a) is the bias at a; the label column at
  (512 · b + s, 0) is the label of position (b, s).
-/
import proofs.«424650_j90434831385111_1_alg».proof.Proof.Gen.KernelIdeal.Frame
import proofs.«424650_j90434831385111_1_alg».proof.Proof.RefReadP
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostHead

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The embedded rows: row `512 · b + s` is the reference's embedded row of position (b, s). -/
theorem emb_apply (c : Dev nD) (b : Fin 16) (s : Fin 512) (d : Fin 1024) :
    (V m c main_v27 : S8192x1024.Idx → EReal) (ix2 ⟨512 * b.val + s.val, by omega⟩ d)
      = Cert.ReferenceIdeal.Read.val_main_v25 (F := Ideal) (m ((c : Thread nD τ).loc main_arg0)) (m ((c : Thread nD τ).loc main_arg2))
          (ix3 b s d) := by
  -- the embedded rows as a whole array: the operations before the region that build them are, one for one, the
  -- reference's stages up to its embedded array, followed by the flattening to 8192 rows and the narrowing to bf16
  have e : (V m c main_v27 : S8192x1024.Idx → EReal)
      = truncf (F := Ideal) .bf16
          (shapeCast S8192x1024
            (Cert.ReferenceIdeal.Read.val_main_v25 (F := Ideal) (m ((c : Thread nD τ).loc main_arg0))
              (m ((c : Thread nD τ).loc main_arg2)) : S16x512x1024.Idx → EReal)
            shapeCasts_S16x512x1024_S8192x1024)
          bitsLt_bf16_f32 := by
    dsimp only [Gen.V, Gen.V0]
    simp only [Gen.hostOps0, Gen.hostOps0_1, Gen.hostOps0_2, List.flatten_cons, List.flatten_nil, List.append_nil, List.cons_append,
      List.nil_append]
    after_results_simp
    unfold Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20
      Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14
      Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8
      Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2
      Cert.ReferenceIdeal.Read.val_main_v1 Cert.ReferenceIdeal.Read.val_main_v0 Cert.ReferenceIdeal.Read.val_main_call0_v0 Cert.ReferenceIdeal.Read.val_main_c Cert.ReferenceIdeal.Read.val_main_c_0 Cert.ReferenceIdeal.Read.val_main_c_1
      Cert.ReferenceIdeal.Read.val_main_c_2 Cert.ReferenceIdeal.Read.val_main_c_3 Cert.ReferenceIdeal.Read.val_main_c_4 Cert.ReferenceIdeal.Read.val_main_cst
    rfl
  -- at the exact values the narrowing is the identity; the flattening keeps the row-major position
  rw [e, ValueIdx.truncf_apply]
  refine shapeCast_apply _ shapeCasts_S16x512x1024_S8192x1024 _ (ix3 b s d) ?_
  rw [Shape.rowMajor_val_three, Shape.rowMajor_val_two]
  show (b.val * 512 + s.val) * 1024 + d.val = (512 * b.val + s.val) * 1024 + d.val
  omega

/-- The first layer's weights are the argument. -/
theorem w1_apply (c : Dev nD) (d a : Fin 1024) :
    (V m c main_v29 : S1024x1024.Idx → EReal) (ix2 d a) = (m ((c : Thread nD τ).loc main_arg3) : S1024x1024.Idx → EReal) (ix2 d a) := by
  have e : (V m c main_v29 : S1024x1024.Idx → EReal)
      = truncf (F := Ideal) .bf16 (m ((c : Thread nD τ).loc main_arg3) : S1024x1024.Idx → EReal) bitsLt_bf16_f32 := by
    dsimp only [Gen.V, Gen.V0]
    simp only [Gen.hostOps0, Gen.hostOps0_1, Gen.hostOps0_2, List.flatten_cons, List.flatten_nil, List.append_nil, List.cons_append,
      List.nil_append]
    after_results
  rw [e]
  rfl

/-- The first layer's bias row at (0, a) is the bias at a. -/
theorem b1_apply (c : Dev nD) (a : Fin 1024) :
    (V m c main_v32 : S1x1024.Idx → EReal) (ix2 0 a) = (m ((c : Thread nD τ).loc main_arg4) : S1024.Idx → EReal) (ix1 a) := by
  have e : (V m c main_v32 : S1x1024.Idx → EReal)
      = shapeCast S1x1024 (m ((c : Thread nD τ).loc main_arg4) : S1024.Idx → EReal) shapeCasts_S1024_S1x1024 := by
    dsimp only [Gen.V, Gen.V0]
    simp only [Gen.hostOps0, Gen.hostOps0_1, Gen.hostOps0_2, List.flatten_cons, List.flatten_nil, List.append_nil, List.cons_append,
      List.nil_append]
    after_results
    rfl
  rw [e]
  exact shapeCast_a_1a_apply _ _ 0 a

/-- The second layer's weights are the argument. -/
theorem w2_apply (c : Dev nD) (a k : Fin 1024) :
    (V m c main_v30 : S1024x1024.Idx → EReal) (ix2 a k) = (m ((c : Thread nD τ).loc main_arg5) : S1024x1024.Idx → EReal) (ix2 a k) := by
  have e : (V m c main_v30 : S1024x1024.Idx → EReal)
      = truncf (F := Ideal) .bf16 (m ((c : Thread nD τ).loc main_arg5) : S1024x1024.Idx → EReal) bitsLt_bf16_f32 := by
    dsimp only [Gen.V, Gen.V0]
    simp only [Gen.hostOps0, Gen.hostOps0_1, Gen.hostOps0_2, List.flatten_cons, List.flatten_nil, List.append_nil, List.cons_append,
      List.nil_append]
    after_results
  rw [e]
  rfl

/-- The second layer's bias row at (0, k) is the bias at k. -/
theorem b2_apply (c : Dev nD) (k : Fin 1024) :
    (V m c main_v33 : S1x1024.Idx → EReal) (ix2 0 k) = (m ((c : Thread nD τ).loc main_arg6) : S1024.Idx → EReal) (ix1 k) := by
  have e : (V m c main_v33 : S1x1024.Idx → EReal)
      = shapeCast S1x1024 (m ((c : Thread nD τ).loc main_arg6) : S1024.Idx → EReal) shapeCasts_S1024_S1x1024 := by
    dsimp only [Gen.V, Gen.V0]
    simp only [Gen.hostOps0, Gen.hostOps0_1, Gen.hostOps0_2, List.flatten_cons, List.flatten_nil, List.append_nil, List.cons_append,
      List.nil_append]
    after_results
    rfl
  rw [e]
  exact shapeCast_a_1a_apply _ _ 0 k

/-- The output weights are the argument. -/
theorem wo_apply (c : Dev nD) (k : Fin 1024) (v : Fin 32000) :
    (V m c main_v31 : S1024x32000.Idx → EReal) (ix2 k v) = (m ((c : Thread nD τ).loc main_arg7) : S1024x32000.Idx → EReal) (ix2 k v) := by
  have e : (V m c main_v31 : S1024x32000.Idx → EReal)
      = truncf (F := Ideal) .bf16 (m ((c : Thread nD τ).loc main_arg7) : S1024x32000.Idx → EReal) bitsLt_bf16_f32 := by
    dsimp only [Gen.V, Gen.V0]
    simp only [Gen.hostOps0, Gen.hostOps0_1, Gen.hostOps0_2, List.flatten_cons, List.flatten_nil, List.append_nil, List.cons_append,
      List.nil_append]
    after_results
  rw [e]
  rfl

/-- The output bias row at (0, v) is the bias at v. -/
theorem bo_apply (c : Dev nD) (v : Fin 32000) :
    (V m c main_v34 : S1x32000.Idx → EReal) (ix2 0 v) = (m ((c : Thread nD τ).loc main_arg8) : S32000.Idx → EReal) (ix1 v) := by
  have e : (V m c main_v34 : S1x32000.Idx → EReal)
      = shapeCast S1x32000 (m ((c : Thread nD τ).loc main_arg8) : S32000.Idx → EReal) shapeCasts_S32000_S1x32000 := by
    dsimp only [Gen.V, Gen.V0]
    simp only [Gen.hostOps0, Gen.hostOps0_1, Gen.hostOps0_2, List.flatten_cons, List.flatten_nil, List.append_nil, List.cons_append,
      List.nil_append]
    after_results
    rfl
  rw [e]
  exact shapeCast_a_1a_apply _ _ 0 v

/-- The label column at (512 · b + s, 0) is the label of position (b, s). -/
theorem tgt_apply (c : Dev nD) (b : Fin 16) (s : Fin 512) :
    (V m c main_v28 : S8192x1.Idx → BitVec 32) (ix2 ⟨512 * b.val + s.val, by omega⟩ 0)
      = (m ((c : Thread nD τ).loc main_arg1) : S16x512.Idx → BitVec 32) (ix2 b s) := by
  have e : (V m c main_v28 : S8192x1.Idx → BitVec 32)
      = shapeCast S8192x1 (m ((c : Thread nD τ).loc main_arg1) : S16x512.Idx → BitVec 32) shapeCasts_S16x512_S8192x1 := by
    dsimp only [Gen.V, Gen.V0]
    simp only [Gen.hostOps0, Gen.hostOps0_1, Gen.hostOps0_2, List.flatten_cons, List.flatten_nil, List.append_nil, List.cons_append,
      List.nil_append]
    after_results
    rfl
  rw [e]
  refine shapeCast_apply _ _ _ (ix2 b s) ?_
  rw [Shape.rowMajor_val_two, Shape.rowMajor_val_two]
  show b.val * 512 + s.val = (512 * b.val + s.val) * 1 + 0
  omega

end Cert.KernelIdeal.HostHead

end
-- ==== Proof.RowLogits.lean ====
/-
  One row on both sides: the kernel's logits and label test are the reference's.

  Output row `r = 512 · b + s` is row `r % 1024` of row tile `r / 1024` and position (b, s) of the batch. In vocabulary
  tile `j`, lane `q`, the kernel's logit of that row is the contraction of the row's hidden layer with column
  `1280 · j + q` of the output weights plus that column's bias; the hidden layer is computed from the row's embedded
  vector, which is the reference's embedded row of (b, s), with the same weights and biases (a narrowing of the float
  format is the identity at the exact values, a bias row at (0, a) is the bias at a). So it is the reference's logit
  of (b, s) at word `1280 · j + q`. The kernel's label test in that lane compares `q + 1280 · j` with the label column
  at row `r`, which is the label of (b, s); for a label in [0, 32000) it says `1280 · j + q` is the label.
-/
import proofs.«424650_j90434831385111_1_alg».proof.Proof.Invariant
import proofs.«424650_j90434831385111_1_alg».proof.Proof.HostHead
import proofs.«424650_j90434831385111_1_alg».proof.Proof.RefSide

set_option maxRecDepth 16384

noncomputable section

namespace Cert.Bridge.Row

open Idealize.ShloMosaic Idealize.ShloMosaic.TcCoe Idealize.ShloMosaic.ValueIdx Idealize.SL.Sem
open Cert.KernelIdeal Cert.KernelIdeal.Gen Cert.KernelIdeal.Blocks Cert.KernelIdeal.Row Cert.KernelIdeal.Inv
open Cert.KernelIdeal.HostHead

variable (m : (ℓ : Loc nD τ sig) → Buf (Elt Ideal) ℓ)

/-- A point's embedded-row block at (p, d) is the reference's embedded row of (b, s) when the point's row tile puts row
    `p` at output row `512 · b + s`. -/
theorem emb_at (c : Dev nD) (t : Fin cfg0.N) (p : Fin 1024) (b : Fin 16) (s : Fin 512)
    (h : 1024 * (t.val / 25) + p.val = 512 * b.val + s.val) (d : Fin 1024) :
    bE m c t (ix2 p d)
      = Cert.ReferenceIdeal.Read.val_main_v25 (F := Ideal) (m ((c : Thread nD τ).loc main_arg0)) (m ((c : Thread nD τ).loc main_arg2)) (ix3 b s d) := by
  rw [bE_apply]
  exact (congrArg (fun x : Fin 8192 => (V m c main_v27 : S8192x1024.Idx → EReal) (ix2 x d)) (Fin.ext h)).trans
    (emb_apply m c b s d)

/-- Likewise the label block at (p, 0) is the label of (b, s). -/
theorem tgt_at (c : Dev nD) (t : Fin cfg0.N) (p : Fin 1024) (b : Fin 16) (s : Fin 512)
    (h : 1024 * (t.val / 25) + p.val = 512 * b.val + s.val) :
    bT m c t (ix2 p 0) = ((m ((c : Thread nD τ).loc main_arg1)) : S16x512.Idx → BitVec 32) (ix2 b s) := by
  rw [bT_apply]
  exact (congrArg (fun x : Fin 8192 => (V m c main_v28 : S8192x1.Idx → BitVec 32) (ix2 x 0)) (Fin.ext h)).trans
    (tgt_apply m c b s)

/-- The output-weight block of a point in vocabulary tile `j` at (k, q) is the weight at (k, 1280 · j + q). -/
theorem wo_at (c : Dev nD) (t : Fin cfg0.N) (j : ℕ) (hj : j < 25) (ht : t.val % 25 = j) (k : Fin 1024) (q : Fin 1280) :
    bWo m c t (ix2 k q)
      = ((m ((c : Thread nD τ).loc main_arg7)) : S1024x32000.Idx → EReal) (ix2 k ⟨1280 * j + q.val, by omega⟩) := by
  rw [bWo_apply]
  exact (congrArg (fun x : Fin 32000 => (V m c main_v31 : S1024x32000.Idx → EReal) (ix2 k x))
    (Fin.ext (show 1280 * (t.val % 25) + q.val = 1280 * j + q.val by rw [ht]))).trans (wo_apply m c k _)

/-- The output-bias block of a point in vocabulary tile `j` at (0, q) is the bias at 1280 · j + q. -/
theorem bo_at (c : Dev nD) (t : Fin cfg0.N) (j : ℕ) (hj : j < 25) (ht : t.val % 25 = j) (q : Fin 1280) :
    bbo m c t (ix2 0 q)
      = ((m ((c : Thread nD τ).loc main_arg8)) : S32000.Idx → EReal) (ix1 ⟨1280 * j + q.val, by omega⟩) := by
  rw [bbo_apply]
  exact (congrArg (fun x : Fin 32000 => (V m c main_v34 : S1x32000.Idx → EReal) (ix2 0 x))
    (Fin.ext (show 1280 * (t.val % 25) + q.val = 1280 * j + q.val by rw [ht]))).trans (bo_apply m c _)

/-- The hidden layer a point computes, at (p, k), is `Spec.hid` of the reference's embedded row of (b, s). -/
theorem hid_at (c : Dev nD) (t : Fin cfg0.N) (p : Fin 1024) (b : Fin 16) (s : Fin 512)
    (h : 1024 * (t.val / 25) + p.val = 512 * b.val + s.val) (k : Fin 1024) :
    h2At m c t (ix2 p k)
      = Cert.Spec.hid (fun d => Cert.ReferenceIdeal.Read.val_main_v25 (F := Ideal) (m ((c : Thread nD τ).loc main_arg0)) (m ((c : Thread nD τ).loc main_arg2)) (ix3 b s d))
          (fun d a => ((m ((c : Thread nD τ).loc main_arg3)) : S1024x1024.Idx → EReal) (ix2 d a)) (fun a => ((m ((c : Thread nD τ).loc main_arg4)) : S1024.Idx → EReal) (ix1 a))
          (fun a k => ((m ((c : Thread nD τ).loc main_arg5)) : S1024x1024.Idx → EReal) (ix2 a k)) (fun k => ((m ((c : Thread nD τ).loc main_arg6)) : S1024.Idx → EReal) (ix1 k)) k := by
  unfold h2At
  rw [pay3_apply]
  unfold Cert.Spec.hid
  refine congrArg₂ max (congrArg₂ (· + ·) (Finset.sum_congr rfl fun a _ => congrArg₂ (· * ·)
    (congrArg₂ max (congrArg₂ (· + ·) (Finset.sum_congr rfl fun d _ => congrArg₂ (· * ·) ?_ ?_) ?_) rfl) ?_) ?_) rfl
  · exact emb_at m c t p b s h d
  · exact (bW1_apply m c t d a).trans (w1_apply m c d a)
  · exact (bb1_apply m c t a).trans (b1_apply m c a)
  · exact (bW2_apply m c t a k).trans (w2_apply m c a k)
  · exact (bb2_apply m c t k).trans (b2_apply m c k)

/-- Row `p` of row tile `i`, when it is output row `512 · b + s`: its logit in tile `j`, lane `q`. -/
theorem xrow_eq_gen (c : Dev nD) (i : ℕ) (p : Fin 1024) (b : Fin 16) (s : Fin 512)
    (hr : 1024 * i + p.val = 512 * b.val + s.val) (j : ℕ) (hj : j < 25) (q : Fin 1280) :
    xrow m c i p j q
      = Cert.ReferenceIdeal.Read.val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (ix3 b s ⟨1280 * j + q.val, by omega⟩) := by
  have hb := b.isLt
  have hs := s.isLt
  have hp := p.isLt
  have ht0 : (ptOf (25 * i)).val = 25 * i := ptOf_val _ (by omega)
  have ht1 : (ptOf (25 * i + j)).val = 25 * i + j := ptOf_val _ (by omega)
  show k0_pay8 (h2At m c (ptOf (25 * i))) (bWo m c (ptOf (25 * i + j))) (bbo m c (ptOf (25 * i + j))) (ix2 p q) = _
  rw [pay8_apply, Cert.Bridge.Ref.logit_apply]
  unfold Cert.Spec.logit
  refine congrArg₂ (· + ·) (Finset.sum_congr rfl fun k _ => congrArg₂ (· * ·) ?_ ?_) ?_
  · exact hid_at m c _ p b s (by rw [ht0]; omega) k
  · exact wo_at m c _ j hj (by rw [ht1]; omega) k q
  · exact bo_at m c _ j hj (by rw [ht1]; omega) q

/-- Row `p` of row tile `i`, when it is output row `512 · b + s`: its label test in tile `j`, lane `q`. -/
theorem hrow_iff_gen (c : Dev nD) (i : ℕ) (p : Fin 1024) (b : Fin 16) (s : Fin 512)
    (hr : 1024 * i + p.val = 512 * b.val + s.val) (j : ℕ) (hj : j < 25) (q : Fin 1280)
    (h0 : 0 ≤ (((m ((c : Thread nD τ).loc main_arg1)) : S16x512.Idx → BitVec 32) (ix2 b s)).toInt)
    (h1 : (((m ((c : Thread nD τ).loc main_arg1)) : S16x512.Idx → BitVec 32) (ix2 b s)).toInt < 32000) :
    hrow m c i p j q
      ↔ j * 1280 + q.val = (((m ((c : Thread nD τ).loc main_arg1)) : S16x512.Idx → BitVec 32) (ix2 b s)).toInt.toNat := by
  have hb := b.isLt
  have hs := s.isLt
  have hp := p.isLt
  have ht1 : (ptOf (25 * i + j)).val = 25 * i + j := ptOf_val _ (by omega)
  have e1 : BitVec.ofNat 32 ((grid0.coords (ptOf (25 * i + j))) 1).val = BitVec.ofNat 32 j := by
    rw [coords1, ht1]
    exact congrArg (BitVec.ofNat 32) (by omega)
  have e2 : bT m c (ptOf (25 * i + j)) (ix2 p 0) = ((m ((c : Thread nD τ).loc main_arg1)) : S16x512.Idx → BitVec 32) (ix2 b s) :=
    tgt_at m c _ p b s (by rw [ht1]; omega)
  show hitAt (BitVec.ofNat 32 ((grid0.coords (ptOf (25 * i + j))) 1).val) (bT m c (ptOf (25 * i + j)) (ix2 p 0)) q ↔ _
  rw [e1, e2]
  exact hitAt_iff j hj _ h0 h1 q

/-- The kernel's logit of row `512 · b + s` in tile `j`, lane `q` is the reference's logit of (b, s) at word `1280 · j + q`. -/
theorem xrow_eq (c : Dev nD) (b : Fin 16) (s : Fin 512) (j : ℕ) (hj : j < 25) (q : Fin 1280) :
    xrow m c ((512 * b.val + s.val) / 1024) ⟨(512 * b.val + s.val) % 1024, Nat.mod_lt _ (by decide)⟩ j q
      = Cert.ReferenceIdeal.Read.val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (ix3 b s ⟨1280 * j + q.val, by omega⟩) := by
  exact xrow_eq_gen m c _ _ b s (by show 1024 * ((512 * b.val + s.val) / 1024) + (512 * b.val + s.val) % 1024 = 512 * b.val + s.val; omega) j hj q

/-- For a label in [0, 32000), the kernel's label test of row `512 · b + s` in tile `j`, lane `q` says that word
    `1280 · j + q` is the label of (b, s). -/
theorem hrow_iff (c : Dev nD) (b : Fin 16) (s : Fin 512) (j : ℕ) (hj : j < 25) (q : Fin 1280)
    (h0 : 0 ≤ ((m ((c : Thread nD τ).loc main_arg1) : S16x512.Idx → BitVec 32) (ix2 b s)).toInt)
    (h1 : ((m ((c : Thread nD τ).loc main_arg1) : S16x512.Idx → BitVec 32) (ix2 b s)).toInt < 32000) :
    hrow m c ((512 * b.val + s.val) / 1024) ⟨(512 * b.val + s.val) % 1024, Nat.mod_lt _ (by decide)⟩ j q
      ↔ j * 1280 + q.val = ((m ((c : Thread nD τ).loc main_arg1) : S16x512.Idx → BitVec 32) (ix2 b s)).toInt.toNat := by
  exact hrow_iff_gen m c _ _ b s (by show 1024 * ((512 * b.val + s.val) / 1024) + (512 * b.val + s.val) % 1024 = 512 * b.val + s.val; omega) j hj q h0 h1

end Cert.Bridge.Row

end
-- ==== Proof.RefNll.lean ====
/-
  The reference's per-position loss at a label inside the vocabulary.

  The loss of position (b, s) is the negation of `take_along_axis (log_softmax logits) label`. The log-softmax of a
  row is `(x v - M) - log (0 + ∑ v, exp (x v - M))` with `M = max (-∞) (max over v of x v)`, the row's maximum: an
  upper bound of the row that some entry attains (a fold of `max` from -∞ over a nonempty index set). The take reads
  the label as an index: a negative label has 32000 added, the result is kept if it lies in [0, 31999] and replaced by
  a filler otherwise, and the gather clamps the index into the axis. For a label already in [0, 32000) nothing is
  added, the test passes and the clamp is the identity, so the entry read is the one at the label.
-/
import proofs.«424650_j90434831385111_1_alg».proof.Proof.RefReadP
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Predicate
import Mathlib.Data.Finset.Fold
import Mathlib.Data.Finset.BooleanAlgebra

noncomputable section

namespace Cert.Bridge.Ref

open Idealize.ShloMosaic Idealize.ShloMosaic.ValueIdx Cert.ReferenceIdeal Cert.ReferenceIdeal.Read

/-! ### A fold of `max` from the bottom over a nonempty index type -/

/-- A fold of `max` from `b` is `b` or one of the folded values. -/
theorem fold_max_mem {ι : Type} [DecidableEq ι] (f : ι → EReal) (b : EReal) (s : Finset ι) :
    s.fold max b f = b ∨ ∃ k ∈ s, f k = s.fold max b f := by
  induction s using Finset.induction_on with
  | empty => left; exact Finset.fold_empty
  | insert a s ha ih =>
    rw [Finset.fold_insert ha]
    rcases max_choice (f a) (s.fold max b f) with h | h
    · right; exact ⟨a, Finset.mem_insert_self a s, h.symm⟩
    · rw [h]
      rcases ih with ih | ⟨k, hk, e⟩
      · left; exact ih
      · right; exact ⟨k, Finset.mem_insert_of_mem hk, e⟩

/-- The fold of `max` from the bottom over a whole index type bounds every value … -/
theorem le_fold_max_univ {n : Nat} (f : Fin n → EReal) (k : Fin n) :
    f k ≤ (Finset.univ : Finset (Fin n)).fold max ⊥ f :=
  (Finset.le_fold_max (f k)).2 (Or.inr ⟨k, Finset.mem_univ k, le_refl _⟩)

/-- … and, the index type being nonempty, is one of the values: if the fold is the bottom, every value is. -/
theorem fold_max_univ_attained {n : Nat} (hn : 0 < n) (f : Fin n → EReal) :
    ∃ k : Fin n, f k = (Finset.univ : Finset (Fin n)).fold max ⊥ f := by
  rcases fold_max_mem f ⊥ Finset.univ with h | ⟨k, _, e⟩
  · refine ⟨⟨0, hn⟩, ?_⟩
    rw [h]
    exact le_bot_iff.1 (h ▸ le_fold_max_univ f ⟨0, hn⟩)
  · exact ⟨k, e⟩

/-- The bit pattern of f32's -∞ is the bottom of the extended reals. -/
theorem negInf_eq_bot : Ideal.ofBits .f32 0xFF800000#32 = (⊥ : EReal) := by
  simp [Ideal.ofBits, Ideal.ieee]

/-! ### The row maximum -/

theorem reduces_d2 : S16x512x32000.Reduces [2] S16x512 := by decide

/-- Position (b, s) with `k` inserted on the vocabulary axis. -/
theorem lift_d2 (b : Fin 16) (s : Fin 512) (k : Fin 32000) :
    reduces_d2.lift (ix2 b s) k = ix3 b s k := by
  funext a
  match a with
  | ⟨0, _⟩ => rfl
  | ⟨1, _⟩ => rfl
  | ⟨2, _⟩ => rfl

variable (x0 x1 : (⟨S16x512, .i32⟩ : BufTy).Contents (Elt Ideal)) (x2 : (⟨S32000x256, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x32000, .f32⟩ : BufTy).Contents (Elt Ideal)) (x8 : (⟨S32000, .f32⟩ : BufTy).Contents (Elt Ideal))

/-- The row maximum of position (b, s): the fold of `max` from the bottom over the row's logits. -/
theorem rowMax_eq_fold (b : Fin 16) (s : Fin 512) :
    val_main_call3_v2 (F := Ideal) x0 x2 x3 x4 x5 x6 x7 x8 (ix2 b s)
      = (Finset.univ : Finset (Fin 32000)).fold max ⊥
          (fun v => val_main_v39 (F := Ideal) x0 x2 x3 x4 x5 x6 x7 x8 (ix3 b s v)) := by
  rw [val_main_call3_v2_apply, val_main_call3_v1_apply, val_main_call3_cst_0_apply]
  unfold val_main_call3_v0
  generalize val_main_v39 (F := Ideal) x0 x2 x3 x4 x5 x6 x7 x8 = y
  rw [Host.reduce_eq_fold_single FloatOps.maximumf _ _ Gen.reducesTo_S16x512x32000_S16x512_d2 reduces_d2 Gen.h_S_ (ix2 b s)]
  rw [val_main_call3_cst_apply, Ideal.ofBits_def, negInf_eq_bot, Ideal.maximumf_def, bot_sup_eq]
  have e : (y ∘ reduces_d2.lift (ix2 b s)) = fun v => y (ix3 b s v) := funext fun v => congrArg y (lift_d2 b s v)
  rw [e]
  rfl

/-- The row maximum bounds every logit of the row. -/
theorem le_rowMax (b : Fin 16) (s : Fin 512) (v : Fin 32000) :
    val_main_v39 (F := Ideal) x0 x2 x3 x4 x5 x6 x7 x8 (ix3 b s v)
      ≤ val_main_call3_v2 (F := Ideal) x0 x2 x3 x4 x5 x6 x7 x8 (ix2 b s) := by
  rw [rowMax_eq_fold]
  generalize val_main_v39 (F := Ideal) x0 x2 x3 x4 x5 x6 x7 x8 = y
  exact le_fold_max_univ (fun v => y (ix3 b s v)) v

/-- The row maximum is one of the row's logits. -/
theorem rowMax_attained (b : Fin 16) (s : Fin 512) :
    ∃ v : Fin 32000, val_main_v39 (F := Ideal) x0 x2 x3 x4 x5 x6 x7 x8 (ix3 b s v)
      = val_main_call3_v2 (F := Ideal) x0 x2 x3 x4 x5 x6 x7 x8 (ix2 b s) := by
  rw [rowMax_eq_fold]
  generalize val_main_v39 (F := Ideal) x0 x2 x3 x4 x5 x6 x7 x8 = y
  exact fold_max_univ_attained (by decide) (fun v => y (ix3 b s v))

/-- The maximum is broadcast back along the vocabulary axis: entry (b, s, v) reads position (b, s). -/
theorem idx_rowMax (b : Fin 16) (s : Fin 512) (v : Fin 32000) :
    idx_main_call3_v3 (idx_main_call3_v4 (ix3 b s v)) = ix2 b s := by
  funext a
  match a with
  | ⟨0, _⟩ => rfl
  | ⟨1, _⟩ => rfl

/-- The sum of exponentials is broadcast back the same way, and its k-th term is entry (b, s, k). -/
theorem idx_rowSum (b : Fin 16) (s : Fin 512) (t k : Fin 32000) :
    idx_main_call3_v7 (idx_main_call3_v8 (idx_main_call3_v10 (ix3 b s t))) k = ix3 b s k := by
  funext a
  match a with
  | ⟨0, _⟩ => rfl
  | ⟨1, _⟩ => rfl
  | ⟨2, _⟩ => rfl

/-- A logit less the row maximum. -/
theorem shifted_apply (b : Fin 16) (s : Fin 512) (v : Fin 32000) :
    val_main_call3_v5 (F := Ideal) x0 x2 x3 x4 x5 x6 x7 x8 (ix3 b s v)
      = val_main_v39 (F := Ideal) x0 x2 x3 x4 x5 x6 x7 x8 (ix3 b s v)
          - val_main_call3_v2 (F := Ideal) x0 x2 x3 x4 x5 x6 x7 x8 (ix2 b s) := by
  rw [val_main_call3_v5_apply, val_main_call3_v4_apply, val_main_call3_v3_apply, Ideal.subf_def, idx_rowMax]

/-- The log-softmax of position (b, s) at vocabulary entry `t`. -/
theorem logSoftmax_apply (b : Fin 16) (s : Fin 512) (t : Fin 32000) :
    val_main_v40 (F := Ideal) x0 x2 x3 x4 x5 x6 x7 x8 (ix3 b s t)
      = (val_main_v39 (F := Ideal) x0 x2 x3 x4 x5 x6 x7 x8 (ix3 b s t)
            - val_main_call3_v2 (F := Ideal) x0 x2 x3 x4 x5 x6 x7 x8 (ix2 b s))
          - Ideal.log (0 + ∑ v : Fin 32000,
              Ideal.exp (val_main_v39 (F := Ideal) x0 x2 x3 x4 x5 x6 x7 x8 (ix3 b s v)
                - val_main_call3_v2 (F := Ideal) x0 x2 x3 x4 x5 x6 x7 x8 (ix2 b s))) := by
  have hS : ∑ k : Fin 32000, val_main_call3_v6 (F := Ideal) x0 x2 x3 x4 x5 x6 x7 x8
        (idx_main_call3_v7 (idx_main_call3_v8 (idx_main_call3_v10 (ix3 b s t))) k)
      = ∑ v : Fin 32000, Ideal.exp (val_main_v39 (F := Ideal) x0 x2 x3 x4 x5 x6 x7 x8 (ix3 b s v)
          - val_main_call3_v2 (F := Ideal) x0 x2 x3 x4 x5 x6 x7 x8 (ix2 b s)) :=
    Finset.sum_congr rfl fun k _ => by
      rw [idx_rowSum, val_main_call3_v6_apply, shifted_apply, Ideal.hostUnary_exp_def]
  rw [val_main_v40_apply, shifted_apply, val_main_call3_v10_apply, val_main_call3_v9_apply, val_main_call3_v8_apply,
    val_main_call3_v7_apply, val_main_call3_cst_1_apply, Ideal.subf_def, Ideal.hostUnary_log_def, Ideal.ofBits_def,
    Ideal.ofBits_zero_f32, hS]

/-! ### The take along the vocabulary axis -/

/-- A word in [0, 32000) read signed is its unsigned value. -/
theorem label_toNat (L : BitVec 32) (h0 : 0 ≤ L.toInt) (h1 : L.toInt < 32000) :
    L.toInt = (L.toNat : Int) ∧ L.toNat < 32000 := by
  have hlt := L.isLt
  have e := BitVec.toInt_eq_toNat_cond L
  split at e <;> omega

/-- A non-negative word is not below zero. -/
theorem slt_zero_of_nonneg (L : BitVec 32) (h0 : 0 ≤ L.toInt) : IntOp.cmpi .slt L 0#32 = 0#1 := by
  have h : L.slt 0#32 = false := decide_eq_false (by rw [BitVec.toInt_zero]; omega)
  show BitVec.ofBool (L.slt 0#32) = 0#1
  rw [h]; rfl

theorem idx_label (b : Fin 16) (s : Fin 512) : idx_main_v41 (ix3 b s (0 : Fin 1)) = ix2 b s := by
  funext a
  match a with
  | ⟨0, _⟩ => rfl
  | ⟨1, _⟩ => rfl

/-- The index the take uses: a non-negative label is kept as it is. -/
theorem wrapped_label (b : Fin 16) (s : Fin 512) (h0 : 0 ≤ (x1 (ix2 b s)).toInt) :
    val_main_call4_v4 (F := Ideal) x1 (ix3 b s (0 : Fin 1)) = x1 (ix2 b s) := by
  rw [val_main_call4_v4_apply, val_main_call4_v1_apply, val_main_v41_apply, val_main_call4_v0_apply,
    val_main_call4_c_apply, idx_label, slt_zero_of_nonneg _ h0, select_zero]

theorem idx_reshape4 (b : Fin 16) (s : Fin 512) :
    idx_main_call4_v5 (ix4 b s (0 : Fin 1) (0 : Fin 1)) = ix3 b s (0 : Fin 1) := by
  have hb := b.isLt
  have hs := s.isLt
  funext a
  match a with
  | ⟨0, _⟩ => exact Fin.ext (by show (((b.val * 512 + s.val) * 1 + 0) * 1 + 0) / 512 = b.val; omega)
  | ⟨1, _⟩ => exact Fin.ext (by show (((b.val * 512 + s.val) * 1 + 0) * 1 + 0) / 1 % 512 = s.val; omega)
  | ⟨2, _⟩ => rfl

/-- The start index of the gather at position (b, s) is the label. -/
theorem startIdx_label (b : Fin 16) (s : Fin 512) (h0 : 0 ≤ (x1 (ix2 b s)).toInt) :
    val_main_call4_v5 (F := Ideal) x1 (ix4 b s (0 : Fin 1) (0 : Fin 1)) = x1 (ix2 b s) := by
  rw [val_main_call4_v5_apply, idx_reshape4, wrapped_label x1 b s h0]

theorem reduces_d3 : S16x512x1x1.Reduces [3] S16x512x1 := by decide

theorem lift_d3 (b : Fin 16) (s : Fin 512) (k : Fin 1) :
    reduces_d3.lift (ix3 b s (0 : Fin 1)) k = ix4 b s (0 : Fin 1) k := by
  funext a
  match a with
  | ⟨0, _⟩ => rfl
  | ⟨1, _⟩ => rfl
  | ⟨2, _⟩ => rfl
  | ⟨3, _⟩ => rfl

/-- A fold of `and` over a one-element index type is one `and`. -/
theorem fold_andi_fin1 (f : Fin 1 → BitVec 1) (c : BitVec 1) :
    (Finset.univ : Finset (Fin 1)).fold IntOp.andi c f = IntOp.andi (f 0) c := by
  rw [Finset.univ_unique, Finset.fold_singleton]
  rfl

theorem idx_bound (i : S16x512x1x1.Idx) : idx_main_call4_v8 (idx_main_call4_v9 i) = ix1 (0 : Fin 1) := by
  funext a
  match a with
  | ⟨0, _⟩ => rfl

/-- The range test of the take passes at a label in [0, 32000). -/
theorem inRange_label (b : Fin 16) (s : Fin 512) (h0 : 0 ≤ (x1 (ix2 b s)).toInt) (h1 : (x1 (ix2 b s)).toInt < 32000) :
    val_main_call4_v12 (F := Ideal) x1 (ix3 b s (0 : Fin 1)) = 1#1 := by
  obtain ⟨_, hn⟩ := label_toNat _ h0 h1
  unfold val_main_call4_v12
  rw [Host.reduce_eq_fold_single IntOp.andi _ _ Gen.reducesTo_S16x512x1x1_S16x512x1_d3 reduces_d3 Gen.h_S_ (ix3 b s (0 : Fin 1))]
  refine (fold_andi_fin1 _ _).trans ?_
  show IntOp.andi (val_main_call4_v11 (F := Ideal) x1 (reduces_d3.lift (ix3 b s (0 : Fin 1)) (0 : Fin 1)))
    (val_main_call4_c_3 (F := Ideal) (Shape.Idx.first Gen.h_S_)) = 1#1
  rw [lift_d3, val_main_call4_c_3_apply, val_main_call4_v11_apply, val_main_call4_v7_apply,
    val_main_call4_v10_apply, val_main_call4_v6_apply, val_main_call4_c_2_apply, val_main_call4_v9_apply,
    val_main_call4_v8_apply, val_main_call4_c_1_apply, startIdx_label x1 b s h0]
  have hge : IntOp.cmpi .sge (x1 (ix2 b s)) 0#32 = 1#1 :=
    (StableHlo.Predicate.sge_iff_toNat (by omega) (by decide)).2 (Nat.zero_le _)
  have hle : IntOp.cmpi .sle (x1 (ix2 b s)) 31999#32 = 1#1 :=
    (StableHlo.Predicate.sle_iff_toNat (by omega) (by decide)).2 (by show _ ≤ 31999; omega)
  rw [hge, hle]
  rfl

/-- The start-index component the gather reads at result position (b, s, 0) sits at (b, s, 0, 0). -/
theorem gather_siIdx (b : Fin 16) (s : Fin 512) (c : Fin gather_S16x512x32000_S16x512x1x1_S16x512x1_n_2_01_01_2_3_111.startIndexMap.length) :
    gather_S16x512x32000_S16x512x1x1_S16x512x1_n_2_01_01_2_3_111.siIdx (ix3 b s (0 : Fin 1)) c
      = ix4 b s (0 : Fin 1) (0 : Fin 1) := by
  funext a
  refine Fin.ext ?_
  match a with
  | ⟨0, _⟩ => rfl
  | ⟨1, _⟩ => rfl
  | ⟨2, _⟩ => rfl
  | ⟨3, _⟩ =>
    have hc : c.val < 1 := c.isLt
    show c.val = 0
    omega

/-- The operand index the gather reads at result position (b, s, 0): the position's own row (the two batching axes
    carry b and s), at the start index read signed and clamped into the vocabulary axis (the collapsed axis). -/
theorem gather_operandIdx (idx : IVec S16x512x1x1 32) (b : Fin 16) (s : Fin 512) :
    gather_S16x512x32000_S16x512x1x1_S16x512x1_n_2_01_01_2_3_111.operandIdx (ix3 b s (0 : Fin 1)) idx
      = ix3 b s (⟨min (idx (ix4 b s (0 : Fin 1) (0 : Fin 1))).toInt.toNat 31999, by omega⟩ : Fin 32000) := by
  funext a
  refine Fin.ext ?_
  match a with
  | ⟨0, _⟩ =>
    show gather_S16x512x32000_S16x512x1x1_S16x512x1_n_2_01_01_2_3_111.start (ix3 b s (0 : Fin 1)) idx 0
      + gather_S16x512x32000_S16x512x1x1_S16x512x1_n_2_01_01_2_3_111.batchCoord (ix3 b s (0 : Fin 1)) 0
      + gather_S16x512x32000_S16x512x1x1_S16x512x1_n_2_01_01_2_3_111.offCoord (ix3 b s (0 : Fin 1)) 0
      = b.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show gather_S16x512x32000_S16x512x1x1_S16x512x1_n_2_01_01_2_3_111.start (ix3 b s (0 : Fin 1)) idx 1
      + gather_S16x512x32000_S16x512x1x1_S16x512x1_n_2_01_01_2_3_111.batchCoord (ix3 b s (0 : Fin 1)) 1
      + gather_S16x512x32000_S16x512x1x1_S16x512x1_n_2_01_01_2_3_111.offCoord (ix3 b s (0 : Fin 1)) 1
      = s.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨2, _⟩ =>
    show gather_S16x512x32000_S16x512x1x1_S16x512x1_n_2_01_01_2_3_111.start (ix3 b s (0 : Fin 1)) idx 2
      + gather_S16x512x32000_S16x512x1x1_S16x512x1_n_2_01_01_2_3_111.batchCoord (ix3 b s (0 : Fin 1)) 2
      + gather_S16x512x32000_S16x512x1x1_S16x512x1_n_2_01_01_2_3_111.offCoord (ix3 b s (0 : Fin 1)) 2
      = min (idx (ix4 b s (0 : Fin 1) (0 : Fin 1))).toInt.toNat 31999
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S16x512x32000_S16x512x1x1_S16x512x1_n_2_01_01_2_3_111.startIndexMap from
      List.mem_singleton.mpr rfl)]
    rw [gather_siIdx]
    rfl

/-- The take reads the log-softmax of position (b, s) at the label: the range test passes, and the clamp of the gather
    is the identity on a label in [0, 32000). -/
theorem take_apply (b : Fin 16) (s : Fin 512) (h0 : 0 ≤ (x1 (ix2 b s)).toInt) (h1 : (x1 (ix2 b s)).toInt < 32000) :
    val_main_v42 (F := Ideal) x0 x1 x2 x3 x4 x5 x6 x7 x8 (ix3 b s (0 : Fin 1))
      = val_main_v40 (F := Ideal) x0 x2 x3 x4 x5 x6 x7 x8
          (ix3 b s (⟨(x1 (ix2 b s)).toInt.toNat, by omega⟩ : Fin 32000)) := by
  rw [val_main_v42_apply, inRange_label x1 b s h0 h1, select_one]
  unfold val_main_call4_v13 Host.gather
  rw [gather_operandIdx]
  generalize val_main_v40 (F := Ideal) x0 x2 x3 x4 x5 x6 x7 x8 = y
  refine congrArg (fun t : Fin 32000 => y (ix3 b s t)) (Fin.ext ?_)
  show min (val_main_call4_v5 (F := Ideal) x1 (ix4 b s (0 : Fin 1) (0 : Fin 1))).toInt.toNat 31999
    = (x1 (ix2 b s)).toInt.toNat
  rw [startIdx_label x1 b s h0]
  omega

/-- Dropping the unit axis: position (b, s) of the loss reads entry (b, s, 0) of the take. -/
theorem idx_squeeze (b : Fin 16) (s : Fin 512) : idx_main_v43 (ix2 b s) = ix3 b s (0 : Fin 1) := by
  have hb := b.isLt
  have hs := s.isLt
  funext a
  match a with
  | ⟨0, _⟩ => exact Fin.ext (by show (b.val * 512 + s.val) / 512 = b.val; omega)
  | ⟨1, _⟩ => exact Fin.ext (by show (b.val * 512 + s.val) / 1 % 512 = s.val; omega)
  | ⟨2, _⟩ => rfl

/-- The per-position loss at a label in [0, 32000): the negated log-softmax of the position's logits at the label,
    `M` being the row's maximum (an upper bound that is attained). -/
theorem nll_apply (b : Fin 16) (s : Fin 512) (h0 : 0 ≤ (x1 (ix2 b s)).toInt) (h1 : (x1 (ix2 b s)).toInt < 32000) :
    ∃ M : EReal,
      (∀ v : Fin 32000, val_main_v39 (F := Ideal) x0 x2 x3 x4 x5 x6 x7 x8 (ix3 b s v) ≤ M)
      ∧ (∃ v : Fin 32000, val_main_v39 (F := Ideal) x0 x2 x3 x4 x5 x6 x7 x8 (ix3 b s v) = M)
      ∧ val_main_v44 (F := Ideal) x0 x1 x2 x3 x4 x5 x6 x7 x8 (ix2 b s)
          = -((val_main_v39 (F := Ideal) x0 x2 x3 x4 x5 x6 x7 x8
                  (ix3 b s ⟨(x1 (ix2 b s)).toInt.toNat, by omega⟩) - M)
              - Ideal.log (0 + ∑ v : Fin 32000,
                  Ideal.exp (val_main_v39 (F := Ideal) x0 x2 x3 x4 x5 x6 x7 x8 (ix3 b s v) - M))) := by
  refine ⟨val_main_call3_v2 (F := Ideal) x0 x2 x3 x4 x5 x6 x7 x8 (ix2 b s),
    le_rowMax x0 x2 x3 x4 x5 x6 x7 x8 b s, rowMax_attained x0 x2 x3 x4 x5 x6 x7 x8 b s, ?_⟩
  rw [val_main_v44_apply, val_main_v43_apply, idx_squeeze, take_apply x0 x1 x2 x3 x4 x5 x6 x7 x8 b s h0 h1,
    logSoftmax_apply, Ideal.hostNegf_def, Ideal.negf_def]

end Cert.Bridge.Ref

end
-- ==== Proof.OnlineSoftmax.lean ====
/-
  The streaming ("online") form of a row's log-sum-exp, and why it is the two-pass form.

  A row of 32000 logits is visited in 25 tiles of 1280. The state after a tile is a triple
  (m, l, g): the running maximum, the running normaliser `∑ exp (x - m)` over the logits seen so far,
  and the running pick `∑ [v = t] x v` of the one logit whose position is the label `t`.
  A tile with maximum `a` replaces `m` by `m' = max m a`, rescales `l` by `exp (m - m')` and adds the
  tile's own `∑ exp (x - m')`. From the start state (-∞, 0, 0) the first tile gives `exp (-∞ - m') = 0`,
  so the empty normaliser is dropped; from then on every quantity is a finite real and
  `exp (x - m) * exp (m - m') = exp (x - m')` keeps the normaliser equal to `∑ exp (x - m)` over all
  logits seen. After the last tile `m` is the row's maximum `M`, `l = ∑ exp (x - M)`, `g = x t`, and
  `m + log l - g = -((x t - M) - log ∑ exp (x - M))`: the negated log-softmax at the label.
  All of this needs every logit finite: with an infinite logit `x - M` is not a difference of reals.
-/
import Idealize.ShloMosaic.PureOps.Ideal
import proofs.«424650_j90434831385111_1_alg».proof.Proof.OnlineDefs

noncomputable section

namespace Cert.Online

open Idealize.ShloMosaic

/-- The embedding of the reals commutes with finite sums. -/
private theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The embedding of the reals commutes with `max`. -/
private theorem coe_max (a b : ℝ) : ((max a b : ℝ) : EReal) = max (a : EReal) (b : EReal) :=
  EReal.coe_strictMono.monotone.map_max

/-- The maximum of a tile of finite logits is finite, bounds the tile and is attained in it. -/
private theorem tile_max (f : Fin 1280 → ℝ) :
    ∃ a : ℝ, (Finset.univ : Finset (Fin 1280)).fold max ⊥ (fun q => (f q : EReal)) = (a : EReal)
      ∧ (∀ q, f q ≤ a) ∧ ∃ q, f q = a := by
  obtain ⟨q0, -, hq0⟩ :=
    Finset.exists_max_image (Finset.univ : Finset (Fin 1280)) f ⟨0, Finset.mem_univ _⟩
  refine ⟨f q0, le_antisymm ?_ ?_, fun q => hq0 q (Finset.mem_univ q), q0, rfl⟩
  · rw [Finset.fold_max_le]
    exact ⟨bot_le, fun q _ => EReal.coe_le_coe_iff.mpr (hq0 q (Finset.mem_univ q))⟩
  · rw [Finset.le_fold_max]
    exact Or.inr ⟨q0, Finset.mem_univ _, le_rfl⟩

/-- A tile's sum of exponentials of finite differences is the finite sum of real exponentials. -/
private theorem tile_exp_sum (f : Fin 1280 → ℝ) (c : ℝ) :
    ∑ q : Fin 1280, Ideal.exp (((f q : ℝ) : EReal) - (c : EReal))
      = ((∑ q : Fin 1280, Real.exp (f q - c) : ℝ) : EReal) := by
  rw [coe_sum]
  refine Finset.sum_congr rfl fun q _ => ?_
  rw [← EReal.coe_sub, Ideal.exp_coe]

/-- A sum over the first `j + 1` tiles is the sum over the first `j` plus the sum over tile `j`. -/
private theorem range_tile (F : ℕ → ℝ) (j : ℕ) :
    ∑ v ∈ Finset.range ((j + 1) * 1280), F v
      = ∑ v ∈ Finset.range (j * 1280), F v + ∑ q : Fin 1280, F (j * 1280 + q.val) := by
  rw [add_one_mul, Finset.sum_range_add, Fin.sum_univ_eq_sum_range (fun k => F (j * 1280 + k))]

/-- The first tile, from the state (-∞, 0, ·): the empty normaliser is dropped. -/
private theorem step_first (f : Fin 1280 → ℝ) (hitp : Fin 1280 → Prop) [DecidablePred hitp] (g : EReal) :
    ∃ a : ℝ, (∀ q, f q ≤ a) ∧ (∃ q, f q = a)
      ∧ (tileStep (fun q => (f q : EReal)) hitp (⊥, 0, g)).1 = (a : EReal)
      ∧ (tileStep (fun q => (f q : EReal)) hitp (⊥, 0, g)).2.1
          = ((∑ q : Fin 1280, Real.exp (f q - a) : ℝ) : EReal) := by
  obtain ⟨a, ha, hub, hat⟩ := tile_max f
  have hm : max (⊥ : EReal) ((Finset.univ : Finset (Fin 1280)).fold max ⊥ (fun q => (f q : EReal)))
      = (a : EReal) := by rw [ha]; exact max_eq_right bot_le
  refine ⟨a, hub, hat, hm, ?_⟩
  show (0 : EReal) * Ideal.exp (⊥ - max (⊥ : EReal)
        ((Finset.univ : Finset (Fin 1280)).fold max ⊥ (fun q => (f q : EReal))))
      + ∑ q : Fin 1280, Ideal.exp ((f q : EReal) - max (⊥ : EReal)
        ((Finset.univ : Finset (Fin 1280)).fold max ⊥ (fun q => (f q : EReal)))) = _
  rw [hm, zero_mul, zero_add, tile_exp_sum]

/-- A later tile, from a finite state (m, l, ·): the new maximum is `max m a`, the old normaliser is
    rescaled by `exp (m - max m a)` and the tile's own exponentials are added. -/
private theorem step_next (f : Fin 1280 → ℝ) (hitp : Fin 1280 → Prop) [DecidablePred hitp]
    (m l : ℝ) (g : EReal) :
    ∃ a : ℝ, (∀ q, f q ≤ a) ∧ (∃ q, f q = a)
      ∧ (tileStep (fun q => (f q : EReal)) hitp ((m : EReal), (l : EReal), g)).1 = ((max m a : ℝ) : EReal)
      ∧ (tileStep (fun q => (f q : EReal)) hitp ((m : EReal), (l : EReal), g)).2.1
          = ((l * Real.exp (m - max m a) + ∑ q : Fin 1280, Real.exp (f q - max m a) : ℝ) : EReal) := by
  obtain ⟨a, ha, hub, hat⟩ := tile_max f
  have hm : max (m : EReal) ((Finset.univ : Finset (Fin 1280)).fold max ⊥ (fun q => (f q : EReal)))
      = ((max m a : ℝ) : EReal) := by rw [ha, coe_max]
  refine ⟨a, hub, hat, hm, ?_⟩
  show (l : EReal) * Ideal.exp ((m : EReal) - max (m : EReal)
        ((Finset.univ : Finset (Fin 1280)).fold max ⊥ (fun q => (f q : EReal))))
      + ∑ q : Fin 1280, Ideal.exp ((f q : EReal) - max (m : EReal)
        ((Finset.univ : Finset (Fin 1280)).fold max ⊥ (fun q => (f q : EReal)))) = _
  rw [hm, tile_exp_sum, ← EReal.coe_sub, Ideal.exp_coe, ← EReal.coe_mul, ← EReal.coe_add]

/-- The invariant of the running maximum and normaliser: after `j + 1` tiles of finite logits the
    maximum is a real that bounds the logits seen and is one of them, and the normaliser is the sum of
    `exp (x - m)` over the logits seen. -/
private theorem run_ml (xr : ℕ → ℝ) (x : ℕ → Fin 1280 → EReal) (hit : ℕ → Fin 1280 → Prop)
    [∀ j, DecidablePred (hit j)] (J : ℕ)
    (hxx : ∀ j, j < J → ∀ q : Fin 1280, x j q = ((xr (j * 1280 + q.val) : ℝ) : EReal)) :
    ∀ j, j < J → ∃ m : ℝ, (tileRun x hit (j + 1)).1 = (m : EReal)
      ∧ (tileRun x hit (j + 1)).2.1
          = ((∑ v ∈ Finset.range ((j + 1) * 1280), Real.exp (xr v - m) : ℝ) : EReal)
      ∧ (∀ v, v < (j + 1) * 1280 → xr v ≤ m) ∧ ∃ v, v < (j + 1) * 1280 ∧ xr v = m := by
  intro j
  induction j with
  | zero =>
    intro hj
    have hx0 : x 0 = fun q => ((xr (0 * 1280 + q.val) : ℝ) : EReal) := funext (hxx 0 hj)
    obtain ⟨a, hub, ⟨q0, hq0⟩, h1, h2⟩ :=
      step_first (fun q => xr (0 * 1280 + q.val)) (hit 0) (0 : EReal)
    have hrun : tileRun x hit (0 + 1) = tileStep (x 0) (hit 0) (⊥, 0, 0) := rfl
    rw [hrun, hx0]
    refine ⟨a, h1, ?_, ?_, ?_⟩
    · rw [h2, range_tile, Nat.zero_mul, Finset.range_zero, Finset.sum_empty, zero_add]
    · intro v hv
      have hv' : 0 * 1280 + v = v := by omega
      have := hub ⟨v, by omega⟩
      rw [hv'] at this
      exact this
    · have := q0.isLt
      exact ⟨0 * 1280 + q0.val, by omega, hq0⟩
  | succ j ih =>
    intro hj
    obtain ⟨m, hm1, hl1, hub, v0, hv0, hv0m⟩ := ih (by omega)
    have hxj : x (j + 1) = fun q => ((xr ((j + 1) * 1280 + q.val) : ℝ) : EReal) :=
      funext (hxx (j + 1) hj)
    have hs : tileRun x hit (j + 1)
        = ((m : EReal), ((∑ v ∈ Finset.range ((j + 1) * 1280), Real.exp (xr v - m) : ℝ) : EReal),
            (tileRun x hit (j + 1)).2.2) := Prod.ext hm1 (Prod.ext hl1 rfl)
    obtain ⟨a, haub, ⟨q0, hq0⟩, h1, h2⟩ :=
      step_next (fun q => xr ((j + 1) * 1280 + q.val)) (hit (j + 1)) m
        (∑ v ∈ Finset.range ((j + 1) * 1280), Real.exp (xr v - m)) (tileRun x hit (j + 1)).2.2
    have hrun : tileRun x hit (j + 1 + 1)
        = tileStep (x (j + 1)) (hit (j + 1)) (tileRun x hit (j + 1)) := rfl
    rw [hrun, hxj, hs]
    refine ⟨max m a, h1, ?_, ?_, ?_⟩
    · have e : ∀ v, Real.exp (xr v - m) * Real.exp (m - max m a) = Real.exp (xr v - max m a) :=
        fun v => by rw [← Real.exp_add, sub_add_sub_cancel]
      rw [h2, range_tile (fun v => Real.exp (xr v - max m a)) (j + 1), Finset.sum_mul,
        Finset.sum_congr rfl (fun v _ => e v)]
    · intro v hv
      by_cases h : v < (j + 1) * 1280
      · exact le_trans (hub v h) (le_max_left _ _)
      · have hv' : (j + 1) * 1280 + (v - (j + 1) * 1280) = v := by omega
        have : xr ((j + 1) * 1280 + (v - (j + 1) * 1280)) ≤ a :=
          haub ⟨v - (j + 1) * 1280, by omega⟩
        rw [hv'] at this
        exact le_trans this (le_max_right _ _)
    · rcases le_total m a with h | h
      · have := q0.isLt
        exact ⟨(j + 1) * 1280 + q0.val, by omega, by rw [max_eq_right h]; exact hq0⟩
      · exact ⟨v0, Nat.lt_of_lt_of_le hv0 (Nat.mul_le_mul_right _ (Nat.le_succ _)),
          by rw [max_eq_left h]; exact hv0m⟩

/-- The invariant of the running pick: after `j` tiles it is the sum of `[v = t] x v` over the logits
    seen. -/
private theorem run_g (xr : ℕ → ℝ) (x : ℕ → Fin 1280 → EReal) (hit : ℕ → Fin 1280 → Prop)
    [∀ j, DecidablePred (hit j)] (t : ℕ) (J : ℕ)
    (hxx : ∀ j, j < J → ∀ q : Fin 1280, x j q = ((xr (j * 1280 + q.val) : ℝ) : EReal))
    (hhit : ∀ j, j < J → ∀ q : Fin 1280, hit j q ↔ j * 1280 + q.val = t) :
    ∀ j, j ≤ J → (tileRun x hit j).2.2
      = ((∑ v ∈ Finset.range (j * 1280), (if v = t then xr v else 0) : ℝ) : EReal) := by
  intro j
  induction j with
  | zero =>
    intro _
    show (0 : EReal) = _
    rw [Nat.zero_mul, Finset.range_zero, Finset.sum_empty, EReal.coe_zero]
  | succ j ih =>
    intro hj
    have hj' : j < J := hj
    show (tileRun x hit j).2.2 + ∑ q : Fin 1280, (if hit j q then x j q else 0) = _
    rw [ih (le_of_lt hj'), range_tile, EReal.coe_add, coe_sum (Finset.univ : Finset (Fin 1280))]
    congr 1
    refine Finset.sum_congr rfl fun q _ => ?_
    rw [if_congr (hhit j hj' q) (hxx j hj' q) rfl]
    by_cases h : j * 1280 + q.val = t
    · rw [if_pos h, if_pos h]
    · rw [if_neg h, if_neg h, EReal.coe_zero]

section final

variable (xv : Fin 32000 → EReal) (hx : ∀ v, ∃ r : ℝ, xv v = (r : EReal))
  (x : ℕ → Fin 1280 → EReal)
  (hxx : ∀ j, j < 25 → ∀ q : Fin 1280, ∀ h : j * 1280 + q.val < 32000, x j q = xv ⟨j * 1280 + q.val, h⟩)
  (hit : ℕ → Fin 1280 → Prop) [∀ j, DecidablePred (hit j)]
  (t : Fin 32000) (hhit : ∀ j, j < 25 → ∀ q : Fin 1280, hit j q ↔ j * 1280 + q.val = t.val)
  (M : EReal) (hMub : ∀ v, xv v ≤ M) (hMat : ∃ v, xv v = M)

include hx hxx in
/-- The finite logits as one real sequence, read by position in the row and by tile. -/
private theorem lift_real :
    ∃ xr : ℕ → ℝ, (∀ v : Fin 32000, xv v = ((xr v.val : ℝ) : EReal))
      ∧ ∀ j, j < 25 → ∀ q : Fin 1280, x j q = ((xr (j * 1280 + q.val) : ℝ) : EReal) := by
  choose xf hxf using hx
  refine ⟨fun v => if h : v < 32000 then xf ⟨v, h⟩ else 0, fun v => ?_, fun j hj q => ?_⟩
  · show xv v = ((if hv : v.val < 32000 then xf ⟨v.val, hv⟩ else 0 : ℝ) : EReal)
    rw [dif_pos v.isLt]
    exact hxf v
  · have h : j * 1280 + q.val < 32000 := by have := q.isLt; omega
    show x j q = ((if hv : j * 1280 + q.val < 32000 then xf ⟨j * 1280 + q.val, hv⟩ else 0 : ℝ) : EReal)
    rw [dif_pos h, hxx j hj q h, hxf]

include hx hxx hMub hMat in
/-- After all 25 tiles: the row's maximum is a real `Mr`, the running maximum is `Mr` and the running
    normaliser is the real sum of `exp (x - Mr)` over the row. -/
private theorem run_ml_final :
    ∃ (Mr : ℝ) (xr : ℕ → ℝ), M = (Mr : EReal) ∧ (∀ v : Fin 32000, xv v = ((xr v.val : ℝ) : EReal))
      ∧ (tileRun x hit 25).1 = (Mr : EReal)
      ∧ (tileRun x hit 25).2.1 = ((∑ v : Fin 32000, Real.exp (xr v.val - Mr) : ℝ) : EReal) := by
  obtain ⟨xr, hxr, hxx'⟩ := lift_real xv hx x hxx
  have key : ∃ m : ℝ, (tileRun x hit 25).1 = (m : EReal)
      ∧ (tileRun x hit 25).2.1 = ((∑ v ∈ Finset.range 32000, Real.exp (xr v - m) : ℝ) : EReal)
      ∧ (∀ v, v < 32000 → xr v ≤ m) ∧ ∃ v, v < 32000 ∧ xr v = m :=
    run_ml xr x hit 25 hxx' 24 (by norm_num)
  obtain ⟨m, hm1, hl1, hub, v1, hv1, hv1m⟩ := key
  obtain ⟨v0, hv0⟩ := hMat
  have hMm : M = (m : EReal) := by
    apply le_antisymm
    · rw [← hv0, hxr v0, EReal.coe_le_coe_iff]
      exact hub v0.val v0.isLt
    · have := hMub ⟨v1, hv1⟩
      rw [hxr ⟨v1, hv1⟩] at this
      rw [← hv1m]
      exact this
  refine ⟨m, xr, hMm, hxr, hm1, ?_⟩
  rw [hl1, Finset.sum_range]

include hx hxx hMub hMat in
/-- After all 25 tiles the running maximum is the row's maximum. -/
theorem run_max : (tileRun x hit 25).1 = M := by
  obtain ⟨Mr, xr, hM, -, h1, -⟩ := run_ml_final xv hx x hxx hit M hMub hMat
  rw [h1, hM]

include hx hxx hMub hMat in
/-- After all 25 tiles the running normaliser is the two-pass one. -/
theorem run_norm : (tileRun x hit 25).2.1 = ∑ v : Fin 32000, Ideal.exp (xv v - M) := by
  obtain ⟨Mr, xr, hM, hxr, -, h2⟩ := run_ml_final xv hx x hxx hit M hMub hMat
  rw [h2, coe_sum]
  refine Finset.sum_congr rfl fun v _ => ?_
  rw [hxr v, hM, ← EReal.coe_sub, Ideal.exp_coe]

include hx hxx hhit in
/-- After all 25 tiles the running pick is the logit at the label. -/
theorem run_pick : (tileRun x hit 25).2.2 = xv t := by
  obtain ⟨xr, hxr, hxx'⟩ := lift_real xv hx x hxx
  have h : (tileRun x hit 25).2.2
      = ((∑ v ∈ Finset.range 32000, (if v = t.val then xr v else 0) : ℝ) : EReal) :=
    run_g xr x hit t.val 25 hxx' hhit 25 le_rfl
  rw [h, Finset.sum_ite_eq', if_pos (Finset.mem_range.mpr t.isLt), hxr t]

include hx hxx hhit hMub hMat in
/-- The streamed `m + log l - g` is the negated log-softmax at the label. -/
theorem run_final :
    (tileRun x hit 25).1 + Ideal.log (tileRun x hit 25).2.1 - (tileRun x hit 25).2.2
      = -((xv t - M) - Ideal.log (0 + ∑ v : Fin 32000, Ideal.exp (xv v - M))) := by
  obtain ⟨Mr, xr, hM, hxr, h1, h2⟩ := run_ml_final xv hx x hxx hit M hMub hMat
  have hn := run_norm xv hx x hxx hit M hMub hMat
  have hp := run_pick xv hx x hxx hit t hhit
  -- the normaliser is positive: every term is an exponential
  have hL : 0 < ∑ v : Fin 32000, Real.exp (xr v.val - Mr) :=
    Finset.sum_pos (fun v _ => Real.exp_pos _) ⟨t, Finset.mem_univ t⟩
  rw [zero_add, ← hn, hp, h1, h2, hxr t, hM, Ideal.log_coe, if_neg (not_le.mpr hL)]
  rw [← EReal.coe_add, ← EReal.coe_sub, ← EReal.coe_sub, ← EReal.coe_sub, ← EReal.coe_neg]
  congr 1
  ring

end final

end Cert.Online

end
-- ==== Proof.RowBridge.lean ====
/-
  One row: the kernel's streamed loss is the reference's loss.

  For position (b, s) with a label in [0, 32000) and finite inputs: the row's 32000 logits are finite reals (the
  network of finite weights on a finite embedded row), the kernel visits them in 25 tiles of 1280 in order, its label
  test fires at exactly the label's position, and the reference's maximum `M` bounds the row and is attained. So the
  streaming identity applies: `m + log l - g` after the 25 tiles is `-((x t - M) - log (0 + ∑ exp (x - M)))`, which is
  the reference's loss of (b, s).
-/
import proofs.«424650_j90434831385111_1_alg».proof.Proof.RowLogits
import proofs.«424650_j90434831385111_1_alg».proof.Proof.RefNll
import proofs.«424650_j90434831385111_1_alg».proof.Proof.OnlineSoftmax

set_option maxRecDepth 16384

noncomputable section

namespace Cert.Bridge.Row

open Idealize.ShloMosaic Idealize.ShloMosaic.TcCoe Idealize.ShloMosaic.ValueIdx Idealize.SL.Sem
open Cert.KernelIdeal Cert.KernelIdeal.Gen Cert.KernelIdeal.Blocks Cert.KernelIdeal.Row Cert.KernelIdeal.Inv
open Cert.Online

variable (m : (ℓ : Loc nD τ sig) → Buf (Elt Ideal) ℓ)

/-- The streamed loss of output row `512 · b + s` is the reference's loss of position (b, s). -/
theorem row_eq (c : Dev nD) (b : Fin 16) (s : Fin 512)
    (h2 : ∀ i, Cert.Spec.IsR ((m ((c : Thread nD τ).loc main_arg2) : S32000x256.Idx → EReal) i)) (h3 : ∀ i, Cert.Spec.IsR ((m ((c : Thread nD τ).loc main_arg3) : S1024x1024.Idx → EReal) i))
    (h4 : ∀ i, Cert.Spec.IsR ((m ((c : Thread nD τ).loc main_arg4) : S1024.Idx → EReal) i)) (h5 : ∀ i, Cert.Spec.IsR ((m ((c : Thread nD τ).loc main_arg5) : S1024x1024.Idx → EReal) i))
    (h6 : ∀ i, Cert.Spec.IsR ((m ((c : Thread nD τ).loc main_arg6) : S1024.Idx → EReal) i)) (h7 : ∀ i, Cert.Spec.IsR ((m ((c : Thread nD τ).loc main_arg7) : S1024x32000.Idx → EReal) i))
    (h8 : ∀ i, Cert.Spec.IsR ((m ((c : Thread nD τ).loc main_arg8) : S32000.Idx → EReal) i))
    (h0 : 0 ≤ ((m ((c : Thread nD τ).loc main_arg1) : S16x512.Idx → BitVec 32) (ix2 b s)).toInt) (h1 : ((m ((c : Thread nD τ).loc main_arg1) : S16x512.Idx → BitVec 32) (ix2 b s)).toInt < 32000) :
    (tileRun (xrow m c ((512 * b.val + s.val) / 1024) ⟨(512 * b.val + s.val) % 1024, Nat.mod_lt _ (by decide)⟩) (hrow m c ((512 * b.val + s.val) / 1024) ⟨(512 * b.val + s.val) % 1024, Nat.mod_lt _ (by decide)⟩) 25).1 + Ideal.log (tileRun (xrow m c ((512 * b.val + s.val) / 1024) ⟨(512 * b.val + s.val) % 1024, Nat.mod_lt _ (by decide)⟩) (hrow m c ((512 * b.val + s.val) / 1024) ⟨(512 * b.val + s.val) % 1024, Nat.mod_lt _ (by decide)⟩) 25).2.1 - (tileRun (xrow m c ((512 * b.val + s.val) / 1024) ⟨(512 * b.val + s.val) % 1024, Nat.mod_lt _ (by decide)⟩) (hrow m c ((512 * b.val + s.val) / 1024) ⟨(512 * b.val + s.val) % 1024, Nat.mod_lt _ (by decide)⟩) 25).2.2
      = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 b s) := by
  obtain ⟨M, hub, hat, hnll⟩ := Cert.Bridge.Ref.nll_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b s h0 h1
  rw [hnll]
  refine run_final (fun v => Cert.ReferenceIdeal.Read.val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b s v)) ?_
    (xrow m c ((512 * b.val + s.val) / 1024) ⟨(512 * b.val + s.val) % 1024, Nat.mod_lt _ (by decide)⟩) ?_ (hrow m c ((512 * b.val + s.val) / 1024) ⟨(512 * b.val + s.val) % 1024, Nat.mod_lt _ (by decide)⟩) ⟨((m ((c : Thread nD τ).loc main_arg1) : S16x512.Idx → BitVec 32) (ix2 b s)).toInt.toNat, by omega⟩ ?_ M hub hat
  · -- every logit of the row is a real number
    intro v
    rw [Cert.Bridge.Ref.logit_apply]
    exact Cert.Spec.logit_isR (fun d => Cert.Bridge.Ref.emb_isR _ _ h2 _) (fun d a => h3 _) (fun a => h4 _) (fun a k => h5 _)
      (fun k => h6 _) (fun k v => h7 _) (fun v => h8 _) v
  · -- the kernel's tiles are the row's logits in order
    intro j hj q h
    rw [xrow_eq m c b s j hj q]
    exact congrArg _ (congrArg (ix3 b s) (Fin.ext (by show 1280 * j + q.val = j * 1280 + q.val; omega)))
  · -- the label test fires at the label's position
    intro j hj q
    exact hrow_iff m c b s j hj q h0 h1

end Cert.Bridge.Row

end
-- ==== Proof.RefRunQ.lean ====
/-
  The reference program's run, stage by stage.

  The reference is a straight line of 109 host operations, each writing a buffer of its own. Its run is read in five
  stretches — the embedding of the context tokens, the three affine layers with their clamps, the log-softmax, the
  read at the label with its negation, and the masked mean — each stretch's result stated as the stage function of the
  stretch before it, so that no stretch's term is ever written out inside the next one's.
-/
import proofs.«424650_j90434831385111_1_alg».proof.Proof.RefReadP
import Idealize.ShloMosaic.Lib.StableHlo.Run

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The first stretch: the context tokens padded, gathered four to a position and looked up in the table (row 0 zeroed), up to `main_v25`. -/
private abbrev s1 : List (HloOp τ sig (Elt F)) :=
  [ nullary main_c (constantI S_ 32 0#32),
    TRef.unary (TRef.of (T := ⟨S_, .i32⟩) main_c) (TRef.of (T := ⟨S_, .i32⟩) main_call0_v0) id,
    TRef.binary (TRef.of (T := ⟨S16x512, .i32⟩) main_arg0) (TRef.of (T := ⟨S_, .i32⟩) main_call0_v0) (TRef.of (T := ⟨S16x516, .i32⟩) main_v0) (fun x v => pad S16x516 ![0, 4] ![0, 0] ![0, 0] x v pads_S16x512_S16x516_000_400 h_S_),
    nullary main_v1 (iotaInDim S512 32 0),
    unary main_v1 main_v2 (broadcastInDim S512x1 ![0] bcast_S512_S512x1_0 : (⟨S512, .i32⟩ : BufTy).Contents (Elt F) → (⟨S512x1, .i32⟩ : BufTy).Contents (Elt F)),
    nullary main_v3 (iotaInDim S4 32 0),
    unary main_v3 main_v4 (broadcastInDim S1x4 ![1] bcast_S4_S1x4_1 : (⟨S4, .i32⟩ : BufTy).Contents (Elt F) → (⟨S1x4, .i32⟩ : BufTy).Contents (Elt F)),
    unary main_v2 main_v5 (broadcastInDim S512x4 ![0, 1] bcast_S512x1_S512x4_0_1 : (⟨S512x1, .i32⟩ : BufTy).Contents (Elt F) → (⟨S512x4, .i32⟩ : BufTy).Contents (Elt F)),
    unary main_v4 main_v6 (broadcastInDim S512x4 ![0, 1] bcast_S1x4_S512x4_0_1 : (⟨S1x4, .i32⟩ : BufTy).Contents (Elt F) → (⟨S512x4, .i32⟩ : BufTy).Contents (Elt F)),
    binary main_v5 main_v6 main_v7 (addi : (⟨S512x4, .i32⟩ : BufTy).Contents (Elt F) → (⟨S512x4, .i32⟩ : BufTy).Contents (Elt F) → (⟨S512x4, .i32⟩ : BufTy).Contents (Elt F)),
    nullary main_c_0 (constantI S_ 32 0#32),
    unary main_c_0 main_v8 (broadcastInDim S512x4 ![] bcast_S_S512x4 : (⟨S_, .i32⟩ : BufTy).Contents (Elt F) → (⟨S512x4, .i32⟩ : BufTy).Contents (Elt F)),
    binary main_v7 main_v8 main_v9 (cmpi .slt : (⟨S512x4, .i32⟩ : BufTy).Contents (Elt F) → (⟨S512x4, .i32⟩ : BufTy).Contents (Elt F) → (⟨S512x4, .i1⟩ : BufTy).Contents (Elt F)),
    nullary main_c_1 (constantI S_ 32 516#32),
    unary main_c_1 main_v10 (broadcastInDim S512x4 ![] bcast_S_S512x4 : (⟨S_, .i32⟩ : BufTy).Contents (Elt F) → (⟨S512x4, .i32⟩ : BufTy).Contents (Elt F)),
    binary main_v7 main_v10 main_v11 (addi : (⟨S512x4, .i32⟩ : BufTy).Contents (Elt F) → (⟨S512x4, .i32⟩ : BufTy).Contents (Elt F) → (⟨S512x4, .i32⟩ : BufTy).Contents (Elt F)),
    ternary main_v9 main_v11 main_v7 main_v12 (select : (⟨S512x4, .i1⟩ : BufTy).Contents (Elt F) → (⟨S512x4, .i32⟩ : BufTy).Contents (Elt F) → (⟨S512x4, .i32⟩ : BufTy).Contents (Elt F) → (⟨S512x4, .i32⟩ : BufTy).Contents (Elt F)),
    unary main_v12 main_v13 (broadcastInDim S512x4x1 ![0, 1] bcast_S512x4_S512x4x1_0_1 : (⟨S512x4, .i32⟩ : BufTy).Contents (Elt F) → (⟨S512x4x1, .i32⟩ : BufTy).Contents (Elt F)),
    binary main_v0 main_v13 main_v14 ((fun x i => Host.gather gather_S16x516_S512x4x1_S16x512x4_0_1_n_n_1_2_161 x i) : (⟨S16x516, .i32⟩ : BufTy).Contents (Elt F) → (⟨S512x4x1, .i32⟩ : BufTy).Contents (Elt F) → (⟨S16x512x4, .i32⟩ : BufTy).Contents (Elt F)),
    nullary main_c_2 (constantI S_ 32 0#32),
    unary main_c_2 main_v15 (broadcastInDim S1 ![] bcast_S_S1 : (⟨S_, .i32⟩ : BufTy).Contents (Elt F) → (⟨S1, .i32⟩ : BufTy).Contents (Elt F)),
    nullary main_cst (constant S_ .f32 0x00000000#32),
    unary main_cst main_v16 (broadcastInDim S256 ![] bcast_S_S256 : (⟨S_, .f32⟩ : BufTy).Contents (Elt F) → (⟨S256, .f32⟩ : BufTy).Contents (Elt F)),
    ternary main_arg2 main_v15 main_v16 main_v17 ((fun x i u => Host.scatter scatter_S32000x256_S1_S256_0_0_0_0 (fun _ b => b) x i u) : (⟨S32000x256, .f32⟩ : BufTy).Contents (Elt F) → (⟨S1, .i32⟩ : BufTy).Contents (Elt F) → (⟨S256, .f32⟩ : BufTy).Contents (Elt F) → (⟨S32000x256, .f32⟩ : BufTy).Contents (Elt F)),
    nullary main_c_3 (constantI S_ 32 0#32),
    unary main_c_3 main_v18 (broadcastInDim S16x512x4 ![] bcast_S_S16x512x4 : (⟨S_, .i32⟩ : BufTy).Contents (Elt F) → (⟨S16x512x4, .i32⟩ : BufTy).Contents (Elt F)),
    binary main_v14 main_v18 main_v19 (cmpi .slt : (⟨S16x512x4, .i32⟩ : BufTy).Contents (Elt F) → (⟨S16x512x4, .i32⟩ : BufTy).Contents (Elt F) → (⟨S16x512x4, .i1⟩ : BufTy).Contents (Elt F)),
    nullary main_c_4 (constantI S_ 32 32000#32),
    unary main_c_4 main_v20 (broadcastInDim S16x512x4 ![] bcast_S_S16x512x4 : (⟨S_, .i32⟩ : BufTy).Contents (Elt F) → (⟨S16x512x4, .i32⟩ : BufTy).Contents (Elt F)),
    binary main_v14 main_v20 main_v21 (addi : (⟨S16x512x4, .i32⟩ : BufTy).Contents (Elt F) → (⟨S16x512x4, .i32⟩ : BufTy).Contents (Elt F) → (⟨S16x512x4, .i32⟩ : BufTy).Contents (Elt F)),
    ternary main_v19 main_v21 main_v14 main_v22 (select : (⟨S16x512x4, .i1⟩ : BufTy).Contents (Elt F) → (⟨S16x512x4, .i32⟩ : BufTy).Contents (Elt F) → (⟨S16x512x4, .i32⟩ : BufTy).Contents (Elt F) → (⟨S16x512x4, .i32⟩ : BufTy).Contents (Elt F)),
    unary main_v22 main_v23 (broadcastInDim S16x512x4x1 ![0, 1, 2] bcast_S16x512x4_S16x512x4x1_0_1_2 : (⟨S16x512x4, .i32⟩ : BufTy).Contents (Elt F) → (⟨S16x512x4x1, .i32⟩ : BufTy).Contents (Elt F)),
    binary main_v17 main_v23 main_v24 ((fun x i => Host.gather gather_S32000x256_S16x512x4x1_S16x512x4x256_3_0_n_n_0_3_1256 x i) : (⟨S32000x256, .f32⟩ : BufTy).Contents (Elt F) → (⟨S16x512x4x1, .i32⟩ : BufTy).Contents (Elt F) → (⟨S16x512x4x256, .f32⟩ : BufTy).Contents (Elt F)),
    reshape main_v24 main_v25 rfl shapeCasts_S16x512x4x256_S16x512x1024 ]

/-- The second stretch: the three affine layers with their two clamps at zero, up to the logits `main_v39`. -/
private abbrev s2 : List (HloOp τ sig (Elt F)) :=
  [ binary main_v25 main_arg3 main_v26 ((fun l r => Host.dotGeneral dot_S16x512x1024_S1024x1024_S16x512x1024_2_0_01_1_n_n none l r) : (⟨S16x512x1024, .f32⟩ : BufTy).Contents (Elt F) → (⟨S1024x1024, .f32⟩ : BufTy).Contents (Elt F) → (⟨S16x512x1024, .f32⟩ : BufTy).Contents (Elt F)),
    unary main_arg4 main_v27 (broadcastInDim S1x1x1024 ![2] bcast_S1024_S1x1x1024_2 : (⟨S1024, .f32⟩ : BufTy).Contents (Elt F) → (⟨S1x1x1024, .f32⟩ : BufTy).Contents (Elt F)),
    unary main_v27 main_v28 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v26 main_v28 main_v29 (addf : (⟨S16x512x1024, .f32⟩ : BufTy).Contents (Elt F) → (⟨S16x512x1024, .f32⟩ : BufTy).Contents (Elt F) → (⟨S16x512x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x512x1024, .f32⟩) main_call1_v0) (broadcastInDim S16x512x1024 ![] bcast_S_S16x512x1024),
    TRef.binary (TRef.of (T := ⟨S16x512x1024, .f32⟩) main_v29) (TRef.of (T := ⟨S16x512x1024, .f32⟩) main_call1_v0) (TRef.of (T := ⟨S16x512x1024, .f32⟩) main_v30) maximumf,
    binary main_v30 main_arg5 main_v31 ((fun l r => Host.dotGeneral dot_S16x512x1024_S1024x1024_S16x512x1024_2_0_01_1_n_n none l r) : (⟨S16x512x1024, .f32⟩ : BufTy).Contents (Elt F) → (⟨S1024x1024, .f32⟩ : BufTy).Contents (Elt F) → (⟨S16x512x1024, .f32⟩ : BufTy).Contents (Elt F)),
    unary main_arg6 main_v32 (broadcastInDim S1x1x1024 ![2] bcast_S1024_S1x1x1024_2 : (⟨S1024, .f32⟩ : BufTy).Contents (Elt F) → (⟨S1x1x1024, .f32⟩ : BufTy).Contents (Elt F)),
    unary main_v32 main_v33 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v31 main_v33 main_v34 (addf : (⟨S16x512x1024, .f32⟩ : BufTy).Contents (Elt F) → (⟨S16x512x1024, .f32⟩ : BufTy).Contents (Elt F) → (⟨S16x512x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x512x1024, .f32⟩) main_call2_v0) (broadcastInDim S16x512x1024 ![] bcast_S_S16x512x1024),
    TRef.binary (TRef.of (T := ⟨S16x512x1024, .f32⟩) main_v34) (TRef.of (T := ⟨S16x512x1024, .f32⟩) main_call2_v0) (TRef.of (T := ⟨S16x512x1024, .f32⟩) main_v35) maximumf,
    binary main_v35 main_arg7 main_v36 ((fun l r => Host.dotGeneral dot_S16x512x1024_S1024x32000_S16x512x32000_2_0_01_1_n_n none l r) : (⟨S16x512x1024, .f32⟩ : BufTy).Contents (Elt F) → (⟨S1024x32000, .f32⟩ : BufTy).Contents (Elt F) → (⟨S16x512x32000, .f32⟩ : BufTy).Contents (Elt F)),
    unary main_arg8 main_v37 (broadcastInDim S1x1x32000 ![2] bcast_S32000_S1x1x32000_2 : (⟨S32000, .f32⟩ : BufTy).Contents (Elt F) → (⟨S1x1x32000, .f32⟩ : BufTy).Contents (Elt F)),
    unary main_v37 main_v38 (broadcastInDim S16x512x32000 ![0, 1, 2] bcast_S1x1x32000_S16x512x32000_0_1_2 : (⟨S1x1x32000, .f32⟩ : BufTy).Contents (Elt F) → (⟨S16x512x32000, .f32⟩ : BufTy).Contents (Elt F)),
    binary main_v36 main_v38 main_v39 (addf : (⟨S16x512x32000, .f32⟩ : BufTy).Contents (Elt F) → (⟨S16x512x32000, .f32⟩ : BufTy).Contents (Elt F) → (⟨S16x512x32000, .f32⟩ : BufTy).Contents (Elt F)) ]

/-- The third stretch: the log-softmax of the logits along the vocabulary, up to `main_v40`. -/
private abbrev s3 : List (HloOp τ sig (Elt F)) :=
  [ TRef.nullary (TRef.of (T := ⟨S_, .f32⟩) main_call3_cst) (constant S_ .f32 0xFF800000#32),
    TRef.binary (TRef.of (T := ⟨S16x512x32000, .f32⟩) main_v39) (TRef.of (T := ⟨S_, .f32⟩) main_call3_cst) (TRef.of (T := ⟨S16x512, .f32⟩) main_call3_v0) (fun x v => Host.reduce FloatOps.maximumf x v reducesTo_S16x512x32000_S16x512_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S16x512, .f32⟩) main_call3_v1) (broadcastInDim S16x512 ![] bcast_S_S16x512),
    TRef.binary (TRef.of (T := ⟨S16x512, .f32⟩) main_call3_v1) (TRef.of (T := ⟨S16x512, .f32⟩) main_call3_v0) (TRef.of (T := ⟨S16x512, .f32⟩) main_call3_v2) maximumf,
    TRef.unary (TRef.of (T := ⟨S16x512, .f32⟩) main_call3_v2) (TRef.of (T := ⟨S16x512x1, .f32⟩) main_call3_v3) (broadcastInDim S16x512x1 ![0, 1] bcast_S16x512_S16x512x1_0_1),
    TRef.unary (TRef.of (T := ⟨S16x512x1, .f32⟩) main_call3_v3) (TRef.of (T := ⟨S16x512x32000, .f32⟩) main_call3_v4) (broadcastInDim S16x512x32000 ![0, 1, 2] bcast_S16x512x1_S16x512x32000_0_1_2),
    TRef.binary (TRef.of (T := ⟨S16x512x32000, .f32⟩) main_v39) (TRef.of (T := ⟨S16x512x32000, .f32⟩) main_call3_v4) (TRef.of (T := ⟨S16x512x32000, .f32⟩) main_call3_v5) subf,
    TRef.unary (TRef.of (T := ⟨S16x512x32000, .f32⟩) main_call3_v5) (TRef.of (T := ⟨S16x512x32000, .f32⟩) main_call3_v6) Host.exp,
    TRef.nullary (TRef.of (T := ⟨S_, .f32⟩) main_call3_cst_1) (constant S_ .f32 0x00000000#32),
    TRef.binary (TRef.of (T := ⟨S16x512x32000, .f32⟩) main_call3_v6) (TRef.of (T := ⟨S_, .f32⟩) main_call3_cst_1) (TRef.of (T := ⟨S16x512, .f32⟩) main_call3_v7) (fun x v => Host.reduceAdd x v reducesTo_S16x512x32000_S16x512_d2 h_S_),
    TRef.unary (TRef.of (T := ⟨S16x512, .f32⟩) main_call3_v7) (TRef.of (T := ⟨S16x512x1, .f32⟩) main_call3_v8) (broadcastInDim S16x512x1 ![0, 1] bcast_S16x512_S16x512x1_0_1),
    TRef.unary (TRef.of (T := ⟨S16x512x1, .f32⟩) main_call3_v8) (TRef.of (T := ⟨S16x512x1, .f32⟩) main_call3_v9) Host.log,
    TRef.unary (TRef.of (T := ⟨S16x512x1, .f32⟩) main_call3_v9) (TRef.of (T := ⟨S16x512x32000, .f32⟩) main_call3_v10) (broadcastInDim S16x512x32000 ![0, 1, 2] bcast_S16x512x1_S16x512x32000_0_1_2),
    TRef.binary (TRef.of (T := ⟨S16x512x32000, .f32⟩) main_call3_v5) (TRef.of (T := ⟨S16x512x32000, .f32⟩) main_call3_v10) (TRef.of (T := ⟨S16x512x32000, .f32⟩) main_v40) subf ]

/-- The fourth stretch: the log-probability read at the label (made non-negative, kept only in range) and negated, up to `main_v44`. -/
private abbrev s4 : List (HloOp τ sig (Elt F)) :=
  [ unary main_arg1 main_v41 (broadcastInDim S16x512x1 ![0, 1] bcast_S16x512_S16x512x1_0_1 : (⟨S16x512, .i32⟩ : BufTy).Contents (Elt F) → (⟨S16x512x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16x512x1, .i32⟩) main_call4_v0) (broadcastInDim S16x512x1 ![] bcast_S_S16x512x1),
    TRef.binary (TRef.of (T := ⟨S16x512x1, .i32⟩) main_v41) (TRef.of (T := ⟨S16x512x1, .i32⟩) main_call4_v0) (TRef.of (T := ⟨S16x512x1, .i1⟩) main_call4_v1) (cmpi .slt),
    TRef.nullary (TRef.of (T := ⟨S_, .i32⟩) main_call4_c_0) (constantI S_ 32 32000#32),
    TRef.unary (TRef.of (T := ⟨S_, .i32⟩) main_call4_c_0) (TRef.of (T := ⟨S16x512x1, .i32⟩) main_call4_v2) (broadcastInDim S16x512x1 ![] bcast_S_S16x512x1),
    TRef.binary (TRef.of (T := ⟨S16x512x1, .i32⟩) main_v41) (TRef.of (T := ⟨S16x512x1, .i32⟩) main_call4_v2) (TRef.of (T := ⟨S16x512x1, .i32⟩) main_call4_v3) addi,
    TRef.ternary (TRef.of (T := ⟨S16x512x1, .i1⟩) main_call4_v1) (TRef.of (T := ⟨S16x512x1, .i32⟩) main_call4_v3) (TRef.of (T := ⟨S16x512x1, .i32⟩) main_v41) (TRef.of (T := ⟨S16x512x1, .i32⟩) main_call4_v4) select,
    TRef.reshape (TRef.of (T := ⟨S16x512x1, .i32⟩) main_call4_v4) (TRef.of (T := ⟨S16x512x1x1, .i32⟩) main_call4_v5) rfl shapeCasts_S16x512x1_S16x512x1x1,
    TRef.nullary (TRef.of (T := ⟨S1, .i32⟩) main_call4_c_1) (constantI S1 32 31999#32),
    TRef.nullary (TRef.of (T := ⟨S_, .i32⟩) main_call4_c_2) (constantI S_ 32 0#32),
    TRef.unary (TRef.of (T := ⟨S_, .i32⟩) main_call4_c_2) (TRef.of (T := ⟨S16x512x1x1, .i32⟩) main_call4_v6) (broadcastInDim S16x512x1x1 ![] bcast_S_S16x512x1x1),
    TRef.binary (TRef.of (T := ⟨S16x512x1x1, .i32⟩) main_call4_v5) (TRef.of (T := ⟨S16x512x1x1, .i32⟩) main_call4_v6) (TRef.of (T := ⟨S16x512x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S16x512x1x1, .i32⟩) main_call4_v9) (broadcastInDim S16x512x1x1 ![0, 1, 2, 3] bcast_S1x1x1x1_S16x512x1x1_0_1_2_3),
    TRef.binary (TRef.of (T := ⟨S16x512x1x1, .i32⟩) main_call4_v5) (TRef.of (T := ⟨S16x512x1x1, .i32⟩) main_call4_v9) (TRef.of (T := ⟨S16x512x1x1, .i1⟩) main_call4_v10) (cmpi .sle),
    TRef.binary (TRef.of (T := ⟨S16x512x1x1, .i1⟩) main_call4_v7) (TRef.of (T := ⟨S16x512x1x1, .i1⟩) main_call4_v10) (TRef.of (T := ⟨S16x512x1x1, .i1⟩) main_call4_v11) andi,
    TRef.nullary (TRef.of (T := ⟨S_, .i1⟩) main_call4_c_3) (constantI S_ 1 1#1),
    TRef.binary (TRef.of (T := ⟨S16x512x1x1, .i1⟩) main_call4_v11) (TRef.of (T := ⟨S_, .i1⟩) main_call4_c_3) (TRef.of (T := ⟨S16x512x1, .i1⟩) main_call4_v12) (fun x v => Host.reduce IntOp.andi x v reducesTo_S16x512x1x1_S16x512x1_d3 h_S_),
    TRef.binary (TRef.of (T := ⟨S16x512x32000, .f32⟩) main_v40) (TRef.of (T := ⟨S16x512x1x1, .i32⟩) main_call4_v5) (TRef.of (T := ⟨S16x512x1, .f32⟩) main_call4_v13) (fun x i => Host.gather gather_S16x512x32000_S16x512x1x1_S16x512x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S16x512x1, .f32⟩) main_call4_v14) (broadcastInDim S16x512x1 ![] bcast_S_S16x512x1),
    TRef.ternary (TRef.of (T := ⟨S16x512x1, .i1⟩) main_call4_v12) (TRef.of (T := ⟨S16x512x1, .f32⟩) main_call4_v13) (TRef.of (T := ⟨S16x512x1, .f32⟩) main_call4_v14) (TRef.of (T := ⟨S16x512x1, .f32⟩) main_v42) select,
    reshape main_v42 main_v43 rfl shapeCasts_S16x512x1_S16x512,
    unary main_v43 main_v44 (Host.negf : (⟨S16x512, .f32⟩ : BufTy).Contents (Elt F) → (⟨S16x512, .f32⟩ : BufTy).Contents (Elt F)) ]

/-- The fifth stretch: the mean over the batch of the masked negated log-probabilities over the count of kept labels, then over positions, up to `main_v55`. -/
private abbrev s5 : List (HloOp τ sig (Elt F)) :=
  [ nullary main_c_5 (constantI S_ 32 0#32),
    unary main_c_5 main_v45 (broadcastInDim S16x512 ![] bcast_S_S16x512 : (⟨S_, .i32⟩ : BufTy).Contents (Elt F) → (⟨S16x512, .i32⟩ : BufTy).Contents (Elt F)),
    binary main_arg1 main_v45 main_v46 (cmpi .ne : (⟨S16x512, .i32⟩ : BufTy).Contents (Elt F) → (⟨S16x512, .i32⟩ : BufTy).Contents (Elt F) → (⟨S16x512, .i1⟩ : BufTy).Contents (Elt F)),
    unary main_v46 main_v47 (uitofp .f32 : (⟨S16x512, .i1⟩ : BufTy).Contents (Elt F) → (⟨S16x512, .f32⟩ : BufTy).Contents (Elt F)),
    nullary main_cst_6 (constant S_ .f32 0x00000000#32),
    binary main_v47 main_cst_6 main_v48 ((fun x v => Host.reduceAdd x v reducesTo_S16x512_S512_d0 h_S_) : (⟨S16x512, .f32⟩ : BufTy).Contents (Elt F) → (⟨S_, .f32⟩ : BufTy).Contents (Elt F) → (⟨S512, .f32⟩ : BufTy).Contents (Elt F)),
    nullary main_cst_7 (constant S_ .f32 0x3F800000#32),
    unary main_cst_7 main_v49 (broadcastInDim S512 ![] bcast_S_S512 : (⟨S_, .f32⟩ : BufTy).Contents (Elt F) → (⟨S512, .f32⟩ : BufTy).Contents (Elt F)),
    binary main_v48 main_v49 main_v50 (maximumf : (⟨S512, .f32⟩ : BufTy).Contents (Elt F) → (⟨S512, .f32⟩ : BufTy).Contents (Elt F) → (⟨S512, .f32⟩ : BufTy).Contents (Elt F)),
    binary main_v44 main_v47 main_v51 (mulf : (⟨S16x512, .f32⟩ : BufTy).Contents (Elt F) → (⟨S16x512, .f32⟩ : BufTy).Contents (Elt F) → (⟨S16x512, .f32⟩ : BufTy).Contents (Elt F)),
    nullary main_cst_8 (constant S_ .f32 0x00000000#32),
    binary main_v51 main_cst_8 main_v52 ((fun x v => Host.reduceAdd x v reducesTo_S16x512_S512_d0 h_S_) : (⟨S16x512, .f32⟩ : BufTy).Contents (Elt F) → (⟨S_, .f32⟩ : BufTy).Contents (Elt F) → (⟨S512, .f32⟩ : BufTy).Contents (Elt F)),
    binary main_v52 main_v50 main_v53 (Host.divf : (⟨S512, .f32⟩ : BufTy).Contents (Elt F) → (⟨S512, .f32⟩ : BufTy).Contents (Elt F) → (⟨S512, .f32⟩ : BufTy).Contents (Elt F)),
    nullary main_cst_9 (constant S_ .f32 0x00000000#32),
    binary main_v53 main_cst_9 main_v54 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_10 (constant S_ .f32 0x44000000#32),
    binary main_v54 main_cst_10 main_v55 (Host.divf : (⟨S_, .f32⟩ : BufTy).Contents (Elt F) → (⟨S_, .f32⟩ : BufTy).Contents (Elt F) → (⟨S_, .f32⟩ : BufTy).Contents (Elt F)) ]

/-- The 109 operations are the five stretches in a row. -/
private theorem ops_cut : (ops : List (HloOp τ sig (Elt F))) = s1 ++ (s2 ++ (s3 ++ (s4 ++ s5))) := rfl

/-- Stretch 1 does not write argument 0. -/
private theorem frame1_arg0 (W : Valuation τ sig (Elt F)) :
    after s1 W (Proc.devRef .tc main_arg0) = W (Proc.devRef .tc main_arg0) := by
  after_results_simp

/-- Stretch 1 does not write argument 1. -/
private theorem frame1_arg1 (W : Valuation τ sig (Elt F)) :
    after s1 W (Proc.devRef .tc main_arg1) = W (Proc.devRef .tc main_arg1) := by
  after_results_simp

/-- Stretch 1 does not write argument 2. -/
private theorem frame1_arg2 (W : Valuation τ sig (Elt F)) :
    after s1 W (Proc.devRef .tc main_arg2) = W (Proc.devRef .tc main_arg2) := by
  after_results_simp

/-- Stretch 1 does not write argument 3. -/
private theorem frame1_arg3 (W : Valuation τ sig (Elt F)) :
    after s1 W (Proc.devRef .tc main_arg3) = W (Proc.devRef .tc main_arg3) := by
  after_results_simp

/-- Stretch 1 does not write argument 4. -/
private theorem frame1_arg4 (W : Valuation τ sig (Elt F)) :
    after s1 W (Proc.devRef .tc main_arg4) = W (Proc.devRef .tc main_arg4) := by
  after_results_simp

/-- Stretch 1 does not write argument 5. -/
private theorem frame1_arg5 (W : Valuation τ sig (Elt F)) :
    after s1 W (Proc.devRef .tc main_arg5) = W (Proc.devRef .tc main_arg5) := by
  after_results_simp

/-- Stretch 1 does not write argument 6. -/
private theorem frame1_arg6 (W : Valuation τ sig (Elt F)) :
    after s1 W (Proc.devRef .tc main_arg6) = W (Proc.devRef .tc main_arg6) := by
  after_results_simp

/-- Stretch 1 does not write argument 7. -/
private theorem frame1_arg7 (W : Valuation τ sig (Elt F)) :
    after s1 W (Proc.devRef .tc main_arg7) = W (Proc.devRef .tc main_arg7) := by
  after_results_simp

/-- Stretch 1 does not write argument 8. -/
private theorem frame1_arg8 (W : Valuation τ sig (Elt F)) :
    after s1 W (Proc.devRef .tc main_arg8) = W (Proc.devRef .tc main_arg8) := by
  after_results_simp

/-- Stretch 2 does not write argument 0. -/
private theorem frame2_arg0 (W : Valuation τ sig (Elt F)) :
    after s2 W (Proc.devRef .tc main_arg0) = W (Proc.devRef .tc main_arg0) := by
  after_results_simp

/-- Stretch 2 does not write argument 1. -/
private theorem frame2_arg1 (W : Valuation τ sig (Elt F)) :
    after s2 W (Proc.devRef .tc main_arg1) = W (Proc.devRef .tc main_arg1) := by
  after_results_simp

/-- Stretch 2 does not write argument 2. -/
private theorem frame2_arg2 (W : Valuation τ sig (Elt F)) :
    after s2 W (Proc.devRef .tc main_arg2) = W (Proc.devRef .tc main_arg2) := by
  after_results_simp

/-- Stretch 2 does not write argument 3. -/
private theorem frame2_arg3 (W : Valuation τ sig (Elt F)) :
    after s2 W (Proc.devRef .tc main_arg3) = W (Proc.devRef .tc main_arg3) := by
  after_results_simp

/-- Stretch 2 does not write argument 4. -/
private theorem frame2_arg4 (W : Valuation τ sig (Elt F)) :
    after s2 W (Proc.devRef .tc main_arg4) = W (Proc.devRef .tc main_arg4) := by
  after_results_simp

/-- Stretch 2 does not write argument 5. -/
private theorem frame2_arg5 (W : Valuation τ sig (Elt F)) :
    after s2 W (Proc.devRef .tc main_arg5) = W (Proc.devRef .tc main_arg5) := by
  after_results_simp

/-- Stretch 2 does not write argument 6. -/
private theorem frame2_arg6 (W : Valuation τ sig (Elt F)) :
    after s2 W (Proc.devRef .tc main_arg6) = W (Proc.devRef .tc main_arg6) := by
  after_results_simp

/-- Stretch 2 does not write argument 7. -/
private theorem frame2_arg7 (W : Valuation τ sig (Elt F)) :
    after s2 W (Proc.devRef .tc main_arg7) = W (Proc.devRef .tc main_arg7) := by
  after_results_simp

/-- Stretch 2 does not write argument 8. -/
private theorem frame2_arg8 (W : Valuation τ sig (Elt F)) :
    after s2 W (Proc.devRef .tc main_arg8) = W (Proc.devRef .tc main_arg8) := by
  after_results_simp

/-- Stretch 3 does not write argument 0. -/
private theorem frame3_arg0 (W : Valuation τ sig (Elt F)) :
    after s3 W (Proc.devRef .tc main_arg0) = W (Proc.devRef .tc main_arg0) := by
  after_results_simp

/-- Stretch 3 does not write argument 1. -/
private theorem frame3_arg1 (W : Valuation τ sig (Elt F)) :
    after s3 W (Proc.devRef .tc main_arg1) = W (Proc.devRef .tc main_arg1) := by
  after_results_simp

/-- Stretch 3 does not write argument 2. -/
private theorem frame3_arg2 (W : Valuation τ sig (Elt F)) :
    after s3 W (Proc.devRef .tc main_arg2) = W (Proc.devRef .tc main_arg2) := by
  after_results_simp

/-- Stretch 3 does not write argument 3. -/
private theorem frame3_arg3 (W : Valuation τ sig (Elt F)) :
    after s3 W (Proc.devRef .tc main_arg3) = W (Proc.devRef .tc main_arg3) := by
  after_results_simp

/-- Stretch 3 does not write argument 4. -/
private theorem frame3_arg4 (W : Valuation τ sig (Elt F)) :
    after s3 W (Proc.devRef .tc main_arg4) = W (Proc.devRef .tc main_arg4) := by
  after_results_simp

/-- Stretch 3 does not write argument 5. -/
private theorem frame3_arg5 (W : Valuation τ sig (Elt F)) :
    after s3 W (Proc.devRef .tc main_arg5) = W (Proc.devRef .tc main_arg5) := by
  after_results_simp

/-- Stretch 3 does not write argument 6. -/
private theorem frame3_arg6 (W : Valuation τ sig (Elt F)) :
    after s3 W (Proc.devRef .tc main_arg6) = W (Proc.devRef .tc main_arg6) := by
  after_results_simp

/-- Stretch 3 does not write argument 7. -/
private theorem frame3_arg7 (W : Valuation τ sig (Elt F)) :
    after s3 W (Proc.devRef .tc main_arg7) = W (Proc.devRef .tc main_arg7) := by
  after_results_simp

/-- Stretch 3 does not write argument 8. -/
private theorem frame3_arg8 (W : Valuation τ sig (Elt F)) :
    after s3 W (Proc.devRef .tc main_arg8) = W (Proc.devRef .tc main_arg8) := by
  after_results_simp

/-- Stretch 4 does not write argument 0. -/
private theorem frame4_arg0 (W : Valuation τ sig (Elt F)) :
    after s4 W (Proc.devRef .tc main_arg0) = W (Proc.devRef .tc main_arg0) := by
  after_results_simp

/-- Stretch 4 does not write argument 1. -/
private theorem frame4_arg1 (W : Valuation τ sig (Elt F)) :
    after s4 W (Proc.devRef .tc main_arg1) = W (Proc.devRef .tc main_arg1) := by
  after_results_simp

/-- Stretch 4 does not write argument 2. -/
private theorem frame4_arg2 (W : Valuation τ sig (Elt F)) :
    after s4 W (Proc.devRef .tc main_arg2) = W (Proc.devRef .tc main_arg2) := by
  after_results_simp

/-- Stretch 4 does not write argument 3. -/
private theorem frame4_arg3 (W : Valuation τ sig (Elt F)) :
    after s4 W (Proc.devRef .tc main_arg3) = W (Proc.devRef .tc main_arg3) := by
  after_results_simp

/-- Stretch 4 does not write argument 4. -/
private theorem frame4_arg4 (W : Valuation τ sig (Elt F)) :
    after s4 W (Proc.devRef .tc main_arg4) = W (Proc.devRef .tc main_arg4) := by
  after_results_simp

/-- Stretch 4 does not write argument 5. -/
private theorem frame4_arg5 (W : Valuation τ sig (Elt F)) :
    after s4 W (Proc.devRef .tc main_arg5) = W (Proc.devRef .tc main_arg5) := by
  after_results_simp

/-- Stretch 4 does not write argument 6. -/
private theorem frame4_arg6 (W : Valuation τ sig (Elt F)) :
    after s4 W (Proc.devRef .tc main_arg6) = W (Proc.devRef .tc main_arg6) := by
  after_results_simp

/-- Stretch 4 does not write argument 7. -/
private theorem frame4_arg7 (W : Valuation τ sig (Elt F)) :
    after s4 W (Proc.devRef .tc main_arg7) = W (Proc.devRef .tc main_arg7) := by
  after_results_simp

/-- Stretch 4 does not write argument 8. -/
private theorem frame4_arg8 (W : Valuation τ sig (Elt F)) :
    after s4 W (Proc.devRef .tc main_arg8) = W (Proc.devRef .tc main_arg8) := by
  after_results_simp

/-- Stretch 5 does not write argument 0. -/
private theorem frame5_arg0 (W : Valuation τ sig (Elt F)) :
    after s5 W (Proc.devRef .tc main_arg0) = W (Proc.devRef .tc main_arg0) := by
  after_results_simp

/-- Stretch 5 does not write argument 1. -/
private theorem frame5_arg1 (W : Valuation τ sig (Elt F)) :
    after s5 W (Proc.devRef .tc main_arg1) = W (Proc.devRef .tc main_arg1) := by
  after_results_simp

/-- Stretch 5 does not write argument 2. -/
private theorem frame5_arg2 (W : Valuation τ sig (Elt F)) :
    after s5 W (Proc.devRef .tc main_arg2) = W (Proc.devRef .tc main_arg2) := by
  after_results_simp

/-- Stretch 5 does not write argument 3. -/
private theorem frame5_arg3 (W : Valuation τ sig (Elt F)) :
    after s5 W (Proc.devRef .tc main_arg3) = W (Proc.devRef .tc main_arg3) := by
  after_results_simp

/-- Stretch 5 does not write argument 4. -/
private theorem frame5_arg4 (W : Valuation τ sig (Elt F)) :
    after s5 W (Proc.devRef .tc main_arg4) = W (Proc.devRef .tc main_arg4) := by
  after_results_simp

/-- Stretch 5 does not write argument 5. -/
private theorem frame5_arg5 (W : Valuation τ sig (Elt F)) :
    after s5 W (Proc.devRef .tc main_arg5) = W (Proc.devRef .tc main_arg5) := by
  after_results_simp

/-- Stretch 5 does not write argument 6. -/
private theorem frame5_arg6 (W : Valuation τ sig (Elt F)) :
    after s5 W (Proc.devRef .tc main_arg6) = W (Proc.devRef .tc main_arg6) := by
  after_results_simp

/-- Stretch 5 does not write argument 7. -/
private theorem frame5_arg7 (W : Valuation τ sig (Elt F)) :
    after s5 W (Proc.devRef .tc main_arg7) = W (Proc.devRef .tc main_arg7) := by
  after_results_simp

/-- Stretch 5 does not write argument 8. -/
private theorem frame5_arg8 (W : Valuation τ sig (Elt F)) :
    after s5 W (Proc.devRef .tc main_arg8) = W (Proc.devRef .tc main_arg8) := by
  after_results_simp

/-- The whole line does not write argument 0. -/
private theorem after_ops_arg0 (V : Valuation τ sig (Elt F)) :
    after ops V (Proc.devRef .tc main_arg0) = V (Proc.devRef .tc main_arg0) := by
  rw [ops_cut, after_append, after_append, after_append, after_append,
    frame5_arg0, frame4_arg0, frame3_arg0, frame2_arg0, frame1_arg0]

/-- The whole line does not write argument 1. -/
private theorem after_ops_arg1 (V : Valuation τ sig (Elt F)) :
    after ops V (Proc.devRef .tc main_arg1) = V (Proc.devRef .tc main_arg1) := by
  rw [ops_cut, after_append, after_append, after_append, after_append,
    frame5_arg1, frame4_arg1, frame3_arg1, frame2_arg1, frame1_arg1]

/-- The whole line does not write argument 2. -/
private theorem after_ops_arg2 (V : Valuation τ sig (Elt F)) :
    after ops V (Proc.devRef .tc main_arg2) = V (Proc.devRef .tc main_arg2) := by
  rw [ops_cut, after_append, after_append, after_append, after_append,
    frame5_arg2, frame4_arg2, frame3_arg2, frame2_arg2, frame1_arg2]

/-- The whole line does not write argument 3. -/
private theorem after_ops_arg3 (V : Valuation τ sig (Elt F)) :
    after ops V (Proc.devRef .tc main_arg3) = V (Proc.devRef .tc main_arg3) := by
  rw [ops_cut, after_append, after_append, after_append, after_append,
    frame5_arg3, frame4_arg3, frame3_arg3, frame2_arg3, frame1_arg3]

/-- The whole line does not write argument 4. -/
private theorem after_ops_arg4 (V : Valuation τ sig (Elt F)) :
    after ops V (Proc.devRef .tc main_arg4) = V (Proc.devRef .tc main_arg4) := by
  rw [ops_cut, after_append, after_append, after_append, after_append,
    frame5_arg4, frame4_arg4, frame3_arg4, frame2_arg4, frame1_arg4]

/-- The whole line does not write argument 5. -/
private theorem after_ops_arg5 (V : Valuation τ sig (Elt F)) :
    after ops V (Proc.devRef .tc main_arg5) = V (Proc.devRef .tc main_arg5) := by
  rw [ops_cut, after_append, after_append, after_append, after_append,
    frame5_arg5, frame4_arg5, frame3_arg5, frame2_arg5, frame1_arg5]

/-- The whole line does not write argument 6. -/
private theorem after_ops_arg6 (V : Valuation τ sig (Elt F)) :
    after ops V (Proc.devRef .tc main_arg6) = V (Proc.devRef .tc main_arg6) := by
  rw [ops_cut, after_append, after_append, after_append, after_append,
    frame5_arg6, frame4_arg6, frame3_arg6, frame2_arg6, frame1_arg6]

/-- The whole line does not write argument 7. -/
private theorem after_ops_arg7 (V : Valuation τ sig (Elt F)) :
    after ops V (Proc.devRef .tc main_arg7) = V (Proc.devRef .tc main_arg7) := by
  rw [ops_cut, after_append, after_append, after_append, after_append,
    frame5_arg7, frame4_arg7, frame3_arg7, frame2_arg7, frame1_arg7]

/-- The whole line does not write argument 8. -/
private theorem after_ops_arg8 (V : Valuation τ sig (Elt F)) :
    after ops V (Proc.devRef .tc main_arg8) = V (Proc.devRef .tc main_arg8) := by
  rw [ops_cut, after_append, after_append, after_append, after_append,
    frame5_arg8, frame4_arg8, frame3_arg8, frame2_arg8, frame1_arg8]

/-- A value moved to a typed reference's buffer type and back is the value. -/
private theorem ofBuf_toBuf {T : BufTy} (x : TRef sig T) (v : T.Contents (Elt F)) : x.ofBuf (x.toBuf v) = v := by
  obtain ⟨r, h, _, _⟩ := x
  subst h
  rfl

/-- The first stretch from any contents `W`: `main_v25` ends at its stage function of `W`'s tokens and table. -/
private theorem stretch1 (W : Valuation τ sig (Elt F)) :
    after s1 W (Proc.devRef .tc main_v25)
      = val_main_v25 (F := F) (W (Proc.devRef .tc main_arg0)) (W (Proc.devRef .tc main_arg2)) := by
  after_results_simp <;> rfl

/-- The second stretch from any contents `W` that hold the first stretch's result and the layers' weights. -/
private theorem stretch2 (W : Valuation τ sig (Elt F)) (x0 : (⟨S16x512, .i32⟩ : BufTy).Contents (Elt F)) (x2 : (⟨S32000x256, .f32⟩ : BufTy).Contents (Elt F)) (x3 : (⟨S1024x1024, .f32⟩ : BufTy).Contents (Elt F)) (x4 : (⟨S1024, .f32⟩ : BufTy).Contents (Elt F)) (x5 : (⟨S1024x1024, .f32⟩ : BufTy).Contents (Elt F)) (x6 : (⟨S1024, .f32⟩ : BufTy).Contents (Elt F)) (x7 : (⟨S1024x32000, .f32⟩ : BufTy).Contents (Elt F)) (x8 : (⟨S32000, .f32⟩ : BufTy).Contents (Elt F))
    (h25 : W (Proc.devRef .tc main_v25) = val_main_v25 (F := F) x0 x2)
    (h3 : W (Proc.devRef .tc main_arg3) = x3) (h4 : W (Proc.devRef .tc main_arg4) = x4) (h5 : W (Proc.devRef .tc main_arg5) = x5)
    (h6 : W (Proc.devRef .tc main_arg6) = x6) (h7 : W (Proc.devRef .tc main_arg7) = x7) (h8 : W (Proc.devRef .tc main_arg8) = x8) :
    after s2 W (Proc.devRef .tc main_v39) = val_main_v39 (F := F) x0 x2 x3 x4 x5 x6 x7 x8 := by
  after_results_simp
  rw [h25, h3, h4, h5, h6, h7, h8]
  rfl

/-- The third stretch from any contents `W` that hold the logits. -/
private theorem stretch3 (W : Valuation τ sig (Elt F)) (x0 : (⟨S16x512, .i32⟩ : BufTy).Contents (Elt F)) (x2 : (⟨S32000x256, .f32⟩ : BufTy).Contents (Elt F)) (x3 : (⟨S1024x1024, .f32⟩ : BufTy).Contents (Elt F)) (x4 : (⟨S1024, .f32⟩ : BufTy).Contents (Elt F)) (x5 : (⟨S1024x1024, .f32⟩ : BufTy).Contents (Elt F)) (x6 : (⟨S1024, .f32⟩ : BufTy).Contents (Elt F)) (x7 : (⟨S1024x32000, .f32⟩ : BufTy).Contents (Elt F)) (x8 : (⟨S32000, .f32⟩ : BufTy).Contents (Elt F))
    (h39 : W (Proc.devRef .tc main_v39) = val_main_v39 (F := F) x0 x2 x3 x4 x5 x6 x7 x8) :
    after s3 W (Proc.devRef .tc main_v40) = val_main_v40 (F := F) x0 x2 x3 x4 x5 x6 x7 x8 := by
  after_results_simp
  rw [h39]
  simp only [ofBuf_toBuf]
  rfl

/-- The fourth stretch from any contents `W` that hold the log-softmax and the labels. -/
private theorem stretch4 (W : Valuation τ sig (Elt F)) (x0 : (⟨S16x512, .i32⟩ : BufTy).Contents (Elt F)) (x1 : (⟨S16x512, .i32⟩ : BufTy).Contents (Elt F)) (x2 : (⟨S32000x256, .f32⟩ : BufTy).Contents (Elt F)) (x3 : (⟨S1024x1024, .f32⟩ : BufTy).Contents (Elt F)) (x4 : (⟨S1024, .f32⟩ : BufTy).Contents (Elt F)) (x5 : (⟨S1024x1024, .f32⟩ : BufTy).Contents (Elt F)) (x6 : (⟨S1024, .f32⟩ : BufTy).Contents (Elt F)) (x7 : (⟨S1024x32000, .f32⟩ : BufTy).Contents (Elt F)) (x8 : (⟨S32000, .f32⟩ : BufTy).Contents (Elt F))
    (h40 : W (Proc.devRef .tc main_v40) = val_main_v40 (F := F) x0 x2 x3 x4 x5 x6 x7 x8)
    (h1 : W (Proc.devRef .tc main_arg1) = x1) :
    after s4 W (Proc.devRef .tc main_v44) = val_main_v44 (F := F) x0 x1 x2 x3 x4 x5 x6 x7 x8 := by
  after_results_simp
  rw [h40, h1]
  rfl

/-- The fifth stretch from any contents `W` that hold the negated log-probabilities and the labels. -/
private theorem stretch5 (W : Valuation τ sig (Elt F)) (x0 : (⟨S16x512, .i32⟩ : BufTy).Contents (Elt F)) (x1 : (⟨S16x512, .i32⟩ : BufTy).Contents (Elt F)) (x2 : (⟨S32000x256, .f32⟩ : BufTy).Contents (Elt F)) (x3 : (⟨S1024x1024, .f32⟩ : BufTy).Contents (Elt F)) (x4 : (⟨S1024, .f32⟩ : BufTy).Contents (Elt F)) (x5 : (⟨S1024x1024, .f32⟩ : BufTy).Contents (Elt F)) (x6 : (⟨S1024, .f32⟩ : BufTy).Contents (Elt F)) (x7 : (⟨S1024x32000, .f32⟩ : BufTy).Contents (Elt F)) (x8 : (⟨S32000, .f32⟩ : BufTy).Contents (Elt F))
    (h44 : W (Proc.devRef .tc main_v44) = val_main_v44 (F := F) x0 x1 x2 x3 x4 x5 x6 x7 x8)
    (h1 : W (Proc.devRef .tc main_arg1) = x1) :
    after s5 W (Proc.devRef .tc main_v55) = val_main_v55 (F := F) x0 x1 x2 x3 x4 x5 x6 x7 x8 := by
  after_results_simp
  rw [h44, h1]
  rfl

/-- The whole line from any contents `V`: the result is the last stage function of `V`'s nine arguments. Each stretch
    is read from the contents the stretches before it leave, of which it is told only the one result and the arguments
    it reads. -/
private theorem after_ops_v55 (V : Valuation τ sig (Elt F)) :
    after ops V (Proc.devRef .tc main_v55)
      = val_main_v55 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_cut, after_append, after_append, after_append, after_append]
  have e39 := stretch2 (after s1 V) _ _ _ _ _ _ _ _ (stretch1 V) (frame1_arg3 V) (frame1_arg4 V) (frame1_arg5 V)
    (frame1_arg6 V) (frame1_arg7 V) (frame1_arg8 V)
  have e40 := stretch3 (after s2 (after s1 V)) _ _ _ _ _ _ _ _ e39
  have a2 : after s2 (after s1 V) (Proc.devRef .tc main_arg1) = V (Proc.devRef .tc main_arg1) :=
    (frame2_arg1 _).trans (frame1_arg1 V)
  have a3 : after s3 (after s2 (after s1 V)) (Proc.devRef .tc main_arg1) = V (Proc.devRef .tc main_arg1) :=
    (frame3_arg1 _).trans a2
  have e44 := stretch4 (after s3 (after s2 (after s1 V))) _ _ _ _ _ _ _ _ _ e40 a3
  have a4 : after s4 (after s3 (after s2 (after s1 V))) (Proc.devRef .tc main_arg1) = V (Proc.devRef .tc main_arg1) :=
    (frame4_arg1 _).trans a3
  exact stretch5 _ _ _ _ _ _ _ _ _ _ e44 a4

/-- On every device, from any memory with zero counters: every weakly fair execution of the reference terminates with
    its result at the last stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  exact (θ_run defs _ _).mono (fun _ h c => ⟨(h c main_v55).trans (after_ops_v55 _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _)⟩)
    (run_seq scopedRefs_eq scopedSems_eq defs main (fun _ => ops) main_eq (fun _ => ops_sub) m ρ)

end Cert.ReferenceIdeal.RefRun

end
-- ==== Proof.Precond.lean ====
/-
  What the precondition says, entry by entry.

  The printed precondition is a conjunction of eight `all`-reductions: for each of the seven float inputs, every entry
  has absolute value below +∞, and every label is at least 0 and below 32000 as a signed 32-bit integer. On the
  extended reals `|x| < +∞` says exactly that `x` is a real number (neither infinity).
-/
import proofs.«424650_j90434831385111_1_alg».proof.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.Bridge.Pre

open Idealize.ShloMosaic Cert.Pre_finite_inputs

/-- The rank-0 shape has a single index: there is no axis to disagree on. -/
theorem subsingleton_scalarIdx : Subsingleton S_.Idx := ⟨fun a b => funext fun d => d.elim0⟩

/-- The f32 pattern with all exponent bits set and a zero significand denotes +∞. -/
theorem f32_posInf : Ideal.ofBits .f32 0x7F800000#32 = (⊤ : EReal) := by
  simp [Ideal.ofBits, Ideal.ieee]

/-- On the extended reals, `max a (-a) < ⊤` excludes both infinities: at `⊥` the maximum is `-⊥ = ⊤`, at `⊤` it is `⊤`,
    and `⊤ < ⊤` fails; what remains is a real number. -/
theorem real_of_abs_lt_top (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- One float conjunct, at any shape: if the conjunction over all entries of `|x i| < +∞` is 1, every entry of `x` is a
    real number. -/
theorem allFinite {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : ∃ r : ℝ, (x i : EReal) = (r : EReal) := by
  haveI := subsingleton_scalarIdx
  have h1 := Host.reduce_andi_all _ _ hr h0 j e i
  apply real_of_abs_lt_top
  rw [← f32_posInf]
  exact h1

/-- One label: the two signed comparisons `0 ≤ a` and `a < 32000`, both 1, read as inequalities of the signed value. -/
theorem label_range (a : BitVec 32) (h : IntOp.andi (IntOp.cmpi .sge a 0#32) (IntOp.cmpi .slt a 32000#32) = 1#1) :
    0 ≤ a.toInt ∧ a.toInt < 32000 := by
  obtain ⟨h1, h2⟩ := IntOp.andi_eq_one.1 h
  simp only [IntOp.cmpi, StableHlo.Predicate.ofBool_eq_one_iff, BitVec.sle, BitVec.slt, decide_eq_true_eq] at h1 h2
  have e0 : (0#32 : BitVec 32).toInt = 0 := by decide
  have e1 : (32000#32 : BitVec 32).toInt = 32000 := by decide
  rw [e0] at h1; rw [e1] at h2
  exact ⟨h1, h2⟩

/-- The elementwise `and` of two word vectors, read at an index. -/
theorem andi_apply {s : Shape} {w : Nat} (x y : IVec s w) (i : s.Idx) : andi x y i = IntOp.andi (x i) (y i) := rfl

variable [hP : Cert.Pre_finite_inputs.Facts]

/-- The precondition, decoded: every entry of every float input is a real number, and every label lies in [0, 32000)
    as a signed integer. -/
theorem decode (x0 x1 : IVec S16x512 32) (x2 : FVec Ideal S32000x256 .f32) (x3 : FVec Ideal S1024x1024 .f32)
    (x4 : FVec Ideal S1024 .f32) (x5 : FVec Ideal S1024x1024 .f32) (x6 : FVec Ideal S1024 .f32)
    (x7 : FVec Ideal S1024x32000 .f32) (x8 : FVec Ideal S32000 .f32)
    (h : Cert.Pre_finite_inputs.fn (F := Ideal) x0 x1 x2 x3 x4 x5 x6 x7 x8 = fun _ => 1#1) :
    (∀ i, ∃ r : ℝ, (x2 i : EReal) = (r : EReal)) ∧ (∀ i, ∃ r : ℝ, (x3 i : EReal) = (r : EReal))
    ∧ (∀ i, ∃ r : ℝ, (x4 i : EReal) = (r : EReal)) ∧ (∀ i, ∃ r : ℝ, (x5 i : EReal) = (r : EReal))
    ∧ (∀ i, ∃ r : ℝ, (x6 i : EReal) = (r : EReal)) ∧ (∀ i, ∃ r : ℝ, (x7 i : EReal) = (r : EReal))
    ∧ (∀ i, ∃ r : ℝ, (x8 i : EReal) = (r : EReal))
    ∧ (∀ i, 0 ≤ (x1 i).toInt ∧ (x1 i).toInt < 32000) := by
  haveI := subsingleton_scalarIdx
  -- the result has one index; read the conjunction there and split it into its eight all-reductions
  have h' := congrFun h ValueIdx.ix0
  dsimp only [Cert.Pre_finite_inputs.fn, fn_part1, fn_part2] at h'
  simp only [andi_apply, IntOp.andi_eq_one] at h'
  obtain ⟨⟨⟨⟨⟨⟨⟨h2, h3⟩, h4⟩, h5⟩, h6⟩, h7⟩, h8⟩, h1⟩ := h'
  refine ⟨allFinite x2 _ _ _ _ h2, allFinite x3 _ _ _ _ h3, allFinite x4 _ _ _ _ h4, allFinite x5 _ _ _ _ h5,
    allFinite x6 _ _ _ _ h6, allFinite x7 _ _ _ _ h7, allFinite x8 _ _ _ _ h8, fun i => ?_⟩
  -- the labels: every entry of the elementwise conjunction of the two comparisons is 1
  exact label_range (x1 i) (Host.reduce_andi_all _ _ _ _ _ h1 i)

end Cert.Bridge.Pre

end
-- ==== Proof.lean ====
/-
  The kernel and the reference compute one number: the mean over the 512 steps of the per-step mean, over the
  positions whose label is not the padding label, of the negated log-softmax of the position's logits at its label.

  Both programs embed the context tokens by the same operations, and both end with the same masked mean; between
  the two, the reference forms all 16 · 512 · 32000 logits and takes a log-softmax and a read at the label, while
  the kernel streams each row's logits in 25 tiles of 1280, keeping a running maximum, a running normaliser
  rescaled whenever the maximum grows, and the one logit that sits at the label. At the exact values (floats as
  extended reals, a change of float format the identity) the kernel's matrix products into a zero accumulator are the
  host's contractions, so the logits agree entry by entry; under the precondition every input is finite, so every
  logit is a real number, and the streamed `m + log l - g` after the last tile is `-((x t - M) - log ∑ exp (x - M))`,
  the reference's loss — provided the label is a position of the row, which is what the precondition's second part
  says (0 ≤ label < 32000). The frames of the two kernel programs are the generated ones; the reference's run is read
  stretch by stretch; the ideal pass rewrote nothing, so the kernel's idealization is its own text.
-/
import proofs.«424650_j90434831385111_1_alg».proof.Defs
import proofs.«424650_j90434831385111_1_alg».proof.Proof.Gen.Kernel
import proofs.«424650_j90434831385111_1_alg».proof.Proof.Gen.Kernel.Frame
import proofs.«424650_j90434831385111_1_alg».proof.Proof.Gen.KernelIdeal
import proofs.«424650_j90434831385111_1_alg».proof.Proof.Gen.ReferenceIdeal
import proofs.«424650_j90434831385111_1_alg».proof.Proof.Gen.Pre_finite_inputs
import proofs.«424650_j90434831385111_1_alg».proof.Proof.KernelTail
import proofs.«424650_j90434831385111_1_alg».proof.Proof.RowBridge
import proofs.«424650_j90434831385111_1_alg».proof.Proof.RefRunQ
import proofs.«424650_j90434831385111_1_alg».proof.Proof.Precond
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal Cert.KernelIdeal.Gen

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Under the precondition the kernel's output column, reshaped to 16 × 512, is the reference's per-position loss:
    row `512 · b + s` of the column is position (b, s), and the two losses agree row by row. -/
theorem column_eq (m : (ℓ : Loc nD τ sig) → Buf (Elt Ideal) ℓ) (hpre : Cert.Pre_KernelIdeal m) (c : Dev nD) :
    shapeCast S16x512 (Cert.KernelIdeal.KV.G m c) shapeCasts_S8192x1_S16x512
      = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨h2, h3, h4, h5, h6, h7, h8, htg⟩ := Cert.Bridge.Pre.decode _ _ _ _ _ _ _ _ _ (hpre c)
  funext y
  obtain ⟨b, s, rfl⟩ : ∃ (b : Fin 16) (s : Fin 512), y = ix2 b s := ⟨y 0, y 1, eq_ix2 y⟩
  rw [shapeCast_apply (Cert.KernelIdeal.KV.G m c) shapeCasts_S8192x1_S16x512 (ix2 b s)
    (ix2 ⟨512 * b.val + s.val, by omega⟩ 0)
    (by rw [Shape.rowMajor_val_two, Shape.rowMajor_val_two]; show (512 * b.val + s.val) * 1 + 0 = b.val * 512 + s.val; omega)]
  show Cert.KernelIdeal.KV.rowLoss m c ⟨512 * b.val + s.val, _⟩ = _
  unfold Cert.KernelIdeal.KV.rowLoss
  exact Cert.Bridge.Row.row_eq m c b s h2 h3 h4 h5 h6 h7 h8 (htg _).1 (htg _).2

/-- The two idealized programs, from memories that agree on the arguments, end with equal results: the shared tail of
    the same per-position loss and the same labels. -/
theorem algebraic : Cert.algebraic_KernelIdeal_ReferenceIdeal := by
  intro m ρ m' ρ' hpre hagree
  refine ⟨fun c => Cert.Bridge.Ref.tail (F := Ideal)
      (shapeCast S16x512 (Cert.KernelIdeal.KV.G m c) shapeCasts_S8192x1_S16x512) (m ((c : Thread nD τ).loc main_arg1)),
    Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8, Cert.Bridge.Ref.result_eq_tail]
  beta_reduce
  rw [column_eq m hpre c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
